-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S3200000 : Shape := ⟨1, ![3200000]⟩
abbrev S3x30x30 : Shape := ⟨3, ![3, 30, 30]⟩
abbrev S3x30 : Shape := ⟨2, ![3, 30]⟩
abbrev S90x30 : Shape := ⟨2, ![90, 30]⟩
abbrev S90 : Shape := ⟨1, ![90]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S3x30x30 : S_.BroadcastsInDim S3x30x30 (![] : Fin 0 → Fin S3x30x30.rank)
  reducesTo_S3x30x30_S_d0_1_2 : S3x30x30.ReducesTo [0, 1, 2] S_
  bcast_S_S3x30 : S_.BroadcastsInDim S3x30 (![] : Fin 0 → Fin S3x30.rank)
  reducesTo_S3x30_S_d0_1 : S3x30.ReducesTo [0, 1] S_
  bcast_S_S90x30 : S_.BroadcastsInDim S90x30 (![] : Fin 0 → Fin S90x30.rank)
  reducesTo_S90x30_S_d0_1 : S90x30.ReducesTo [0, 1] S_
  bcast_S_S90 : S_.BroadcastsInDim S90 (![] : Fin 0 → Fin S90.rank)
  reducesTo_S90_S_d0 : S90.ReducesTo [0] S_
  bcast_S_S3200000 : S_.BroadcastsInDim S3200000 (![] : Fin 0 → Fin S3200000.rank)
  reducesTo_S3200000_S_d0 : S3200000.ReducesTo [0] S_

variable [Facts]

def fn_part5 {F : FTy → Type} [FloatOps F] (main_arg4 : IVec S3200000 32) (main_arg5 : IVec S3200000 32) (main_v84 : IVec S_ 1) : IVec S_ 1 :=
  let main_c_33 : IVec S_ 32 := constantI S_ 32 0#32
  let main_v85 : IVec S3200000 32 := broadcastInDim S3200000 ![] bcast_S_S3200000 main_c_33
  let main_v86 : IVec S3200000 1 := cmpi .sge main_arg4 main_v85
  let main_c_34 : IVec S_ 32 := constantI S_ 32 100000#32
  let main_v87 : IVec S3200000 32 := broadcastInDim S3200000 ![] bcast_S_S3200000 main_c_34
  let main_v88 : IVec S3200000 1 := cmpi .slt main_arg4 main_v87
  let main_v89 : IVec S3200000 1 := andi main_v86 main_v88
  let main_c_35 : IVec S_ 1 := constantI S_ 1 1#1
  let main_v90 : IVec S_ 1 := (fun x v => Host.reduce IntOp.andi x v reducesTo_S3200000_S_d0 h_S_) main_v89 main_c_35
  let main_v91 : IVec S_ 1 := andi main_v84 main_v90
  let main_c_36 : IVec S_ 32 := constantI S_ 32 0#32
  let main_v92 : IVec S3200000 32 := broadcastInDim S3200000 ![] bcast_S_S3200000 main_c_36
  let main_v93 : IVec S3200000 1 := cmpi .sge main_arg5 main_v92
  let main_c_37 : IVec S_ 32 := constantI S_ 32 100000#32
  let main_v94 : IVec S3200000 32 := broadcastInDim S3200000 ![] bcast_S_S3200000 main_c_37
  let main_v95 : IVec S3200000 1 := cmpi .slt main_arg5 main_v94
  let main_v96 : IVec S3200000 1 := andi main_v93 main_v95
  let main_c_38 : IVec S_ 1 := constantI S_ 1 1#1
  let main_v97 : IVec S_ 1 := (fun x v => Host.reduce IntOp.andi x v reducesTo_S3200000_S_d0 h_S_) main_v96 main_c_38
  let main_v98 : IVec S_ 1 := andi main_v91 main_v97
  main_v98

def fn_part4 {F : FTy → Type} [FloatOps F] (main_arg2 : IVec S3200000 32) (main_arg3 : IVec S3200000 32) (main_arg4 : IVec S3200000 32) (main_arg5 : IVec S3200000 32) (main_v63 : IVec S_ 1) (main_v65 : IVec S3200000 1) (main_v67 : IVec S3200000 1) : IVec S_ 1 :=
  let main_v68 : IVec S3200000 1 := andi main_v65 main_v67
  let main_c_26 : IVec S_ 1 := constantI S_ 1 1#1
  let main_v69 : IVec S_ 1 := (fun x v => Host.reduce IntOp.andi x v reducesTo_S3200000_S_d0 h_S_) main_v68 main_c_26
  let main_v70 : IVec S_ 1 := andi main_v63 main_v69
  let main_c_27 : IVec S_ 32 := constantI S_ 32 0#32
  let main_v71 : IVec S3200000 32 := broadcastInDim S3200000 ![] bcast_S_S3200000 main_c_27
  let main_v72 : IVec S3200000 1 := cmpi .sge main_arg2 main_v71
  let main_c_28 : IVec S_ 32 := constantI S_ 32 100000#32
  let main_v73 : IVec S3200000 32 := broadcastInDim S3200000 ![] bcast_S_S3200000 main_c_28
  let main_v74 : IVec S3200000 1 := cmpi .slt main_arg2 main_v73
  let main_v75 : IVec S3200000 1 := andi main_v72 main_v74
  let main_c_29 : IVec S_ 1 := constantI S_ 1 1#1
  let main_v76 : IVec S_ 1 := (fun x v => Host.reduce IntOp.andi x v reducesTo_S3200000_S_d0 h_S_) main_v75 main_c_29
  let main_v77 : IVec S_ 1 := andi main_v70 main_v76
  let main_c_30 : IVec S_ 32 := constantI S_ 32 0#32
  let main_v78 : IVec S3200000 32 := broadcastInDim S3200000 ![] bcast_S_S3200000 main_c_30
  let main_v79 : IVec S3200000 1 := cmpi .sge main_arg3 main_v78
  let main_c_31 : IVec S_ 32 := constantI S_ 32 3#32
  let main_v80 : IVec S3200000 32 := broadcastInDim S3200000 ![] bcast_S_S3200000 main_c_31
  let main_v81 : IVec S3200000 1 := cmpi .slt main_arg3 main_v80
  let main_v82 : IVec S3200000 1 := andi main_v79 main_v81
  let main_c_32 : IVec S_ 1 := constantI S_ 1 1#1
  let main_v83 : IVec S_ 1 := (fun x v => Host.reduce IntOp.andi x v reducesTo_S3200000_S_d0 h_S_) main_v82 main_c_32
  let main_v84 : IVec S_ 1 := andi main_v77 main_v83
  fn_part5 (F := F) main_arg4 main_arg5 main_v84

def fn_part3 {F : FTy → Type} [FloatOps F] (main_arg1 : IVec S3200000 32) (main_arg2 : IVec S3200000 32) (main_arg3 : IVec S3200000 32) (main_arg4 : IVec S3200000 32) (main_arg5 : IVec S3200000 32) (main_arg16 : FVec F S90 .f32) (main_arg17 : FVec F S90 .f32) (main_v48 : IVec S_ 1) (main_v49 : FVec F S90x30 .f32) (main_v50 : FVec F S90x30 .f32) : IVec S_ 1 :=
  let main_v51 : IVec S90x30 1 := cmpf .olt main_v49 main_v50
  let main_c_19 : IVec S_ 1 := constantI S_ 1 1#1
  let main_v52 : IVec S_ 1 := (fun x v => Host.reduce IntOp.andi x v reducesTo_S90x30_S_d0_1 h_S_) main_v51 main_c_19
  let main_v53 : IVec S_ 1 := andi main_v48 main_v52
  let main_v54 : FVec F S90 .f32 := Host.absf main_arg16
  let main_cst_20 : FVec F S_ .f32 := constant S_ .f32 0x7F800000#32
  let main_v55 : FVec F S90 .f32 := broadcastInDim S90 ![] bcast_S_S90 main_cst_20
  let main_v56 : IVec S90 1 := cmpf .olt main_v54 main_v55
  let main_c_21 : IVec S_ 1 := constantI S_ 1 1#1
  let main_v57 : IVec S_ 1 := (fun x v => Host.reduce IntOp.andi x v reducesTo_S90_S_d0 h_S_) main_v56 main_c_21
  let main_v58 : IVec S_ 1 := andi main_v53 main_v57
  let main_v59 : FVec F S90 .f32 := Host.absf main_arg17
  let main_cst_22 : FVec F S_ .f32 := constant S_ .f32 0x7F800000#32
  let main_v60 : FVec F S90 .f32 := broadcastInDim S90 ![] bcast_S_S90 main_cst_22
  let main_v61 : IVec S90 1 := cmpf .olt main_v59 main_v60
  let main_c_23 : IVec S_ 1 := constantI S_ 1 1#1
  let main_v62 : IVec S_ 1 := (fun x v => Host.reduce IntOp.andi x v reducesTo_S90_S_d0 h_S_) main_v61 main_c_23
  let main_v63 : IVec S_ 1 := andi main_v58 main_v62
  let main_c_24 : IVec S_ 32 := constantI S_ 32 0#32
  let main_v64 : IVec S3200000 32 := broadcastInDim S3200000 ![] bcast_S_S3200000 main_c_24
  let main_v65 : IVec S3200000 1 := cmpi .sge main_arg1 main_v64
  let main_c_25 : IVec S_ 32 := constantI S_ 32 100000#32
  let main_v66 : IVec S3200000 32 := broadcastInDim S3200000 ![] bcast_S_S3200000 main_c_25
  let main_v67 : IVec S3200000 1 := cmpi .slt main_arg1 main_v66
  fn_part4 (F := F) main_arg2 main_arg3 main_arg4 main_arg5 main_v63 main_v65 main_v67

def fn_part2 {F : FTy → Type} [FloatOps F] (main_arg1 : IVec S3200000 32) (main_arg2 : IVec S3200000 32) (main_arg3 : IVec S3200000 32) (main_arg4 : IVec S3200000 32) (main_arg5 : IVec S3200000 32) (main_arg12 : FVec F S3x30x30 .f32) (main_arg13 : FVec F S3x30 .f32) (main_arg14 : FVec F S90x30 .f32) (main_arg15 : FVec F S90x30 .f32) (main_arg16 : FVec F S90 .f32) (main_arg17 : FVec F S90 .f32) (main_v33 : IVec S_ 1) : IVec S_ 1 :=
  let main_v34 : FVec F S3x30x30 .f32 := Host.absf main_arg12
  let main_cst_12 : FVec F S_ .f32 := constant S_ .f32 0x7F800000#32
  let main_v35 : FVec F S3x30x30 .f32 := broadcastInDim S3x30x30 ![] bcast_S_S3x30x30 main_cst_12
  let main_v36 : IVec S3x30x30 1 := cmpf .olt main_v34 main_v35
  let main_c_13 : IVec S_ 1 := constantI S_ 1 1#1
  let main_v37 : IVec S_ 1 := (fun x v => Host.reduce IntOp.andi x v reducesTo_S3x30x30_S_d0_1_2 h_S_) main_v36 main_c_13
  let main_v38 : IVec S_ 1 := andi main_v33 main_v37
  let main_v39 : FVec F S3x30 .f32 := Host.absf main_arg13
  let main_cst_14 : FVec F S_ .f32 := constant S_ .f32 0x7F800000#32
  let main_v40 : FVec F S3x30 .f32 := broadcastInDim S3x30 ![] bcast_S_S3x30 main_cst_14
  let main_v41 : IVec S3x30 1 := cmpf .olt main_v39 main_v40
  let main_c_15 : IVec S_ 1 := constantI S_ 1 1#1
  let main_v42 : IVec S_ 1 := (fun x v => Host.reduce IntOp.andi x v reducesTo_S3x30_S_d0_1 h_S_) main_v41 main_c_15
  let main_v43 : IVec S_ 1 := andi main_v38 main_v42
  let main_v44 : FVec F S90x30 .f32 := Host.absf main_arg14
  let main_cst_16 : FVec F S_ .f32 := constant S_ .f32 0x7F800000#32
  let main_v45 : FVec F S90x30 .f32 := broadcastInDim S90x30 ![] bcast_S_S90x30 main_cst_16
  let main_v46 : IVec S90x30 1 := cmpf .olt main_v44 main_v45
  let main_c_17 : IVec S_ 1 := constantI S_ 1 1#1
  let main_v47 : IVec S_ 1 := (fun x v => Host.reduce IntOp.andi x v reducesTo_S90x30_S_d0_1 h_S_) main_v46 main_c_17
  let main_v48 : IVec S_ 1 := andi main_v43 main_v47
  let main_v49 : FVec F S90x30 .f32 := Host.absf main_arg15
  let main_cst_18 : FVec F S_ .f32 := constant S_ .f32 0x7F800000#32
  let main_v50 : FVec F S90x30 .f32 := broadcastInDim S90x30 ![] bcast_S_S90x30 main_cst_18
  fn_part3 (F := F) main_arg1 main_arg2 main_arg3 main_arg4 main_arg5 main_arg16 main_arg17 main_v48 main_v49 main_v50

def fn_part1 {F : FTy → Type} [FloatOps F] (main_arg1 : IVec S3200000 32) (main_arg2 : IVec S3200000 32) (main_arg3 : IVec S3200000 32) (main_arg4 : IVec S3200000 32) (main_arg5 : IVec S3200000 32) (main_arg9 : FVec F S90x30 .f32) (main_arg10 : FVec F S90 .f32) (main_arg11 : FVec F S90 .f32) (main_arg12 : FVec F S3x30x30 .f32) (main_arg13 : FVec F S3x30 .f32) (main_arg14 : FVec F S90x30 .f32) (main_arg15 : FVec F S90x30 .f32) (main_arg16 : FVec F S90 .f32) (main_arg17 : FVec F S90 .f32) (main_v13 : IVec S_ 1) (main_v16 : IVec S90x30 1) : IVec S_ 1 :=
  let main_c_5 : IVec S_ 1 := constantI S_ 1 1#1
  let main_v17 : IVec S_ 1 := (fun x v => Host.reduce IntOp.andi x v reducesTo_S90x30_S_d0_1 h_S_) main_v16 main_c_5
  let main_v18 : IVec S_ 1 := andi main_v13 main_v17
  let main_v19 : FVec F S90x30 .f32 := Host.absf main_arg9
  let main_cst_6 : FVec F S_ .f32 := constant S_ .f32 0x7F800000#32
  let main_v20 : FVec F S90x30 .f32 := broadcastInDim S90x30 ![] bcast_S_S90x30 main_cst_6
  let main_v21 : IVec S90x30 1 := cmpf .olt main_v19 main_v20
  let main_c_7 : IVec S_ 1 := constantI S_ 1 1#1
  let main_v22 : IVec S_ 1 := (fun x v => Host.reduce IntOp.andi x v reducesTo_S90x30_S_d0_1 h_S_) main_v21 main_c_7
  let main_v23 : IVec S_ 1 := andi main_v18 main_v22
  let main_v24 : FVec F S90 .f32 := Host.absf main_arg10
  let main_cst_8 : FVec F S_ .f32 := constant S_ .f32 0x7F800000#32
  let main_v25 : FVec F S90 .f32 := broadcastInDim S90 ![] bcast_S_S90 main_cst_8
  let main_v26 : IVec S90 1 := cmpf .olt main_v24 main_v25
  let main_c_9 : IVec S_ 1 := constantI S_ 1 1#1
  let main_v27 : IVec S_ 1 := (fun x v => Host.reduce IntOp.andi x v reducesTo_S90_S_d0 h_S_) main_v26 main_c_9
  let main_v28 : IVec S_ 1 := andi main_v23 main_v27
  let main_v29 : FVec F S90 .f32 := Host.absf main_arg11
  let main_cst_10 : FVec F S_ .f32 := constant S_ .f32 0x7F800000#32
  let main_v30 : FVec F S90 .f32 := broadcastInDim S90 ![] bcast_S_S90 main_cst_10
  let main_v31 : IVec S90 1 := cmpf .olt main_v29 main_v30
  let main_c_11 : IVec S_ 1 := constantI S_ 1 1#1
  let main_v32 : IVec S_ 1 := (fun x v => Host.reduce IntOp.andi x v reducesTo_S90_S_d0 h_S_) main_v31 main_c_11
  let main_v33 : IVec S_ 1 := andi main_v28 main_v32
  fn_part2 (F := F) main_arg1 main_arg2 main_arg3 main_arg4 main_arg5 main_arg12 main_arg13 main_arg14 main_arg15 main_arg16 main_arg17 main_v33

def fn {F : FTy → Type} [FloatOps F] (main_arg0 : FVec F S100000x30 .f32) (main_arg1 : IVec S3200000 32) (main_arg2 : IVec S3200000 32) (main_arg3 : IVec S3200000 32) (main_arg4 : IVec S3200000 32) (main_arg5 : IVec S3200000 32) (main_arg6 : FVec F S3x30x30 .f32) (main_arg7 : FVec F S3x30 .f32) (main_arg8 : FVec F S90x30 .f32) (main_arg9 : FVec F S90x30 .f32) (main_arg10 : FVec F S90 .f32) (main_arg11 : FVec F S90 .f32) (main_arg12 : FVec F S3x30x30 .f32) (main_arg13 : FVec F S3x30 .f32) (main_arg14 : FVec F S90x30 .f32) (main_arg15 : FVec F S90x30 .f32) (main_arg16 : FVec F S90 .f32) (main_arg17 : FVec F S90 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S3x30x30 .f32 := Host.absf main_arg6
  let main_cst_0 : FVec F S_ .f32 := constant S_ .f32 0x7F800000#32
  let main_v5 : FVec F S3x30x30 .f32 := broadcastInDim S3x30x30 ![] bcast_S_S3x30x30 main_cst_0
  let main_v6 : IVec S3x30x30 1 := cmpf .olt main_v4 main_v5
  let main_c_1 : IVec S_ 1 := constantI S_ 1 1#1
  let main_v7 : IVec S_ 1 := (fun x v => Host.reduce IntOp.andi x v reducesTo_S3x30x30_S_d0_1_2 h_S_) main_v6 main_c_1
  let main_v8 : IVec S_ 1 := andi main_v3 main_v7
  let main_v9 : FVec F S3x30 .f32 := Host.absf main_arg7
  let main_cst_2 : FVec F S_ .f32 := constant S_ .f32 0x7F800000#32
  let main_v10 : FVec F S3x30 .f32 := broadcastInDim S3x30 ![] bcast_S_S3x30 main_cst_2
  let main_v11 : IVec S3x30 1 := cmpf .olt main_v9 main_v10
  let main_c_3 : IVec S_ 1 := constantI S_ 1 1#1
  let main_v12 : IVec S_ 1 := (fun x v => Host.reduce IntOp.andi x v reducesTo_S3x30_S_d0_1 h_S_) main_v11 main_c_3
  let main_v13 : IVec S_ 1 := andi main_v8 main_v12
  let main_v14 : FVec F S90x30 .f32 := Host.absf main_arg8
  let main_cst_4 : FVec F S_ .f32 := constant S_ .f32 0x7F800000#32
  let main_v15 : FVec F S90x30 .f32 := broadcastInDim S90x30 ![] bcast_S_S90x30 main_cst_4
  let main_v16 : IVec S90x30 1 := cmpf .olt main_v14 main_v15
  fn_part1 (F := F) main_arg1 main_arg2 main_arg3 main_arg4 main_arg5 main_arg9 main_arg10 main_arg11 main_arg12 main_arg13 main_arg14 main_arg15 main_arg16 main_arg17 main_v13 main_v16
-- ==== Kernel.lean ====
abbrev S100000x30 : Shape := ⟨2, ![100000, 30]⟩
abbrev S3200000 : Shape := ⟨1, ![3200000]⟩
abbrev S3x30x30 : Shape := ⟨3, ![3, 30, 30]⟩
abbrev S3x30 : Shape := ⟨2, ![3, 30]⟩
abbrev S90x30 : Shape := ⟨2, ![90, 30]⟩
abbrev S90 : Shape := ⟨1, ![90]⟩
abbrev S3x100000x30 : Shape := ⟨3, ![3, 100000, 30]⟩
abbrev S5000x30 : Shape := ⟨2, ![5000, 30]⟩
abbrev S3x5000x30 : Shape := ⟨3, ![3, 5000, 30]⟩
abbrev S1x30x30 : Shape := ⟨3, ![1, 30, 30]⟩
abbrev S30x30 : Shape := ⟨2, ![30, 30]⟩
abbrev S1x30 : Shape := ⟨2, ![1, 30]⟩
abbrev S30 : Shape := ⟨1, ![30]⟩
abbrev S1x5000x30 : Shape := ⟨3, ![1, 5000, 30]⟩
abbrev S300000x30 : Shape := ⟨2, ![300000, 30]⟩
abbrev S_ : Shape := ⟨0, ![]⟩
abbrev S3200000x1 : Shape := ⟨2, ![3200000, 1]⟩
abbrev S3200000x30 : Shape := ⟨2, ![3200000, 30]⟩
abbrev S30x90 : Shape := ⟨2, ![30, 90]⟩
abbrev S5000x90 : Shape := ⟨2, ![5000, 90]⟩
abbrev S1x90 : Shape := ⟨2, ![1, 90]⟩

abbrev nBuf : Space → Nat
  | .hbm => 68
  | .vmem => 32
  | .smem => 0
  | _ => 0

abbrev bufTy : (tb : Table) → Fin (tcTables nBuf tb) → BufTy
  | .hbm, ⟨0, _⟩ => ⟨S100000x30, .f32⟩
  | .hbm, ⟨1, _⟩ => ⟨S3200000, .i32⟩
  | .hbm, ⟨2, _⟩ => ⟨S3200000, .i32⟩
  | .hbm, ⟨3, _⟩ => ⟨S3200000, .i32⟩
  | .hbm, ⟨4, _⟩ => ⟨S3200000, .i32⟩
  | .hbm, ⟨5, _⟩ => ⟨S3200000, .i32⟩
  | .hbm, ⟨6, _⟩ => ⟨S3x30x30, .f32⟩
  | .hbm, ⟨7, _⟩ => ⟨S3x30, .f32⟩
  | .hbm, ⟨8, _⟩ => ⟨S90x30, .f32⟩
  | .hbm, ⟨9, _⟩ => ⟨S90x30, .f32⟩
  | .hbm, ⟨10, _⟩ => ⟨S90, .f32⟩
  | .hbm, ⟨11, _⟩ => ⟨S90, .f32⟩
  | .hbm, ⟨12, _⟩ => ⟨S3x30x30, .f32⟩
  | .hbm, ⟨13, _⟩ => ⟨S3x30, .f32⟩
  | .hbm, ⟨14, _⟩ => ⟨S90x30, .f32⟩
  | .hbm, ⟨15, _⟩ => ⟨S90x30, .f32⟩
  | .hbm, ⟨16, _⟩ => ⟨S90, .f32⟩
  | .hbm, ⟨17, _⟩ => ⟨S90, .f32⟩
  | .hbm, ⟨18, _⟩ => ⟨S3x30x30, .f32⟩
  | .hbm, ⟨19, _⟩ => ⟨S3x100000x30, .bf16⟩
  | .hbm, ⟨20, _⟩ => ⟨S300000x30, .bf16⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x30, .bf16⟩
  | .hbm, ⟨27, _⟩ => ⟨S3200000x30, .f32⟩
  | .hbm, ⟨28, _⟩ => ⟨S_, .f32⟩
  | .hbm, ⟨29, _⟩ => ⟨S100000x30, .f32⟩
  | .hbm, ⟨30, _⟩ => ⟨S3200000x1, .i32⟩
  | .hbm, ⟨31, _⟩ => ⟨S100000x30, .f32⟩
  | .hbm, ⟨32, _⟩ => ⟨S30x90, .f32⟩
  | .hbm, ⟨33, _⟩ => ⟨S30x90, .f32⟩
  | .hbm, ⟨34, _⟩ => ⟨S100000x30, .f32⟩
  | .hbm, ⟨35, _⟩ => ⟨S3x30x30, .f32⟩
  | .hbm, ⟨36, _⟩ => ⟨S3x100000x30, .bf16⟩
  | .hbm, ⟨37, _⟩ => ⟨S300000x30, .bf16⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000x30, .bf16⟩
  | .hbm, ⟨44, _⟩ => ⟨S3200000x30, .f32⟩
  | .hbm, ⟨45, _⟩ => ⟨S_, .f32⟩
  | .hbm, ⟨46, _⟩ => ⟨S100000x30, .f32⟩
  | .hbm, ⟨47, _⟩ => ⟨S3200000x1, .i32⟩
  | .hbm, ⟨48, _⟩ => ⟨S100000x30, .f32⟩
  | .hbm, ⟨49, _⟩ => ⟨S30x90, .f32⟩
  | .hbm, ⟨50, _⟩ => ⟨S30x90, .f32⟩
  | .hbm, ⟨51, _⟩ => ⟨S100000x30, .f32⟩
  | .hbm, ⟨52, _⟩ => ⟨S3200000x1, .i32⟩
  | .hbm, ⟨53, _⟩ => ⟨S3200000x30, .f32⟩
  | .hbm, ⟨54, _⟩ => ⟨S3200000x1, .i32⟩
  | .hbm, ⟨55, _⟩ => ⟨S3200000x30, .f32⟩
  | .hbm, ⟨56, _⟩ => ⟨S3200000x30, .f32⟩
  | .hbm, ⟨57, _⟩ => ⟨S_, .f32⟩
  | .hbm, ⟨58, _⟩ => ⟨S3200000, .f32⟩
  | .hbm, ⟨59, _⟩ => ⟨S3200000x1, .f32⟩
  | .hbm, ⟨60, _⟩ => ⟨S3200000x1, .i32⟩
  | .hbm, ⟨61, _⟩ => ⟨S3200000x30, .f32⟩
  | .hbm, ⟨62, _⟩ => ⟨S3200000x1, .i32⟩
  | .hbm, ⟨63, _⟩ => ⟨S3200000x30, .f32⟩
  | .hbm, ⟨64, _⟩ => ⟨S3200000x30, .f32⟩
  | .hbm, ⟨65, _⟩ => ⟨S_, .f32⟩
  | .hbm, ⟨66, _⟩ => ⟨S3200000, .f32⟩
  | .hbm, ⟨67, _⟩ => ⟨S3200000x1, .f32⟩
  | .local _ .vmem, ⟨0, _⟩ => ⟨S5000x30, .f32⟩
  | .local _ .vmem, ⟨1, _⟩ => ⟨S5000x30, .f32⟩
  | .local _ .vmem, ⟨2, _⟩ => ⟨S3x30x30, .f32⟩
  | .local _ .vmem, ⟨3, _⟩ => ⟨S3x30, .f32⟩
  | .local _ .vmem, ⟨4, _⟩ => ⟨S3x5000x30, .bf16⟩
  | .local _ .vmem, ⟨5, _⟩ => ⟨S3x5000x30, .bf16⟩
  | .local _ .vmem, ⟨6, _⟩ => ⟨S5000x30, .f32⟩
  | .local _ .vmem, ⟨7, _⟩ => ⟨S5000x30, .f32⟩
  | .local _ .vmem, ⟨8, _⟩ => ⟨S5000x30, .f32⟩
  | .local _ .vmem, ⟨9, _⟩ => ⟨S5000x30, .f32⟩
  | .local _ .vmem, ⟨10, _⟩ => ⟨S30x90, .f32⟩
  | .local _ .vmem, ⟨11, _⟩ => ⟨S30x90, .f32⟩
  | .local _ .vmem, ⟨12, _⟩ => ⟨S90, .f32⟩
  | .local _ .vmem, ⟨13, _⟩ => ⟨S90, .f32⟩
  | .local _ .vmem, ⟨14, _⟩ => ⟨S5000x30, .f32⟩
  | .local _ .vmem, ⟨15, _⟩ => ⟨S5000x30, .f32⟩
  | .local _ .vmem, ⟨16, _⟩ => ⟨S5000x30, .f32⟩
  | .local _ .vmem, ⟨17, _⟩ => ⟨S5000x30, .f32⟩
  | .local _ .vmem, ⟨18, _⟩ => ⟨S3x30x30, .f32⟩
  | .local _ .vmem, ⟨19, _⟩ => ⟨S3x30, .f32⟩
  | .local _ .vmem, ⟨20, _⟩ => ⟨S3x5000x30, .bf16⟩
  | .local _ .vmem, ⟨21, _⟩ => ⟨S3x5000x30, .bf16⟩
  | .local _ .vmem, ⟨22, _⟩ => ⟨S5000x30, .f32⟩
  | .local _ .vmem, ⟨23, _⟩ => ⟨S5000x30, .f32⟩
  | .local _ .vmem, ⟨24, _⟩ => ⟨S5000x30, .f32⟩
  | .local _ .vmem, ⟨25, _⟩ => ⟨S5000x30, .f32⟩
  | .local _ .vmem, ⟨26, _⟩ => ⟨S30x90, .f32⟩
  | .local _ .vmem, ⟨27, _⟩ => ⟨S30x90, .f32⟩
  | .local _ .vmem, ⟨28, _⟩ => ⟨S90, .f32⟩
  | .local _ .vmem, ⟨29, _⟩ => ⟨S90, .f32⟩
  | .local _ .vmem, ⟨30, _⟩ => ⟨S5000x30, .f32⟩
  | .local _ .vmem, ⟨31, _⟩ => ⟨S5000x30, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call0_v0 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call2_v0 : Ref sig .tc := ⟨.hbm, 52, rfl⟩
abbrev main_v28 : Ref sig .tc := ⟨.hbm, 53, rfl⟩
abbrev main_call3_v0 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_v31 : Ref sig .tc := ⟨.hbm, 58, rfl⟩
abbrev main_v32 : Ref sig .tc := ⟨.hbm, 59, rfl⟩
abbrev main_call4_v0 : Ref sig .tc := ⟨.hbm, 60, rfl⟩
abbrev main_v33 : Ref sig .tc := ⟨.hbm, 61, rfl⟩
abbrev main_call5_v0 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x5000x30 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x30 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S30x90 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S30x90 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S90 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S90 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x30 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S5000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x30x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3x5000x30 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x30 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S30x90 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S30x90 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S90 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S90 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x30 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S3x30x30_S3x30x30_0_2_1 : S3x30x30.Transposes [0, 2, 1] S3x30x30
  inb_S5000x30_S5000x30_0_0 : ∀ a, (![0, 0] : Fin 2 → Nat) a + S5000x30.size a ≤ S5000x30.size a
  h_S5000x30 : 0 < S5000x30.numel
  bitsLt_bf16_f32 : FTy.bits .bf16 < FTy.bits .f32
  inb_S3x30x30_S1x30x30_0_0_0 : ∀ a, (![0, 0, 0] : Fin 3 → Nat) a + S1x30x30.size a ≤ S3x30x30.size a
  h_S1x30x30 : 0 < S1x30x30.numel
  shapeCasts_S1x30x30_S30x30 : S1x30x30.ShapeCasts S30x30
  inb_S3x30_S1x30_0_0 : ∀ a, (![0, 0] : Fin 2 → Nat) a + S1x30.size a ≤ S3x30.size a
  h_S1x30 : 0 < S1x30.numel
  shapeCasts_S1x30_S30 : S1x30.ShapeCasts S30
  shapeCasts_S30_S1x30 : S30.ShapeCasts S1x30
  broadcasts_S1x30_S5000x30 : S1x30.Broadcasts S5000x30
  inb_S3x5000x30_S1x5000x30_0_0_0 : ∀ a, (![0, 0, 0] : Fin 3 → Nat) a + S1x5000x30.size a ≤ S3x5000x30.size a
  h_S1x5000x30 : 0 < S1x5000x30.numel
  shapeCasts_S1x5000x30_S5000x30 : S1x5000x30.ShapeCasts S5000x30
  shapeCasts_S5000x30_S1x5000x30 : S5000x30.ShapeCasts S1x5000x30
  packedbf16_S3x5000x30_S1x5000x30_0_0_0 : (Rect.unit (s := S3x5000x30) ![0, 0, 0] S1x5000x30.size inb_S3x5000x30_S1x5000x30_0_0_0).PackedRows (EltTy.packing .bf16)
  inb_S3x30x30_S1x30x30_1_0_0 : ∀ a, (![1, 0, 0] : Fin 3 → Nat) a + S1x30x30.size a ≤ S3x30x30.size a
  inb_S3x30_S1x30_1_0 : ∀ a, (![1, 0] : Fin 2 → Nat) a + S1x30.size a ≤ S3x30.size a
  inb_S3x5000x30_S1x5000x30_1_0_0 : ∀ a, (![1, 0, 0] : Fin 3 → Nat) a + S1x5000x30.size a ≤ S3x5000x30.size a
  packedbf16_S3x5000x30_S1x5000x30_1_0_0 : (Rect.unit (s := S3x5000x30) ![1, 0, 0] S1x5000x30.size inb_S3x5000x30_S1x5000x30_1_0_0).PackedRows (EltTy.packing .bf16)
  inb_S3x30x30_S1x30x30_2_0_0 : ∀ a, (![2, 0, 0] : Fin 3 → Nat) a + S1x30x30.size a ≤ S3x30x30.size a
  inb_S3x30_S1x30_2_0 : ∀ a, (![2, 0] : Fin 2 → Nat) a + S1x30.size a ≤ S3x30.size a
  inb_S3x5000x30_S1x5000x30_2_0_0 : ∀ a, (![2, 0, 0] : Fin 3 → Nat) a + S1x5000x30.size a ≤ S3x5000x30.size a
  packedbf16_S3x5000x30_S1x5000x30_2_0_0 : (Rect.unit (s := S3x5000x30) ![2, 0, 0] S1x5000x30.size inb_S3x5000x30_S1x5000x30_2_0_0).PackedRows (EltTy.packing .bf16)
  shapeCasts_S3x100000x30_S300000x30 : S3x100000x30.ShapeCasts S300000x30
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x30 : S_.BroadcastsInDim S100000x30 (![] : Fin 0 → Fin S100000x30.rank)
  transposes_S90x30_S30x90_1_0 : S90x30.Transposes [1, 0] S30x90
  shapeCasts_S5000x30_S5000x30 : S5000x30.ShapeCasts S5000x30
  inb_S30x90_S30x90_0_0 : ∀ a, (![0, 0] : Fin 2 → Nat) a + S30x90.size a ≤ S30x90.size a
  h_S30x90 : 0 < S30x90.numel
  shapeCasts_S30x90_S30x90 : S30x90.ShapeCasts S30x90
  inb_S90_S90_0 : ∀ a, (![0] : Fin 1 → Nat) a + S90.size a ≤ S90.size a
  h_S90 : 0 < S90.numel
  shapeCasts_S90_S1x90 : S90.ShapeCasts S1x90
  broadcasts_S1x90_S5000x90 : S1x90.Broadcasts S5000x90
  slices_S5000x90_o0_0_S5000x30 : S5000x90.Slices ![0, 0] S5000x30
  slices_S5000x90_o0_30_S5000x30 : S5000x90.Slices ![0, 30] S5000x30
  slices_S5000x90_o0_60_S5000x30 : S5000x90.Slices ![0, 60] S5000x30
  reducesTo_S3200000x30_S3200000_d1 : S3200000x30.ReducesTo [1] S3200000
  h_S_ : 0 < S_.numel
  dot_S5000x30_S30x30_S5000x30_1_0_0_1_n_n_wf : DotDims.WF S5000x30 S30x30 S5000x30 [1] [0] [0] [1] [] []
  gather_S300000x30_S3200000x1_S3200000x30_1_0_n_n_0_1_130_wf : GatherDims.WF S300000x30 S3200000x1 S3200000x30 [1] [0] [] [0] [] 1 ![1, 30]
  scatter_S100000x30_S3200000x1_S3200000x30_1_0_0_1_wf : ScatterDims.WF S100000x30 S3200000x1 S3200000x30 [1] [0] [0] 1
  dot_S5000x30_S30x90_S5000x90_1_0_0_1_n_n_wf : DotDims.WF S5000x30 S30x90 S5000x90 [1] [0] [0] [1] [] []
  gather_S100000x30_S3200000x1_S3200000x30_1_0_n_n_0_1_130_wf : GatherDims.WF S100000x30 S3200000x1 S3200000x30 [1] [0] [] [0] [] 1 ![1, 30]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S100000x30.size a
  hwx0_0 : ∀ i : grid0.Coords, EltTy.bits .f32 = 32 ∨ (Rect.block (s := S100000x30) S5000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x30x30.size a ≤ S3x30x30.size a
  hwx0_1 : ∀ i : grid0.Coords, EltTy.bits .f32 = 32 ∨ (Rect.block (s := S3x30x30) S3x30x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x30.size a ≤ S3x30.size a
  hwx0_2 : ∀ i : grid0.Coords, EltTy.bits .f32 = 32 ∨ (Rect.block (s := S3x30) S3x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x5000x30.size a ≤ S3x100000x30.size a
  hwx0_3 : ∀ i : grid0.Coords, EltTy.bits .bf16 = 32 ∨ (Rect.block (s := S3x100000x30) S3x5000x30.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x30.size a ≤ S100000x30.size a
  hwx1_0 : ∀ i : grid1.Coords, EltTy.bits .f32 = 32 ∨ (Rect.block (s := S100000x30) S5000x30.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x30.size a ≤ S100000x30.size a
  hwx1_1 : ∀ i : grid1.Coords, EltTy.bits .f32 = 32 ∨ (Rect.block (s := S100000x30) S5000x30.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S30x90.size a ≤ S30x90.size a
  hwx1_2 : ∀ i : grid1.Coords, EltTy.bits .f32 = 32 ∨ (Rect.block (s := S30x90) S30x90.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S30x90.size a ≤ S30x90.size a
  hwx1_3 : ∀ i : grid1.Coords, EltTy.bits .f32 = 32 ∨ (Rect.block (s := S30x90) S30x90.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S90.size a ≤ S90.size a
  hwx1_4 : ∀ i : grid1.Coords, EltTy.bits .f32 = 32 ∨ (Rect.block (s := S90) S90.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S90.size a ≤ S90.size a
  hwx1_5 : ∀ i : grid1.Coords, EltTy.bits .f32 = 32 ∨ (Rect.block (s := S90) S90.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x30.size a ≤ S100000x30.size a
  hwx1_6 : ∀ i : grid1.Coords, EltTy.bits .f32 = 32 ∨ (Rect.block (s := S100000x30) S5000x30.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x30.size a ≤ S100000x30.size a
  hwx2_0 : ∀ i : grid2.Coords, EltTy.bits .f32 = 32 ∨ (Rect.block (s := S100000x30) S5000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x30x30.size a ≤ S3x30x30.size a
  hwx2_1 : ∀ i : grid2.Coords, EltTy.bits .f32 = 32 ∨ (Rect.block (s := S3x30x30) S3x30x30.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x30.size a ≤ S3x30.size a
  hwx2_2 : ∀ i : grid2.Coords, EltTy.bits .f32 = 32 ∨ (Rect.block (s := S3x30) S3x30.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x5000x30.size a ≤ S3x100000x30.size a
  hwx2_3 : ∀ i : grid2.Coords, EltTy.bits .bf16 = 32 ∨ (Rect.block (s := S3x100000x30) S3x5000x30.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x30.size a ≤ S100000x30.size a
  hwx3_0 : ∀ i : grid3.Coords, EltTy.bits .f32 = 32 ∨ (Rect.block (s := S100000x30) S5000x30.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x30.size a ≤ S100000x30.size a
  hwx3_1 : ∀ i : grid3.Coords, EltTy.bits .f32 = 32 ∨ (Rect.block (s := S100000x30) S5000x30.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S30x90.size a ≤ S30x90.size a
  hwx3_2 : ∀ i : grid3.Coords, EltTy.bits .f32 = 32 ∨ (Rect.block (s := S30x90) S30x90.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S30x90.size a ≤ S30x90.size a
  hwx3_3 : ∀ i : grid3.Coords, EltTy.bits .f32 = 32 ∨ (Rect.block (s := S30x90) S30x90.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S90.size a ≤ S90.size a
  hwx3_4 : ∀ i : grid3.Coords, EltTy.bits .f32 = 32 ∨ (Rect.block (s := S90) S90.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S90.size a ≤ S90.size a
  hwx3_5 : ∀ i : grid3.Coords, EltTy.bits .f32 = 32 ∨ (Rect.block (s := S90) S90.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x30.size a ≤ S100000x30.size a
  hwx3_6 : ∀ i : grid3.Coords, EltTy.bits .f32 = 32 ∨ (Rect.block (s := S100000x30) S5000x30.size (cc3_transform_6 i) (hinb3_6 i)).WholeWords (EltTy.packing .f32)

variable [Facts₀]

def dot_S5000x30_S30x30_S5000x30_1_0_0_1_n_n : DotDims S5000x30 S30x30 S5000x30 where
  lhsContracting := [1]
  rhsContracting := [0]
  lhsNonContracting := [0]
  rhsNonContracting := [1]
  lhsBatch := []
  rhsBatch := []
  wf := dot_S5000x30_S30x30_S5000x30_1_0_0_1_n_n_wf
def gather_S300000x30_S3200000x1_S3200000x30_1_0_n_n_0_1_130 : GatherDims S300000x30 S3200000x1 S3200000x30 where
  offsetDims := [1]
  collapsedSliceDims := [0]
  operandBatchingDims := []
  startIndicesBatchingDims := []
  startIndexMap := [0]
  indexVectorDim := 1
  sliceSizes := ![1, 30]
  wf := gather_S300000x30_S3200000x1_S3200000x30_1_0_n_n_0_1_130_wf
def scatter_S100000x30_S3200000x1_S3200000x30_1_0_0_1 : ScatterDims S100000x30 S3200000x1 S3200000x30 where
  updateWindowDims := [1]
  insertedWindowDims := [0]
  scatterDimsToOperandDims := [0]
  indexVectorDim := 1
  wf := scatter_S100000x30_S3200000x1_S3200000x30_1_0_0_1_wf
def dot_S5000x30_S30x90_S5000x90_1_0_0_1_n_n : DotDims S5000x30 S30x90 S5000x90 where
  lhsContracting := [1]
  rhsContracting := [0]
  lhsNonContracting := [0]
  rhsNonContracting := [1]
  lhsBatch := []
  rhsBatch := []
  wf := dot_S5000x30_S30x90_S5000x90_1_0_0_1_n_n_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf

abbrev win0_0 : Pipeline.Window sig grid0 :=
  Pipeline.Window.ofSpec (Memref.whole main_arg0) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x30x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S3x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x5000x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x30.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S30x90.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S30x90.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S90.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S90.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S5000x30.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S5000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S3x30x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S3x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S3x5000x30.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S5000x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x30.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S30x90.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S30x90.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S90.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S90.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v27) S5000x30.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x30 : Shape := ⟨2, ![100000, 30]⟩
abbrev S3200000 : Shape := ⟨1, ![3200000]⟩
abbrev S3x30x30 : Shape := ⟨3, ![3, 30, 30]⟩
abbrev S3x30 : Shape := ⟨2, ![3, 30]⟩
abbrev S90x30 : Shape := ⟨2, ![90, 30]⟩
abbrev S90 : Shape := ⟨1, ![90]⟩
abbrev S3x30x100000 : Shape := ⟨3, ![3, 30, 100000]⟩
abbrev S3x100000x30 : Shape := ⟨3, ![3, 100000, 30]⟩
abbrev S3x1x30 : Shape := ⟨3, ![3, 1, 30]⟩
abbrev S_ : Shape := ⟨0, ![]⟩
abbrev S3200000x1 : Shape := ⟨2, ![3200000, 1]⟩
abbrev S3200000x2 : Shape := ⟨2, ![3200000, 2]⟩
abbrev S3200000x30 : Shape := ⟨2, ![3200000, 30]⟩
abbrev S30x90 : Shape := ⟨2, ![30, 90]⟩
abbrev S100000x90 : Shape := ⟨2, ![100000, 90]⟩
abbrev S1x90 : Shape := ⟨2, ![1, 90]⟩

abbrev nBuf : Space → Nat
  | .hbm => 205
  | .vmem => 0
  | .smem => 0
  | _ => 0

abbrev hbmTy0_0 (i : Nat) : BufTy := match i % 128 with
  | 0 => ⟨S100000x30, .f32⟩
  | 1 => ⟨S3200000, .i32⟩
  | 2 => ⟨S3200000, .i32⟩
  | 3 => ⟨S3200000, .i32⟩
  | 4 => ⟨S3200000, .i32⟩
  | 5 => ⟨S3200000, .i32⟩
  | 6 => ⟨S3x30x30, .f32⟩
  | 7 => ⟨S3x30, .f32⟩
  | 8 => ⟨S90x30, .f32⟩
  | 9 => ⟨S90x30, .f32⟩
  | 10 => ⟨S90, .f32⟩
  | 11 => ⟨S90, .f32⟩
  | 12 => ⟨S3x30x30, .f32⟩
  | 13 => ⟨S3x30, .f32⟩
  | 14 => ⟨S90x30, .f32⟩
  | 15 => ⟨S90x30, .f32⟩
  | 16 => ⟨S90, .f32⟩
  | 17 => ⟨S90, .f32⟩
  | 18 => ⟨S3x30x100000, .f32⟩
  | 19 => ⟨S3x100000x30, .f32⟩
  | 20 => ⟨S3x1x30, .f32⟩
  | 21 => ⟨S3x100000x30, .f32⟩
  | 22 => ⟨S3x100000x30, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x1, .i32⟩
  | 39 => ⟨S3200000x2, .i32⟩
  | 40 => ⟨S3200000x30, .f32⟩
  | 41 => ⟨S_, .f32⟩
  | 42 => ⟨S100000x30, .f32⟩
  | 43 => ⟨S3200000x1, .i32⟩
  | 44 => ⟨S100000x30, .f32⟩
  | 45 => ⟨S30x90, .f32⟩
  | 46 => ⟨S100000x90, .f32⟩
  | 47 => ⟨S1x90, .f32⟩
  | 48 => ⟨S100000x90, .f32⟩
  | 49 => ⟨S100000x90, .f32⟩
  | 50 => ⟨S30x90, .f32⟩
  | 51 => ⟨S100000x90, .f32⟩
  | 52 => ⟨S1x90, .f32⟩
  | 53 => ⟨S100000x90, .f32⟩
  | 54 => ⟨S100000x90, .f32⟩
  | 55 => ⟨S100000x30, .f32⟩
  | 56 => ⟨S100000x30, .f32⟩
  | 57 => ⟨S100000x30, .f32⟩
  | 58 => ⟨S100000x30, .f32⟩
  | 59 => ⟨S100000x30, .f32⟩
  | 60 => ⟨S100000x30, .f32⟩
  | 61 => ⟨S100000x30, .f32⟩
  | 62 => ⟨S100000x30, .f32⟩
  | 63 => ⟨S100000x30, .f32⟩
  | 64 => ⟨S_, .f32⟩
  | 65 => ⟨S100000x30, .f32⟩
  | 66 => ⟨S100000x30, .f32⟩
  | 67 => ⟨S_, .f32⟩
  | 68 => ⟨S100000x30, .f32⟩
  | 69 => ⟨S100000x30, .f32⟩
  | 70 => ⟨S100000x30, .f32⟩
  | 71 => ⟨S100000x30, .f32⟩
  | 72 => ⟨S100000x30, .f32⟩
  | 73 => ⟨S_, .f32⟩
  | 74 => ⟨S100000x30, .f32⟩
  | 75 => ⟨S100000x30, .f32⟩
  | 76 => ⟨S_, .f32⟩
  | 77 => ⟨S100000x30, .f32⟩
  | 78 => ⟨S100000x30, .f32⟩
  | 79 => ⟨S100000x30, .f32⟩
  | 80 => ⟨S100000x30, .f32⟩
  | 81 => ⟨S100000x30, .f32⟩
  | 82 => ⟨S_, .f32⟩
  | 83 => ⟨S100000x30, .f32⟩
  | 84 => ⟨S100000x30, .f32⟩
  | 85 => ⟨S100000x30, .f32⟩
  | 86 => ⟨S100000x30, .f32⟩
  | 87 => ⟨S100000x30, .f32⟩
  | 88 => ⟨S_, .f32⟩
  | 89 => ⟨S100000x30, .f32⟩
  | 90 => ⟨S100000x30, .f32⟩
  | 91 => ⟨S3x30x100000, .f32⟩
  | 92 => ⟨S3x100000x30, .f32⟩
  | 93 => ⟨S3x1x30, .f32⟩
  | 94 => ⟨S3x100000x30, .f32⟩
  | 95 => ⟨S3x100000x30, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S_, .i32⟩
  | 104 => ⟨S3200000, .i32⟩
  | 105 => ⟨S3200000, .i1⟩
  | 106 => ⟨S_, .i32⟩
  | 107 => ⟨S3200000, .i32⟩
  | 108 => ⟨S3200000, .i32⟩
  | 109 => ⟨S3200000, .i32⟩
  | 110 => ⟨S3200000x1, .i32⟩
  | 111 => ⟨S3200000x1, .i32⟩
  | 112 => ⟨S3200000x2, .i32⟩
  | 113 => ⟨S3200000x30, .f32⟩
  | 114 => ⟨S_, .f32⟩
  | 115 => ⟨S100000x30, .f32⟩
  | 116 => ⟨S3200000x1, .i32⟩
  | 117 => ⟨S100000x30, .f32⟩
  | 118 => ⟨S30x90, .f32⟩
  | 119 => ⟨S100000x90, .f32⟩
  | 120 => ⟨S1x90, .f32⟩
  | 121 => ⟨S100000x90, .f32⟩
  | 122 => ⟨S100000x90, .f32⟩
  | 123 => ⟨S30x90, .f32⟩
  | 124 => ⟨S100000x90, .f32⟩
  | 125 => ⟨S1x90, .f32⟩
  | 126 => ⟨S100000x90, .f32⟩
  | 127 => ⟨S100000x90, .f32⟩
  | _ => ⟨S100000x30, .f32⟩

abbrev hbmTy0_1 (i : Nat) : BufTy := match i % 128 with
  | 0 => ⟨S100000x30, .f32⟩
  | 1 => ⟨S100000x30, .f32⟩
  | 2 => ⟨S100000x30, .f32⟩
  | 3 => ⟨S100000x30, .f32⟩
  | 4 => ⟨S100000x30, .f32⟩
  | 5 => ⟨S100000x30, .f32⟩
  | 6 => ⟨S100000x30, .f32⟩
  | 7 => ⟨S100000x30, .f32⟩
  | 8 => ⟨S100000x30, .f32⟩
  | 9 => ⟨S_, .f32⟩
  | 10 => ⟨S100000x30, .f32⟩
  | 11 => ⟨S100000x30, .f32⟩
  | 12 => ⟨S_, .f32⟩
  | 13 => ⟨S100000x30, .f32⟩
  | 14 => ⟨S100000x30, .f32⟩
  | 15 => ⟨S100000x30, .f32⟩
  | 16 => ⟨S100000x30, .f32⟩
  | 17 => ⟨S100000x30, .f32⟩
  | 18 => ⟨S_, .f32⟩
  | 19 => ⟨S100000x30, .f32⟩
  | 20 => ⟨S100000x30, .f32⟩
  | 21 => ⟨S_, .f32⟩
  | 22 => ⟨S100000x30, .f32⟩
  | 23 => ⟨S100000x30, .f32⟩
  | 24 => ⟨S100000x30, .f32⟩
  | 25 => ⟨S100000x30, .f32⟩
  | 26 => ⟨S100000x30, .f32⟩
  | 27 => ⟨S_, .f32⟩
  | 28 => ⟨S100000x30, .f32⟩
  | 29 => ⟨S100000x30, .f32⟩
  | 30 => ⟨S100000x30, .f32⟩
  | 31 => ⟨S100000x30, .f32⟩
  | 32 => ⟨S100000x30, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x30, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x30, .f32⟩
  | 51 => ⟨S3200000x30, .f32⟩
  | 52 => ⟨S_, .f32⟩
  | 53 => ⟨S3200000, .f32⟩
  | 54 => ⟨S3200000x1, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x30, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x30, .f32⟩
  | 73 => ⟨S3200000x30, .f32⟩
  | 74 => ⟨S_, .f32⟩
  | 75 => ⟨S3200000, .f32⟩
  | 76 => ⟨S3200000x1, .f32⟩
  | _ => ⟨S100000x30, .f32⟩

abbrev hbmTy (i : Nat) : BufTy := match i / 128 with
  | 0 => hbmTy0_0 i
  | 1 => hbmTy0_1 i
  | _ => ⟨S100000x30, .f32⟩

abbrev bufTy : (tb : Table) → Fin (tcTables nBuf tb) → BufTy
  | .hbm, ⟨i, _⟩ => hbmTy i
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call0_cst : Ref sig .tc := ⟨.hbm, 88, rfl⟩
abbrev main_call0_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_8 : Ref sig .tc := ⟨.hbm, 96, rfl⟩
abbrev main_v66 : Ref sig .tc := ⟨.hbm, 97, rfl⟩
abbrev main_v67 : Ref sig .tc := ⟨.hbm, 98, rfl⟩
abbrev main_c_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_10 : Ref sig .tc := ⟨.hbm, 103, rfl⟩
abbrev main_v71 : Ref sig .tc := ⟨.hbm, 104, rfl⟩
abbrev main_v72 : Ref sig .tc := ⟨.hbm, 105, rfl⟩
abbrev main_c_11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_12 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_cst_14 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_15 : Ref sig .tc := ⟨.hbm, 146, rfl⟩
abbrev main_v109 : Ref sig .tc := ⟨.hbm, 147, rfl⟩
abbrev main_v110 : Ref sig .tc := ⟨.hbm, 148, rfl⟩
abbrev main_cst_16 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_17 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_18 : Ref sig .tc := ⟨.hbm, 161, rfl⟩
abbrev main_v121 : Ref sig .tc := ⟨.hbm, 162, rfl⟩
abbrev main_v122 : Ref sig .tc := ⟨.hbm, 163, rfl⟩
abbrev main_c_19 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_20 : Ref sig .tc := ⟨.hbm, 170, rfl⟩
abbrev main_v128 : Ref sig .tc := ⟨.hbm, 171, rfl⟩
abbrev main_v129 : Ref sig .tc := ⟨.hbm, 172, rfl⟩
abbrev main_c_21 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_22 : Ref sig .tc := ⟨.hbm, 180, rfl⟩
abbrev main_v136 : Ref sig .tc := ⟨.hbm, 181, rfl⟩
abbrev main_v137 : Ref sig .tc := ⟨.hbm, 182, rfl⟩
abbrev main_c_23 : Ref sig .tc := ⟨.hbm, 183, rfl⟩
abbrev main_v138 : Ref sig .tc := ⟨.hbm, 184, rfl⟩
abbrev main_v139 : Ref sig .tc := ⟨.hbm, 185, rfl⟩
abbrev main_c_24 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_25 : Ref sig .tc := ⟨.hbm, 192, rfl⟩
abbrev main_v145 : Ref sig .tc := ⟨.hbm, 193, rfl⟩
abbrev main_v146 : Ref sig .tc := ⟨.hbm, 194, rfl⟩
abbrev main_c_26 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_27 : Ref sig .tc := ⟨.hbm, 202, rfl⟩
abbrev main_v153 : Ref sig .tc := ⟨.hbm, 203, rfl⟩
abbrev main_v154 : Ref sig .tc := ⟨.hbm, 204, rfl⟩

abbrev nD : Nat := 1
abbrev τ : Topo := Topo.v7x

variable {F : FTy → Type} [FloatOps F]

class Facts₀ : Prop where
  transposes_S3x30x100000_S3x100000x30_0_2_1 : S3x30x100000.Transposes [0, 2, 1] S3x100000x30
  bcast_S3x30_S3x1x30_0_2 : S3x30.BroadcastsInDim S3x1x30 (![0, 2] : Fin 2 → Fin S3x1x30.rank)
  bcast_S3x1x30_S3x100000x30_0_1_2 : S3x1x30.BroadcastsInDim S3x100000x30 (![0, 1, 2] : Fin 3 → Fin S3x100000x30.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x1_S3200000x1_S3200000x2_d1 : Shape.Concatenates [S3200000x1, S3200000x1] S3200000x2 1
  bcast_S_S100000x30 : S_.BroadcastsInDim S100000x30 (![] : Fin 0 → Fin S100000x30.rank)
  transposes_S90x30_S30x90_1_0 : S90x30.Transposes [1, 0] S30x90
  bcast_S90_S1x90_1 : S90.BroadcastsInDim S1x90 (![1] : Fin 1 → Fin S1x90.rank)
  bcast_S1x90_S100000x90_0_1 : S1x90.BroadcastsInDim S100000x90 (![0, 1] : Fin 2 → Fin S100000x90.rank)
  slices_S100000x90_S100000x30_0_0 : S100000x90.Slices ![0, 0] S100000x30
  slices_S100000x90_S100000x30_0_30 : S100000x90.Slices ![0, 30] S100000x30
  slices_S100000x90_S100000x30_0_60 : S100000x90.Slices ![0, 60] S100000x30
  reducesTo_S3200000x30_S3200000_d1 : S3200000x30.ReducesTo [1] S3200000
  h_S_ : 0 < S_.numel
  dot_S3x30x30_S100000x30_S3x30x100000_2_1_01_0_n_n_wf : DotDims.WF S3x30x30 S100000x30 S3x30x100000 [2] [1] [0, 1] [0] [] []
  gather_S3x100000x30_S3200000x2_S3200000x30_1_01_n_n_01_1_1130_wf : GatherDims.WF S3x100000x30 S3200000x2 S3200000x30 [1] [0, 1] [] [0, 1] [] 1 ![1, 1, 30]
  scatter_S100000x30_S3200000x1_S3200000x30_1_0_0_1_wf : ScatterDims.WF S100000x30 S3200000x1 S3200000x30 [1] [0] [0] 1
  dot_S100000x30_S30x90_S100000x90_1_0_0_1_n_n_wf : DotDims.WF S100000x30 S30x90 S100000x90 [1] [0] [0] [1] [] []
  gather_S100000x30_S3200000x1_S3200000x30_1_0_n_n_0_1_130_wf : GatherDims.WF S100000x30 S3200000x1 S3200000x30 [1] [0] [] [0] [] 1 ![1, 30]

variable [Facts₀]

def dot_S3x30x30_S100000x30_S3x30x100000_2_1_01_0_n_n : DotDims S3x30x30 S100000x30 S3x30x100000 where
  lhsContracting := [2]
  rhsContracting := [1]
  lhsNonContracting := [0, 1]
  rhsNonContracting := [0]
  lhsBatch := []
  rhsBatch := []
  wf := dot_S3x30x30_S100000x30_S3x30x100000_2_1_01_0_n_n_wf
def gather_S3x100000x30_S3200000x2_S3200000x30_1_01_n_n_01_1_1130 : GatherDims S3x100000x30 S3200000x2 S3200000x30 where
  offsetDims := [1]
  collapsedSliceDims := [0, 1]
  operandBatchingDims := []
  startIndicesBatchingDims := []
  startIndexMap := [0, 1]
  indexVectorDim := 1
  sliceSizes := ![1, 1, 30]
  wf := gather_S3x100000x30_S3200000x2_S3200000x30_1_01_n_n_01_1_1130_wf
def scatter_S100000x30_S3200000x1_S3200000x30_1_0_0_1 : ScatterDims S100000x30 S3200000x1 S3200000x30 where
  updateWindowDims := [1]
  insertedWindowDims := [0]
  scatterDimsToOperandDims := [0]
  indexVectorDim := 1
  wf := scatter_S100000x30_S3200000x1_S3200000x30_1_0_0_1_wf
def dot_S100000x30_S30x90_S100000x90_1_0_0_1_n_n : DotDims S100000x30 S30x90 S100000x90 where
  lhsContracting := [1]
  rhsContracting := [0]
  lhsNonContracting := [0]
  rhsNonContracting := [1]
  lhsBatch := []
  rhsBatch := []
  wf := dot_S100000x30_S30x90_S100000x90_1_0_0_1_n_n_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf

class Facts : Prop extends Facts₀ where

variable [Facts]
-- ==== Proof.Spec.lean ====
/-
  The two dense stages of one message-passing layer, as functions of whole arrays over the extended reals.

  A layer has N = 100000 nodes with 30 features, 3 edge types.  Its first dense stage sends the node features h
  to one table per edge type:  t[k, n, f] = (sum over d < 30 of h[n, d] * W[k, f, d]) + b[k, f].  It is stated twice:
  over the weights as given (`dense`), and over the weights with their last two axes exchanged (`denseT`, the form a
  block matrix product with the exchanged weights on the right computes).

  Its second dense stage is a gated recurrent cell, row by row.  With a the aggregated messages and h the node
  features, two linear maps into 90 columns,  gi[n, c] = (sum over d of a[n, d] * wiT[d, c]) + bi[c]  and
  gh[n, c] = (sum over d of h[n, d] * whT[d, c]) + bh[c],  are cut into three bands of 30 columns; with s the
  logistic function,  r = s(gi[n, j] + gh[n, j]),  z = s(gi[n, 30 + j] + gh[n, 30 + j]),
  g = tanh(gi[n, 60 + j] + r * gh[n, 60 + j]),  and the new feature is  (1 - z) * g + z * h[n, j],  followed, in the
  first layer only, by the maximum with zero.  The literals one and zero are kept as their binary words.
-/
import Idealize.ShloMosaic.PureOps.Ideal
import Idealize.ShloMosaic.Lib.ValueIdx

noncomputable section

namespace Gnn

open Idealize.ShloMosaic Idealize.ShloMosaic.ValueIdx

/-- The word of the float literal 1.0, read over the extended reals. -/
abbrev one : EReal := Ideal.ofBits .f32 0x3F800000#32
/-- The word of the float literal 0.0, read over the extended reals. -/
abbrev zero : EReal := Ideal.ofBits .f32 0x00000000#32

/-- Node features: 100000 rows of 30. -/
abbrev SNode : Shape := ⟨2, ![100000, 30]⟩
/-- One table per edge type. -/
abbrev STab : Shape := ⟨3, ![3, 100000, 30]⟩
abbrev SW : Shape := ⟨3, ![3, 30, 30]⟩
abbrev SB : Shape := ⟨2, ![3, 30]⟩
abbrev SGate : Shape := ⟨2, ![30, 90]⟩
abbrev SBias : Shape := ⟨1, ![90]⟩

/-- Entry (k, n, f) of the per-type tables, over the weights as given: contraction against W[k, f, ·]. -/
def denseAt (h : SNode.Idx → EReal) (w : SW.Idx → EReal) (b : SB.Idx → EReal) (k : Fin 3) (n : Fin 100000) (f : Fin 30) : EReal :=
  (∑ d : Fin 30, h (ix2 n d) * w (ix3 k f d)) + b (ix2 k f)

/-- The per-type tables over the weights as given. -/
def dense (h : SNode.Idx → EReal) (w : SW.Idx → EReal) (b : SB.Idx → EReal) : STab.Idx → EReal :=
  fun i => denseAt h w b (i 0) (i 1) (i 2)

/-- Entry (k, n, f) of the per-type tables, over weights whose last two axes are exchanged: contraction against wt[k, ·, f]. -/
def denseTAt (h : SNode.Idx → EReal) (wt : SW.Idx → EReal) (b : SB.Idx → EReal) (k : Fin 3) (n : Fin 100000) (f : Fin 30) : EReal :=
  (∑ d : Fin 30, h (ix2 n d) * wt (ix3 k d f)) + b (ix2 k f)

/-- The per-type tables over the exchanged weights. -/
def denseT (h : SNode.Idx → EReal) (wt : SW.Idx → EReal) (b : SB.Idx → EReal) : STab.Idx → EReal :=
  fun i => denseTAt h wt b (i 0) (i 1) (i 2)

/-- One of the cell's two linear maps at row n and column c < 90. -/
def lin (x : SNode.Idx → EReal) (wT : SGate.Idx → EReal) (bv : SBias.Idx → EReal) (n : Fin 100000) (c : Fin 90) : EReal :=
  (∑ d : Fin 30, x (ix2 n d) * wT (ix2 d c)) + bv (ix1 c)

/-- The cell's gates on scalars: reset, update, candidate, blend, and the first layer's maximum with zero. -/
def gate (relu : Bool) (ir iz ig hr hz hg hv : EReal) : EReal :=
  let r := Ideal.logistic (ir + hr)
  let z := Ideal.logistic (iz + hz)
  let g := Ideal.tanh (ig + r * hg)
  let o := (one - z) * g + z * hv
  if relu then max o zero else o

/-- The three bands of 30 columns. -/
abbrev band0 (j : Fin 30) : Fin 90 := ⟨j.val, by omega⟩
abbrev band1 (j : Fin 30) : Fin 90 := ⟨30 + j.val, by omega⟩
abbrev band2 (j : Fin 30) : Fin 90 := ⟨60 + j.val, by omega⟩

/-- The cell's output at node n, feature j. -/
def gruAt (relu : Bool) (a h : SNode.Idx → EReal) (wiT whT : SGate.Idx → EReal) (bi bh : SBias.Idx → EReal)
    (n : Fin 100000) (j : Fin 30) : EReal :=
  gate relu (lin a wiT bi n (band0 j)) (lin a wiT bi n (band1 j)) (lin a wiT bi n (band2 j))
    (lin h whT bh n (band0 j)) (lin h whT bh n (band1 j)) (lin h whT bh n (band2 j)) (h (ix2 n j))

/-- The cell on whole arrays. -/
def gru (relu : Bool) (a h : SNode.Idx → EReal) (wiT whT : SGate.Idx → EReal) (bi bh : SBias.Idx → EReal) : SNode.Idx → EReal :=
  fun i => gruAt relu a h wiT whT bi bh (i 0) (i 1)

/-- The edge list: 3200000 edges. -/
abbrev SEdge : Shape := ⟨1, ![3200000]⟩
/-- One message row of 30 features per edge. -/
abbrev SMsg : Shape := ⟨2, ![3200000, 30]⟩

/-- Entry (e, f) of the messages: row src[e] of the table of edge type etype[e], at feature f; each index is read
    signed and clamped into its axis (for indices in range the clamp changes nothing). -/
def msgAt (t : STab.Idx → EReal) (et src : IVec SEdge 32) (e : Fin 3200000) (f : Fin 30) : EReal :=
  t (ix3 (⟨min (et (ix1 e)).toInt.toNat 2, by omega⟩ : Fin 3) (⟨min (src (ix1 e)).toInt.toNat 99999, by omega⟩ : Fin 100000) f)

/-- The messages on whole arrays. -/
def msg (t : STab.Idx → EReal) (et src : IVec SEdge 32) : SMsg.Idx → EReal :=
  fun i => msgAt t et src (i 0) (i 1)

/-- One message-passing layer: tables, messages, their aggregation over destination nodes (`agg`, kept abstract: it is
    the same function on both sides), and the cell. -/
def layer (relu : Bool) (agg : (SMsg.Idx → EReal) → (SNode.Idx → EReal)) (h : SNode.Idx → EReal) (et src : IVec SEdge 32)
    (w : SW.Idx → EReal) (b : SB.Idx → EReal) (wiT whT : SGate.Idx → EReal) (bi bh : SBias.Idx → EReal) : SNode.Idx → EReal :=
  gru relu (agg (msg (dense h w b) et src)) h wiT whT bi bh

/-- Every entry of an index array, read signed, lies in [0, n). -/
def InRange (n : Nat) (idx : IVec SEdge 32) : Prop :=
  ∀ e : Fin 3200000, 0 ≤ (idx (ix1 e)).toInt ∧ (idx (ix1 e)).toInt < (n : Int)

end Gnn

end
-- ==== Proof.KStages.lean ====
/-
  The kernel program's stages as functions of its argument arrays, over the extended reals.

  The program runs two message-passing layers and scores edges.  A layer's aggregation of the messages over
  destination nodes is a scatter-add into a zero array, kept as the one library function it is; the score of an edge
  (s, d) is the sum over the 30 features of the product of the final features of its two endpoints.
-/
import proofs.«413908_j6485400616961_2_alg».proof.KernelIdeal
import proofs.«413908_j6485400616961_2_alg».proof.Proof.Spec

noncomputable section

namespace Cert.KernelIdeal.GnnK

open Cert.KernelIdeal Cert.KernelIdeal.Facts₀ Cert.KernelIdeal.Facts
open Idealize.ShloMosaic Idealize.ShloMosaic.TcCoe Idealize.SL.Sem

variable [Cert.KernelIdeal.Facts]

/-- A launch memory at the extended reals. -/
abbrev Mem : Type := (ℓ : Loc nD τ sig) → Buf (Elt Ideal) ℓ

/-- The gate weights with rows and columns exchanged: [90, 30] to [30, 90]. -/
def gT (w : Vec Ideal S90x30 .f32) : Vec Ideal S30x90 .f32 := transpose S30x90 [1, 0] w transposes_S90x30_S30x90_1_0

/-- The per-type weights with their last two axes exchanged. -/
def wT (w : Vec Ideal S3x30x30 .f32) : Vec Ideal S3x30x30 .f32 := transpose S3x30x30 [0, 2, 1] w transposes_S3x30x30_S3x30x30_0_2_1

/-- Aggregation over destination nodes: the messages scatter-added into a zero array at the rows dst names. -/
def agg (dst : Vec Ideal S3200000 .i32) (u : Vec Ideal S3200000x30 .f32) : Vec Ideal S100000x30 .f32 :=
  Host.scatterAdd (F := Ideal) scatter_S100000x30_S3200000x1_S3200000x30_1_0_0_1
    (broadcastInDim S100000x30 ![] bcast_S_S100000x30 (constant (F := Ideal) S_ .f32 0x00000000#32))
    (broadcastInDim S3200000x1 ![0] bcast_S3200000_S3200000x1_0 dst) u

/-- Edge scores: for edge e the sum over features of h[s[e], ·] * h[d[e], ·], as a column. -/
def edge (h : Vec Ideal S100000x30 .f32) (s d : Vec Ideal S3200000 .i32) : Vec Ideal S3200000x1 .f32 :=
  broadcastInDim S3200000x1 ![0] bcast_S3200000_S3200000x1_0
    (Host.reduceAdd (F := Ideal)
      (mulf (F := Ideal)
        (Host.gather gather_S100000x30_S3200000x1_S3200000x30_1_0_n_n_0_1_130 h (broadcastInDim S3200000x1 ![0] bcast_S3200000_S3200000x1_0 s))
        (Host.gather gather_S100000x30_S3200000x1_S3200000x30_1_0_n_n_0_1_130 h (broadcastInDim S3200000x1 ![0] bcast_S3200000_S3200000x1_0 d)))
      (constant (F := Ideal) S_ .f32 0x00000000#32) reducesTo_S3200000x30_S3200000_d1 h_S_)

/-- The kernel program's messages: the tables laid out as 300000 rows, row etype * 100000 + src gathered per edge. -/
def msgK (t : Vec Ideal S3x100000x30 .bf16) (et src : Vec Ideal S3200000 .i32) : Vec Ideal S3200000x30 .f32 :=
  extf (F := Ideal) .f32
    (Host.gather gather_S300000x30_S3200000x1_S3200000x30_1_0_n_n_0_1_130
      (shapeCast S300000x30 t shapeCasts_S3x100000x30_S300000x30)
      (broadcastInDim S3200000x1 ![0] bcast_S3200000_S3200000x1_0
        (addi (muli et (broadcastInDim S3200000 ![] bcast_S_S3200000 (constantI S_ 32 100000#32))) src)))
    bitsLt_bf16_f32

/-- Node features after the first layer. -/
def h1 (m : Mem) (c : Dev nD) : Vec Ideal S100000x30 .f32 :=
  Gnn.layer true (agg (m ((c.tc : Thread nD τ).loc main_arg2))) (m ((c.tc : Thread nD τ).loc main_arg0))
    (m ((c.tc : Thread nD τ).loc main_arg3)) (m ((c.tc : Thread nD τ).loc main_arg1))
    (m ((c.tc : Thread nD τ).loc main_arg6)) (m ((c.tc : Thread nD τ).loc main_arg7))
    (gT (m ((c.tc : Thread nD τ).loc main_arg8))) (gT (m ((c.tc : Thread nD τ).loc main_arg9)))
    (m ((c.tc : Thread nD τ).loc main_arg10)) (m ((c.tc : Thread nD τ).loc main_arg11))

/-- Node features after the second layer. -/
def h2 (m : Mem) (c : Dev nD) : Vec Ideal S100000x30 .f32 :=
  Gnn.layer false (agg (m ((c.tc : Thread nD τ).loc main_arg2))) (h1 m c)
    (m ((c.tc : Thread nD τ).loc main_arg3)) (m ((c.tc : Thread nD τ).loc main_arg1))
    (m ((c.tc : Thread nD τ).loc main_arg12)) (m ((c.tc : Thread nD τ).loc main_arg13))
    (gT (m ((c.tc : Thread nD τ).loc main_arg14))) (gT (m ((c.tc : Thread nD τ).loc main_arg15)))
    (m ((c.tc : Thread nD τ).loc main_arg16)) (m ((c.tc : Thread nD τ).loc main_arg17))

/-- The scores of the edges (src, dst). -/
def out0 (m : Mem) (c : Dev nD) : Vec Ideal S3200000x1 .f32 :=
  edge (h2 m c) (m ((c.tc : Thread nD τ).loc main_arg1)) (m ((c.tc : Thread nD τ).loc main_arg2))

/-- The scores of the edges (neg_src, neg_dst). -/
def out1 (m : Mem) (c : Dev nD) : Vec Ideal S3200000x1 .f32 :=
  edge (h2 m c) (m ((c.tc : Thread nD τ).loc main_arg4)) (m ((c.tc : Thread nD τ).loc main_arg5))

end Cert.KernelIdeal.GnnK

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KDense.lean ====
/-
  The dense transform's region: the array its write-backs leave is the per-type table of the entry contents.

  A region runs over 20 grid points.  At point t its body reads rows 5000 t … 5000 t + 4999 of the node features, the whole
  exchanged weights [3, 30, 30] and the whole bias [3, 30], and stores three slabs, one per edge type k: the node block
  times slab k of the weights, plus row k of the bias broadcast down the rows (every narrowing or widening of the float
  format is the identity on extended reals).  So the buffer after the body is, entry by entry,
  (sum over d < 30 of x[r, d] * wt[k, d, f]) + b[k, f]; written back through block (0, t, 0) of the [3, 100000, 30] array
  it is rows 5000 t … of the per-type tables, and the 20 blocks cover the array.
-/
import proofs.«413908_j6485400616961_2_alg».proof.Proof.Gen.KernelIdeal.Frame
import proofs.«413908_j6485400616961_2_alg».proof.Proof.KStages
import proofs.«413908_j6485400616961_2_alg».proof.Proof.LibPlainDot
import Idealize.ShloMosaic.Lib.Pipeline.Value
import Idealize.ShloMosaic.PureOps.Ideal.Laws

set_option maxRecDepth 16384

noncomputable section

namespace Cert.KernelIdeal.GnnK

open Cert.KernelIdeal Cert.KernelIdeal.Facts₀ Cert.KernelIdeal.Facts
open Idealize.ShloMosaic Idealize.ShloMosaic.TcCoe Idealize.SL.Sem
open Idealize.ShloMosaic.ValueIdx
open Cert.KernelIdeal.Gen

variable (V : (c : Dev nD) → (b : Ref sig .tc) → Buf (Elt Ideal) ((c : Thread nD τ).loc b))

namespace Dense0

/-! ## A block matrix product at an index -/

/-- The product of a [5000, 30] block with a [30, 30] matrix onto a zero accumulator, at (r, f): the plain sum over d. -/
theorem mm_apply (x : FVec Ideal S5000x30 .bf16) (w : FVec Ideal S30x30 .bf16) (r : Fin 5000) (f : Fin 30) :
    FloatOps.matmul dot_S5000x30_S30x30_S5000x30_1_0_0_1_n_n none x w (constant (F := Ideal) S5000x30 .f32 0x00000000#32) (ix2 r f)
      = ∑ d : Fin 30, x (ix2 r d) * w (ix2 d f) := by
  refine (Ideal.matmul_constant_zero_apply dot_S5000x30_S30x30_S5000x30_1_0_0_1_n_n none x w (ix2 r f)).trans ?_
  exact PlainDot.sum_eq (R := 5000) (K := 30) (C := 30) dot_S5000x30_S30x30_S5000x30_1_0_0_1_n_n rfl rfl rfl rfl rfl rfl x w r f

/-- A [1, 30, 30] slab viewed as a [30, 30] matrix, at (d, f). -/
theorem slab_apply (w : Vec Ideal S1x30x30 .f32) (h : S1x30x30.ShapeCasts S30x30) (d f : Fin 30) :
    shapeCast S30x30 w h (ix2 d f) = w (ix3 (0 : Fin 1) d f) := by
  refine shapeCast_apply w h (ix2 d f) (ix3 (0 : Fin 1) d f) ?_
  rw [Shape.rowMajor_val_two, Shape.rowMajor_val_three]
  show ((0 : Fin 1).val * 30 + d.val) * 30 + f.val = d.val * 30 + f.val
  simp

/-- A [1, 30] row, flattened, unflattened and broadcast down 5000 rows, at (r, f). -/
theorem bias_apply (b : Vec Ideal S1x30 .f32) (h1 : S1x30.ShapeCasts S30) (h2 : S30.ShapeCasts S1x30) (h3 : S1x30.Broadcasts S5000x30)
    (r : Fin 5000) (f : Fin 30) :
    broadcastTo S5000x30 (shapeCast S1x30 (shapeCast S30 b h1) h2) h3 (ix2 r f) = b (ix2 (0 : Fin 1) f) := by
  rw [shapeCast_shapeCast]
  refine broadcastTo_apply b h3 (ix2 r f) (ix2 (0 : Fin 1) f) fun a => ?_
  match a with
  | ⟨0, _⟩ => rfl
  | ⟨1, _⟩ => rfl

/-- The stored value of one edge type, from the narrowed node block, the narrowed weight matrix and the bias row:
    at (0, r, f) it is the contraction over d plus the bias at f. Narrowing is the identity on extended reals. -/
theorem stored_apply (xb : FVec Ideal S5000x30 .bf16) (wb : FVec Ideal S30x30 .bf16) (b : Vec Ideal S1x30 .f32)
    (h1 : S1x30.ShapeCasts S30) (h2 : S30.ShapeCasts S1x30) (h3 : S1x30.Broadcasts S5000x30) (h4 : S5000x30.ShapeCasts S1x5000x30)
    (hlt : FTy.bf16.bits < FTy.f32.bits) (z : Fin 1) (r : Fin 5000) (f : Fin 30) :
    shapeCast S1x5000x30
        (truncf (F := Ideal) .bf16
          (addf (F := Ideal) (φ := .f32)
            (FloatOps.matmul dot_S5000x30_S30x30_S5000x30_1_0_0_1_n_n none xb wb (constant (F := Ideal) S5000x30 .f32 0x00000000#32))
            (broadcastTo S5000x30 (shapeCast S1x30 (shapeCast S30 b h1) h2) h3)) hlt) h4 (ix3 z r f)
      = (∑ d : Fin 30, xb (ix2 r d) * wb (ix2 d f)) + b (ix2 (0 : Fin 1) f) := by
  refine (shapeCast_apply _ h4 (ix3 z r f) (ix2 r f) ?_).trans ?_
  · rw [Shape.rowMajor_val_two, Shape.rowMajor_val_three]
    have hz : z.val = 0 := by omega
    show r.val * 30 + f.val = (z.val * 5000 + r.val) * 30 + f.val
    omega
  refine (truncf_apply (φ := .f32) (ψ := .bf16) _ hlt (ix2 r f)).trans ?_
  refine (addf_apply (φ := .f32) _ _ (ix2 r f)).trans ?_
  exact congrArg₂ (· + ·) (mm_apply xb wb r f) (bias_apply b h1 h2 h3 r f)

/-! ## One block of tables, and the loads that feed it -/

theorem hz2 : (![0, 0] : Fin 2 → Nat) = fun _ => 0 := funext fun a => by fin_cases a <;> rfl

/-- Entry (k, r, f) of one block of tables: row r of the node block against slab k of the exchanged weights, plus the bias. -/
def tabAt (x0 : Vec Ideal S5000x30 .f32) (x1 : Vec Ideal S3x30x30 .f32) (x2 : Vec Ideal S3x30 .f32) (k : Fin 3) (r : Fin 5000) (f : Fin 30) : EReal :=
  (∑ d : Fin 30, x0 (ix2 r d) * x1 (ix3 k d f)) + x2 (ix2 k f)

/-- One block of tables. -/
def tabBlock (x0 : Vec Ideal S5000x30 .f32) (x1 : Vec Ideal S3x30x30 .f32) (x2 : Vec Ideal S3x30 .f32) : Vec Ideal S3x5000x30 .bf16 :=
  fun y => tabAt x0 x1 x2 (y 0) (y 1) (y 2)

/-- Slab k of the weights, loaded as a [1, 30, 30] vector, at (0, d, f). -/
theorem ld_slab (x1 : Vec Ideal S3x30x30 .f32) (k : Fin 3) (off : Fin 3 → Nat) (inb : ∀ a, off a + S1x30x30.size a ≤ S3x30x30.size a)
    (hoff : off = ![k.val, 0, 0]) (z : Fin 1) (d f : Fin 30) :
    View.ld x1 (Rect.unit (s := S3x30x30) off S1x30x30.size inb) (ix3 z d f) = x1 (ix3 k d f) := by
  subst hoff
  have hz : z.val = 0 := by omega
  show x1 _ = x1 _
  refine congrArg x1 (funext fun a => Fin.ext ?_)
  match a with
  | ⟨0, _⟩ => show k.val + 1 * z.val = k.val; omega
  | ⟨1, _⟩ => show 0 + 1 * d.val = d.val; omega
  | ⟨2, _⟩ => show 0 + 1 * f.val = f.val; omega

/-- Row k of the bias, loaded as a [1, 30] vector, at (0, f). -/
theorem ld_bias (x2 : Vec Ideal S3x30 .f32) (k : Fin 3) (off : Fin 2 → Nat) (inb : ∀ a, off a + S1x30.size a ≤ S3x30.size a)
    (hoff : off = ![k.val, 0]) (z : Fin 1) (f : Fin 30) :
    View.ld x2 (Rect.unit (s := S3x30) off S1x30.size inb) (ix2 z f) = x2 (ix2 k f) := by
  subst hoff
  have hz : z.val = 0 := by omega
  show x2 _ = x2 _
  refine congrArg x2 (funext fun a => Fin.ext ?_)
  match a with
  | ⟨0, _⟩ => show k.val + 1 * z.val = k.val; omega
  | ⟨1, _⟩ => show 0 + 1 * f.val = f.val; omega

/-- A stored piece that holds slab k of the block of tables agrees with the block where its rectangle puts it. -/
theorem piece_apply (x0 : Vec Ideal S5000x30 .f32) (x1 : Vec Ideal S3x30x30 .f32) (x2 : Vec Ideal S3x30 .f32) (k : Fin 3)
    (off : Fin 3 → Nat) (inb : ∀ a, off a + S1x5000x30.size a ≤ S3x5000x30.size a) (hoff : off = ![k.val, 0, 0])
    (p : Vec Ideal S1x5000x30 .bf16) (hp : ∀ (z : Fin 1) (r : Fin 5000) (f : Fin 30), p (ix3 z r f) = tabAt x0 x1 x2 k r f)
    (x : S1x5000x30.Idx) : p x = tabBlock x0 x1 x2 ((Rect.unit (s := S3x5000x30) off S1x5000x30.size inb).emb x) := by
  subst hoff
  obtain ⟨z, r, f, rfl⟩ : ∃ (z : Fin 1) (r : Fin 5000) (f : Fin 30), x = ix3 z r f := ⟨x 0, x 1, x 2, eq_ix3 x⟩
  rw [hp]
  have hz : z.val = 0 := by omega
  unfold tabBlock
  refine congr (congr (congrArg (tabAt x0 x1 x2) (Fin.ext ?_)) (Fin.ext ?_)) (Fin.ext ?_)
  · show k.val = k.val + 1 * z.val; omega
  · show r.val = 0 + 1 * r.val; omega
  · show f.val = 0 + 1 * f.val; omega

/-- The contraction and bias over the loaded node block, weight slab k and bias row k are entry (k, r, f) of the block of tables. -/
theorem tabAt_of_loads (x0 : Vec Ideal S5000x30 .f32) (x1 : Vec Ideal S3x30x30 .f32) (x2 : Vec Ideal S3x30 .f32) (k : Fin 3)
    (inb0 : ∀ a, (![0, 0] : Fin 2 → Nat) a + S5000x30.size a ≤ S5000x30.size a)
    (offw : Fin 3 → Nat) (inbw : ∀ a, offw a + S1x30x30.size a ≤ S3x30x30.size a) (hw : offw = ![k.val, 0, 0])
    (offb : Fin 2 → Nat) (inbb : ∀ a, offb a + S1x30.size a ≤ S3x30.size a) (hb : offb = ![k.val, 0])
    (r : Fin 5000) (f : Fin 30) :
    (∑ d : Fin 30, View.ld x0 (Rect.unit (s := S5000x30) ![0, 0] S5000x30.size inb0) (ix2 r d)
        * View.ld x1 (Rect.unit (s := S3x30x30) offw S1x30x30.size inbw) (ix3 (0 : Fin 1) d f))
      + View.ld x2 (Rect.unit (s := S3x30) offb S1x30.size inbb) (ix2 (0 : Fin 1) f) = tabAt x0 x1 x2 k r f := by
  rw [View.ld_unit_zero (S := S5000x30) hz2]
  exact congrArg₂ (· + ·) (Finset.sum_congr rfl fun d _ => congrArg (x0 (ix2 r d) * ·) (ld_slab x1 k offw inbw hw 0 d f))
    (ld_bias x2 k offb inbb hb 0 f)

/-! ## Region 0: the payloads, the buffer after the body -/

theorem pay0_1_apply (xb : FVec Ideal S5000x30 .bf16) (wb : FVec Ideal S30x30 .bf16) (b : Vec Ideal S1x30 .f32) (z : Fin 1) (r : Fin 5000) (f : Fin 30) :
    k0_pay1 (F := Ideal) xb wb b (ix3 z r f) = (∑ d : Fin 30, xb (ix2 r d) * wb (ix2 d f)) + b (ix2 (0 : Fin 1) f) := by
  unfold k0_pay1
  exact stored_apply xb wb b _ _ _ _ _ z r f

theorem pay0_5_apply (w : Vec Ideal S1x30x30 .f32) (d f : Fin 30) : k0_pay5 (F := Ideal) w (ix2 d f) = w (ix3 (0 : Fin 1) d f) := by
  unfold k0_pay5
  exact (truncf_apply (φ := .f32) (ψ := .bf16) _ _ (ix2 d f)).trans (slab_apply w _ d f)

/-- Each of region 0's three stored values, over the loaded blocks, is a slab of the block of tables. -/
theorem stored0 (x0 : Vec Ideal S5000x30 .f32) (x1 : Vec Ideal S3x30x30 .f32) (x2 : Vec Ideal S3x30 .f32) (k : Fin 3)
    (inb0 : ∀ a, (![0, 0] : Fin 2 → Nat) a + S5000x30.size a ≤ S5000x30.size a)
    (offw : Fin 3 → Nat) (inbw : ∀ a, offw a + S1x30x30.size a ≤ S3x30x30.size a) (hw : offw = ![k.val, 0, 0])
    (offb : Fin 2 → Nat) (inbb : ∀ a, offb a + S1x30.size a ≤ S3x30.size a) (hb : offb = ![k.val, 0])
    (z : Fin 1) (r : Fin 5000) (f : Fin 30) :
    k0_pay1 (F := Ideal) (k0_pay2 (View.ld x0 (Rect.unit (s := S5000x30) ![0, 0] S5000x30.size inb0)))
        (k0_pay5 (View.ld x1 (Rect.unit (s := S3x30x30) offw S1x30x30.size inbw)))
        (View.ld x2 (Rect.unit (s := S3x30) offb S1x30.size inbb)) (ix3 z r f) = tabAt x0 x1 x2 k r f := by
  refine (pay0_1_apply _ _ _ z r f).trans ?_
  refine Eq.trans ?_ (tabAt_of_loads x0 x1 x2 k inb0 offw inbw hw offb inbb hb r f)
  refine congrArg (· + _) (Finset.sum_congr rfl fun d _ => congrArg₂ (· * ·) ?_ (pay0_5_apply _ d f))
  unfold k0_pay2
  exact truncf_apply (φ := .f32) (ψ := .bf16) _ _ (ix2 r d)

/-- What the three stores of region 0's body leave in the output buffer is the block of tables of the input blocks. -/
theorem out0_3_apply (x0 : Vec Ideal S5000x30 .f32) (x1 : Vec Ideal S3x30x30 .f32) (x2 : Vec Ideal S3x30 .f32) (y : S3x5000x30.Idx) :
    out0_3 (F := Ideal) x0 x1 x2 y = tabBlock x0 x1 x2 y := by
  unfold out0_3
  refine View.canon_apply_of_pieces (tabBlock x0 x1 x2) _ ?_ y (cover0_3 _ _ _ y)
  intro p hp
  simp only [List.mem_cons, List.not_mem_nil, or_false] at hp
  rcases hp with rfl | rfl | rfl
  · intro x
    refine piece_apply x0 x1 x2 2 ![2, 0, 0] Gen.inb_S3x5000x30_S1x5000x30_2_0_0 rfl _ (fun z r f => ?_) x
    exact stored0 x0 x1 x2 2 Gen.inb_S5000x30_S5000x30_0_0 ![2, 0, 0] Gen.inb_S3x30x30_S1x30x30_2_0_0 rfl ![2, 0] Gen.inb_S3x30_S1x30_2_0 rfl z r f
  · intro x
    refine piece_apply x0 x1 x2 1 ![1, 0, 0] Gen.inb_S3x5000x30_S1x5000x30_1_0_0 rfl _ (fun z r f => ?_) x
    exact stored0 x0 x1 x2 1 Gen.inb_S5000x30_S5000x30_0_0 ![1, 0, 0] Gen.inb_S3x30x30_S1x30x30_1_0_0 rfl ![1, 0] Gen.inb_S3x30_S1x30_1_0 rfl z r f
  · intro x
    refine piece_apply x0 x1 x2 0 ![0, 0, 0] Gen.inb_S3x5000x30_S1x5000x30_0_0_0 rfl _ (fun z r f => ?_) x
    exact stored0 x0 x1 x2 0 Gen.inb_S5000x30_S5000x30_0_0 ![0, 0, 0] Gen.inb_S3x30x30_S1x30x30_0_0_0 rfl ![0, 0] Gen.inb_S3x30_S1x30_0_0 rfl z r f

/-! ## Region 0: from blocks to the array -/

/-- The printed index maps over the grid of 20 points: the node block and the table block move along their row axis with
    the point; the weights and the bias stay whole. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- The node block at point t is rows 5000 t … 5000 t + 4999 of the node features. -/
theorem hblk0_apply (c : Dev nD) (t : Fin cfg0.N) (r : Fin 5000) (d : Fin 30) (n : Fin 100000) (hn : n.val = 5000 * t.val + r.val) :
    (iblk0 V c 0 t : Vec Ideal S5000x30 .f32) (ix2 r d) = (V c main_arg0 : Vec Ideal S100000x30 .f32) (ix2 n d) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 30 + 1 * d.val = d.val; rw [e1]; omega

/-- The weights' block at any point is the whole array. -/
theorem wblk0_apply (c : Dev nD) (t : Fin cfg0.N) (k : Fin 3) (d f : Fin 30) :
    (iblk0 V c 1 t : Vec Ideal S3x30x30 .f32) (ix3 k d f) = (V c main_v0 : Vec Ideal S3x30x30 .f32) (ix3 k d f) := by
  obtain ⟨-, -, e2, e3, e4, -⟩ := idx_facts0 t
  unfold iblk0
  rw [View.read_apply]
  show V c main_v0 _ = V c main_v0 _
  congr 1
  funext a
  apply Fin.ext
  match a with
  | ⟨0, _⟩ => show win0_1.index t (0 : Fin 3) * 3 + 1 * k.val = k.val; rw [e2]; omega
  | ⟨1, _⟩ => show win0_1.index t (1 : Fin 3) * 30 + 1 * d.val = d.val; rw [e3]; omega
  | ⟨2, _⟩ => show win0_1.index t (2 : Fin 3) * 30 + 1 * f.val = f.val; rw [e4]; omega

/-- The bias' block at any point is the whole array. -/
theorem bblk0_apply (c : Dev nD) (t : Fin cfg0.N) (k : Fin 3) (f : Fin 30) :
    (iblk0 V c 2 t : Vec Ideal S3x30 .f32) (ix2 k f) = (V c main_arg7 : Vec Ideal S3x30 .f32) (ix2 k f) := by
  obtain ⟨-, -, -, -, -, e5, e6, -⟩ := idx_facts0 t
  unfold iblk0
  rw [View.read_apply]
  show V c main_arg7 _ = V c main_arg7 _
  congr 1
  funext a
  apply Fin.ext
  match a with
  | ⟨0, _⟩ => show win0_2.index t (0 : Fin 2) * 3 + 1 * k.val = k.val; rw [e5]; omega
  | ⟨1, _⟩ => show win0_2.index t (1 : Fin 2) * 30 + 1 * f.val = f.val; rw [e6]; omega

/-- The block of tables of point t's input blocks is rows 5000 t … of the tables of the whole arrays. -/
theorem tabAt_blocks0 (c : Dev nD) (t : Fin cfg0.N) (k : Fin 3) (r : Fin 5000) (f : Fin 30) (n : Fin 100000)
    (hn : n.val = 5000 * t.val + r.val) :
    tabAt (iblk0 V c 0 t) (iblk0 V c 1 t) (iblk0 V c 2 t) k r f
      = Gnn.denseTAt (V c main_arg0) (V c main_v0) (V c main_arg7) k n f := by
  unfold tabAt Gnn.denseTAt
  exact congrArg₂ (· + ·)
    (Finset.sum_congr rfl fun d _ => congrArg₂ (· * ·) (hblk0_apply V c t r d n hn) (wblk0_apply V c t k d f))
    (bblk0_apply V c t k f)

/-- What point t writes back is block t of the tables of the arrays the region finds. -/
theorem flushed0_3 (c : Dev nD) (t : Fin cfg0.N) :
    (dat0 (F := Ideal) V c).flushed 3 t
      = ((cfg0.win 3).blk t).view.read (Elt Ideal) (Gnn.denseT (V c main_arg0) (V c main_v0) (V c main_arg7)) := by
  show (cfg0.win 3).cut (grid0.coords t) ((dat0 V c).after 3 t) = _
  rw [after0_3]
  obtain ⟨-, -, -, -, -, -, -, e7, e8, e9⟩ := idx_facts0 t
  have ht : t.val < 20 := lt_of_lt_of_eq t.isLt N_0
  funext j
  obtain ⟨k, r, f, rfl⟩ : ∃ (k : Fin 3) (r : Fin 5000) (f : Fin 30), j = ix3 k r f := ⟨j 0, j 1, j 2, eq_ix3 j⟩
  rw [View.read_apply]
  show out0_3 (F := Ideal) (iblk0 V c 0 t) (iblk0 V c 1 t) (iblk0 V c 2 t) (ix3 k r f)
    = Gnn.denseT (V c main_arg0) (V c main_v0) (V c main_arg7) (((cfg0.win 3).blk t).view.emb (ix3 k r f))
  refine (out0_3_apply (iblk0 V c 0 t) (iblk0 V c 1 t) (iblk0 V c 2 t) (ix3 k r f)).trans ?_
  refine (tabAt_blocks0 V c t k r f ⟨5000 * t.val + r.val, by omega⟩ rfl).trans ?_
  unfold Gnn.denseT
  refine congr (congr (congrArg (Gnn.denseTAt (V c main_arg0) (V c main_v0) (V c main_arg7)) (Fin.ext ?_)) (Fin.ext ?_)) (Fin.ext ?_)
  · show k.val = win0_3.index t (0 : Fin 3) * 3 + 1 * k.val; rw [e7]; omega
  · show 5000 * t.val + r.val = win0_3.index t (1 : Fin 3) * 5000 + 1 * r.val; rw [e8]; omega
  · show f.val = win0_3.index t (2 : Fin 3) * 30 + 1 * f.val; rw [e9]; omega

/-- Every entry of the tables lies in the block of the point its row names. -/
theorem cover0 (i : S3x100000x30.Idx) : ∃ t : Fin cfg0.N, (cfg0.win 3).flush t = true ∧ i ∈ ((cfg0.win 3).blk t).view.set := by
  have h0 : (i 0).val < 3 := (i 0).isLt
  have h1 : (i 1).val < 100000 := (i 1).isLt
  have h2 : (i 2).val < 30 := (i 2).isLt
  obtain ⟨t, ht⟩ : ∃ t : Fin cfg0.N, t.val = (i 1).val / 5000 :=
    ⟨⟨(i 1).val / 5000, lt_of_lt_of_eq (show (i 1).val / 5000 < 20 by omega) N_0.symm⟩, rfl⟩
  obtain ⟨-, -, -, -, -, -, -, e7, e8, e9⟩ := idx_facts0 t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 3) * 3 ≤ (i 0).val ∧ (i 0).val < win0_3.index t (0 : Fin 3) * 3 + 3
    rw [e7]; omega
  | ⟨1, _⟩ =>
    show win0_3.index t (1 : Fin 3) * 5000 ≤ (i 1).val ∧ (i 1).val < win0_3.index t (1 : Fin 3) * 5000 + 5000
    rw [e8, ht]; omega
  | ⟨2, _⟩ =>
    show win0_3.index t (2 : Fin 3) * 30 ≤ (i 2).val ∧ (i 2).val < win0_3.index t (2 : Fin 3) * 30 + 30
    rw [e9]; omega

end Dense0

/-- Region 0 leaves in its output array the tables of the entry contents of its three input arrays. -/
theorem dense0_arr (c : Dev nD) :
    (dat0 (F := Ideal) V c).arrAt 3 cfg0.N = Gnn.denseT (V c main_arg0) (V c main_v0) (V c main_arg7) :=
  (dat0 (F := Ideal) V c).arrAt_eq_of_cover 3 (Gnn.denseT (V c main_arg0) (V c main_v0) (V c main_arg7))
    (fun t _ => Dense0.flushed0_3 V c t) Dense0.cover0

namespace Dense2

open Dense0

/-! ## Region 2: the payloads, the buffer after the body -/

theorem pay2_1_apply (xb : FVec Ideal S5000x30 .bf16) (wb : FVec Ideal S30x30 .bf16) (b : Vec Ideal S1x30 .f32) (z : Fin 1) (r : Fin 5000) (f : Fin 30) :
    k2_pay1 (F := Ideal) xb wb b (ix3 z r f) = (∑ d : Fin 30, xb (ix2 r d) * wb (ix2 d f)) + b (ix2 (0 : Fin 1) f) := by
  unfold k2_pay1
  exact stored_apply xb wb b _ _ _ _ _ z r f

theorem pay2_5_apply (w : Vec Ideal S1x30x30 .f32) (d f : Fin 30) : k2_pay5 (F := Ideal) w (ix2 d f) = w (ix3 (0 : Fin 1) d f) := by
  unfold k2_pay5
  exact (truncf_apply (φ := .f32) (ψ := .bf16) _ _ (ix2 d f)).trans (slab_apply w _ d f)

/-- Each of region 2's three stored values, over the loaded blocks, is a slab of the block of tables. -/
theorem stored2 (x0 : Vec Ideal S5000x30 .f32) (x1 : Vec Ideal S3x30x30 .f32) (x2 : Vec Ideal S3x30 .f32) (k : Fin 3)
    (inb0 : ∀ a, (![0, 0] : Fin 2 → Nat) a + S5000x30.size a ≤ S5000x30.size a)
    (offw : Fin 3 → Nat) (inbw : ∀ a, offw a + S1x30x30.size a ≤ S3x30x30.size a) (hw : offw = ![k.val, 0, 0])
    (offb : Fin 2 → Nat) (inbb : ∀ a, offb a + S1x30.size a ≤ S3x30.size a) (hb : offb = ![k.val, 0])
    (z : Fin 1) (r : Fin 5000) (f : Fin 30) :
    k2_pay1 (F := Ideal) (k2_pay2 (View.ld x0 (Rect.unit (s := S5000x30) ![0, 0] S5000x30.size inb0)))
        (k2_pay5 (View.ld x1 (Rect.unit (s := S3x30x30) offw S1x30x30.size inbw)))
        (View.ld x2 (Rect.unit (s := S3x30) offb S1x30.size inbb)) (ix3 z r f) = tabAt x0 x1 x2 k r f := by
  refine (pay2_1_apply _ _ _ z r f).trans ?_
  refine Eq.trans ?_ (tabAt_of_loads x0 x1 x2 k inb0 offw inbw hw offb inbb hb r f)
  refine congrArg (· + _) (Finset.sum_congr rfl fun d _ => congrArg₂ (· * ·) ?_ (pay2_5_apply _ d f))
  unfold k2_pay2
  exact (truncf_apply (φ := .f32) (ψ := .bf16) _ _ (ix2 r d)).trans (congrFun (shapeCast_self _ _) (ix2 r d))

/-- What the three stores of region 2's body leave in the output buffer is the block of tables of the input blocks. -/
theorem out2_3_apply (x0 : Vec Ideal S5000x30 .f32) (x1 : Vec Ideal S3x30x30 .f32) (x2 : Vec Ideal S3x30 .f32) (y : S3x5000x30.Idx) :
    out2_3 (F := Ideal) x0 x1 x2 y = tabBlock x0 x1 x2 y := by
  unfold out2_3
  refine View.canon_apply_of_pieces (tabBlock x0 x1 x2) _ ?_ y (cover2_3 _ _ _ y)
  intro p hp
  simp only [List.mem_cons, List.not_mem_nil, or_false] at hp
  rcases hp with rfl | rfl | rfl
  · intro x
    refine piece_apply x0 x1 x2 2 ![2, 0, 0] Gen.inb_S3x5000x30_S1x5000x30_2_0_0 rfl _ (fun z r f => ?_) x
    exact stored2 x0 x1 x2 2 Gen.inb_S5000x30_S5000x30_0_0 ![2, 0, 0] Gen.inb_S3x30x30_S1x30x30_2_0_0 rfl ![2, 0] Gen.inb_S3x30_S1x30_2_0 rfl z r f
  · intro x
    refine piece_apply x0 x1 x2 1 ![1, 0, 0] Gen.inb_S3x5000x30_S1x5000x30_1_0_0 rfl _ (fun z r f => ?_) x
    exact stored2 x0 x1 x2 1 Gen.inb_S5000x30_S5000x30_0_0 ![1, 0, 0] Gen.inb_S3x30x30_S1x30x30_1_0_0 rfl ![1, 0] Gen.inb_S3x30_S1x30_1_0 rfl z r f
  · intro x
    refine piece_apply x0 x1 x2 0 ![0, 0, 0] Gen.inb_S3x5000x30_S1x5000x30_0_0_0 rfl _ (fun z r f => ?_) x
    exact stored2 x0 x1 x2 0 Gen.inb_S5000x30_S5000x30_0_0 ![0, 0, 0] Gen.inb_S3x30x30_S1x30x30_0_0_0 rfl ![0, 0] Gen.inb_S3x30_S1x30_0_0 rfl z r f

/-! ## Region 2: from blocks to the array -/

/-- The printed index maps over the grid of 20 points: the node block and the table block move along their row axis with
    the point; the weights and the bias stay whole. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = 0 ∧ win2_3.index t (1 : Fin 3) = t.val ∧ win2_3.index t (2 : Fin 3) = 0 :=
  (by decide +kernel : ∀ t : Fin grid2.N, _)

/-- The node block at point t is rows 5000 t … 5000 t + 4999 of the node features. -/
theorem hblk2_apply (c : Dev nD) (t : Fin cfg2.N) (r : Fin 5000) (d : Fin 30) (n : Fin 100000) (hn : n.val = 5000 * t.val + r.val) :
    (iblk2 V c 0 t : Vec Ideal S5000x30 .f32) (ix2 r d) = (V c main_v13 : Vec Ideal S100000x30 .f32) (ix2 n d) := by
  obtain ⟨e0, e1, -⟩ := idx_facts2 t
  unfold iblk2
  rw [View.read_apply]
  show V c main_v13 _ = V c main_v13 _
  congr 1
  funext a
  apply Fin.ext
  match a with
  | ⟨0, _⟩ => show win2_0.index t (0 : Fin 2) * 5000 + 1 * r.val = n.val; rw [e0, hn]; omega
  | ⟨1, _⟩ => show win2_0.index t (1 : Fin 2) * 30 + 1 * d.val = d.val; rw [e1]; omega

/-- The weights' block at any point is the whole array. -/
theorem wblk2_apply (c : Dev nD) (t : Fin cfg2.N) (k : Fin 3) (d f : Fin 30) :
    (iblk2 V c 1 t : Vec Ideal S3x30x30 .f32) (ix3 k d f) = (V c main_v14 : Vec Ideal S3x30x30 .f32) (ix3 k d f) := by
  obtain ⟨-, -, e2, e3, e4, -⟩ := idx_facts2 t
  unfold iblk2
  rw [View.read_apply]
  show V c main_v14 _ = V c main_v14 _
  congr 1
  funext a
  apply Fin.ext
  match a with
  | ⟨0, _⟩ => show win2_1.index t (0 : Fin 3) * 3 + 1 * k.val = k.val; rw [e2]; omega
  | ⟨1, _⟩ => show win2_1.index t (1 : Fin 3) * 30 + 1 * d.val = d.val; rw [e3]; omega
  | ⟨2, _⟩ => show win2_1.index t (2 : Fin 3) * 30 + 1 * f.val = f.val; rw [e4]; omega

/-- The bias' block at any point is the whole array. -/
theorem bblk2_apply (c : Dev nD) (t : Fin cfg2.N) (k : Fin 3) (f : Fin 30) :
    (iblk2 V c 2 t : Vec Ideal S3x30 .f32) (ix2 k f) = (V c main_arg13 : Vec Ideal S3x30 .f32) (ix2 k f) := by
  obtain ⟨-, -, -, -, -, e5, e6, -⟩ := idx_facts2 t
  unfold iblk2
  rw [View.read_apply]
  show V c main_arg13 _ = V c main_arg13 _
  congr 1
  funext a
  apply Fin.ext
  match a with
  | ⟨0, _⟩ => show win2_2.index t (0 : Fin 2) * 3 + 1 * k.val = k.val; rw [e5]; omega
  | ⟨1, _⟩ => show win2_2.index t (1 : Fin 2) * 30 + 1 * f.val = f.val; rw [e6]; omega

/-- The block of tables of point t's input blocks is rows 5000 t … of the tables of the whole arrays. -/
theorem tabAt_blocks2 (c : Dev nD) (t : Fin cfg2.N) (k : Fin 3) (r : Fin 5000) (f : Fin 30) (n : Fin 100000)
    (hn : n.val = 5000 * t.val + r.val) :
    tabAt (iblk2 V c 0 t) (iblk2 V c 1 t) (iblk2 V c 2 t) k r f
      = Gnn.denseTAt (V c main_v13) (V c main_v14) (V c main_arg13) k n f := by
  unfold tabAt Gnn.denseTAt
  exact congrArg₂ (· + ·)
    (Finset.sum_congr rfl fun d _ => congrArg₂ (· * ·) (hblk2_apply V c t r d n hn) (wblk2_apply V c t k d f))
    (bblk2_apply V c t k f)

/-- What point t writes back is block t of the tables of the arrays the region finds. -/
theorem flushed2_3 (c : Dev nD) (t : Fin cfg2.N) :
    (dat2 (F := Ideal) V c).flushed 3 t
      = ((cfg2.win 3).blk t).view.read (Elt Ideal) (Gnn.denseT (V c main_v13) (V c main_v14) (V c main_arg13)) := by
  show (cfg2.win 3).cut (grid2.coords t) ((dat2 V c).after 3 t) = _
  rw [after2_3]
  obtain ⟨-, -, -, -, -, -, -, e7, e8, e9⟩ := idx_facts2 t
  have ht : t.val < 20 := lt_of_lt_of_eq t.isLt N_2
  funext j
  obtain ⟨k, r, f, rfl⟩ : ∃ (k : Fin 3) (r : Fin 5000) (f : Fin 30), j = ix3 k r f := ⟨j 0, j 1, j 2, eq_ix3 j⟩
  rw [View.read_apply]
  show out2_3 (F := Ideal) (iblk2 V c 0 t) (iblk2 V c 1 t) (iblk2 V c 2 t) (ix3 k r f)
    = Gnn.denseT (V c main_v13) (V c main_v14) (V c main_arg13) (((cfg2.win 3).blk t).view.emb (ix3 k r f))
  refine (out2_3_apply (iblk2 V c 0 t) (iblk2 V c 1 t) (iblk2 V c 2 t) (ix3 k r f)).trans ?_
  refine (tabAt_blocks2 V c t k r f ⟨5000 * t.val + r.val, by omega⟩ rfl).trans ?_
  unfold Gnn.denseT
  refine congr (congr (congrArg (Gnn.denseTAt (V c main_v13) (V c main_v14) (V c main_arg13)) (Fin.ext ?_)) (Fin.ext ?_)) (Fin.ext ?_)
  · show k.val = win2_3.index t (0 : Fin 3) * 3 + 1 * k.val; rw [e7]; omega
  · show 5000 * t.val + r.val = win2_3.index t (1 : Fin 3) * 5000 + 1 * r.val; rw [e8]; omega
  · show f.val = win2_3.index t (2 : Fin 3) * 30 + 1 * f.val; rw [e9]; omega

/-- Every entry of the tables lies in the block of the point its row names. -/
theorem cover2 (i : S3x100000x30.Idx) : ∃ t : Fin cfg2.N, (cfg2.win 3).flush t = true ∧ i ∈ ((cfg2.win 3).blk t).view.set := by
  have h0 : (i 0).val < 3 := (i 0).isLt
  have h1 : (i 1).val < 100000 := (i 1).isLt
  have h2 : (i 2).val < 30 := (i 2).isLt
  obtain ⟨t, ht⟩ : ∃ t : Fin cfg2.N, t.val = (i 1).val / 5000 :=
    ⟨⟨(i 1).val / 5000, lt_of_lt_of_eq (show (i 1).val / 5000 < 20 by omega) N_2.symm⟩, rfl⟩
  obtain ⟨-, -, -, -, -, -, -, e7, e8, e9⟩ := idx_facts2 t
  refine ⟨t, flush2_3 t, ?_⟩
  show i ∈ ((View.whole main_v15).slice (win2_3.rect t)).set
  rw [View.set_slice_whole, Rect.mem_set_unit]
  intro a
  match a with
  | ⟨0, _⟩ =>
    show win2_3.index t (0 : Fin 3) * 3 ≤ (i 0).val ∧ (i 0).val < win2_3.index t (0 : Fin 3) * 3 + 3
    rw [e7]; omega
  | ⟨1, _⟩ =>
    show win2_3.index t (1 : Fin 3) * 5000 ≤ (i 1).val ∧ (i 1).val < win2_3.index t (1 : Fin 3) * 5000 + 5000
    rw [e8, ht]; omega
  | ⟨2, _⟩ =>
    show win2_3.index t (2 : Fin 3) * 30 ≤ (i 2).val ∧ (i 2).val < win2_3.index t (2 : Fin 3) * 30 + 30
    rw [e9]; omega

end Dense2

/-- Region 2 likewise. -/
theorem dense2_arr (c : Dev nD) :
    (dat2 (F := Ideal) V c).arrAt 3 cfg2.N = Gnn.denseT (V c main_v13) (V c main_v14) (V c main_arg13) :=
  (dat2 (F := Ideal) V c).arrAt_eq_of_cover 3 (Gnn.denseT (V c main_v13) (V c main_v14) (V c main_arg13))
    (fun t _ => Dense2.flushed2_3 V c t) Dense2.cover2

/-! ## The exchanged weights -/

/-- Contracting against the exchanged weights' [k, d, f] is contracting against the given weights' [k, f, d]. -/
theorem denseT_wT (h : Vec Ideal S100000x30 .f32) (w : Vec Ideal S3x30x30 .f32) (b : Vec Ideal S3x30 .f32) :
    Gnn.denseT h (wT w) b = Gnn.dense h w b := by
  funext i
  obtain ⟨k, n, f, rfl⟩ : ∃ (k : Fin 3) (n : Fin 100000) (f : Fin 30), i = ix3 k n f := ⟨i 0, i 1, i 2, eq_ix3 i⟩
  show Gnn.denseTAt h (wT w) b k n f = Gnn.denseAt h w b k n f
  unfold Gnn.denseTAt Gnn.denseAt
  refine congrArg (· + b (ix2 k f)) (Finset.sum_congr rfl fun d _ => congrArg (h (ix2 n d) * ·) ?_)
  unfold wT
  refine transpose_apply [0, 2, 1] w _ (ix3 k d f) (ix3 k f d) fun a => ?_
  match a with
  | ⟨0, _⟩ => rfl
  | ⟨1, _⟩ => rfl
  | ⟨2, _⟩ => rfl

end Cert.KernelIdeal.GnnK
end
-- ==== Proof.KGru1.lean ====
/-
  The first layer's cell region: the array its write-backs leave is the cell (with the maximum with zero) of the entry contents.

  The body stores one block of 5000 rows.  Its two matrix products against a zero accumulator are the plain contraction
  sums over the 30 features; with the bias row added each is one of the cell's linear maps on the block's rows; the three
  cuts of 30 columns are the three bands; the pointwise operations are the cell's gates.  Row r of the block at grid point
  t is row t * 5000 + r of the arrays, the weight and bias windows hold their whole arrays, and the twenty blocks cover
  the output array.
-/
import proofs.«413908_j6485400616961_2_alg».proof.Proof.Gen.KernelIdeal.Frame
import proofs.«413908_j6485400616961_2_alg».proof.Proof.KStages
import proofs.«413908_j6485400616961_2_alg».proof.Proof.LibPlainDot
import Idealize.ShloMosaic.Lib.ValueLayout
import Idealize.ShloMosaic.PureOps.Ideal.Laws

set_option maxRecDepth 16384

noncomputable section

namespace Cert.KernelIdeal.GnnK

open Cert.KernelIdeal Cert.KernelIdeal.Facts₀ Cert.KernelIdeal.Facts
open Idealize.ShloMosaic Idealize.ShloMosaic.TcCoe Idealize.SL.Sem
open Cert.KernelIdeal.Gen
open Idealize.ShloMosaic.ValueIdx

variable (V : (c : Dev nD) → (b : Ref sig .tc) → Buf (Elt Ideal) ((c : Thread nD τ).loc b))

namespace Gru1

/-- One of the cell's two linear maps on a block of 5000 rows: row r, column c < 90. -/
def linB (x : Vec Ideal S5000x30 .f32) (wT : Vec Ideal S30x90 .f32) (bv : Vec Ideal S90 .f32) (r : Fin 5000) (c : Fin 90) : EReal :=
  (∑ d : Fin 30, x (ix2 r d) * wT (ix2 d c)) + bv (ix1 c)

/-- The block matrix product against a zero accumulator, read at (r, c): the plain contraction sum. -/
theorem mm_apply (x : FVec Ideal S5000x30 .bf16) (w : FVec Ideal S30x90 .bf16) (r : Fin 5000) (c : Fin 90) :
    matmul (F := Ideal) dot_S5000x30_S30x90_S5000x90_1_0_0_1_n_n none x w (constant (F := Ideal) S5000x90 .f32 0x00000000#32) (ix2 r c)
      = ∑ d : Fin 30, x (ix2 r d) * w (ix2 d c) := by
  refine (Ideal.matmul_constant_zero_apply dot_S5000x30_S30x90_S5000x90_1_0_0_1_n_n none x w (ix2 r c)).trans ?_
  exact PlainDot.sum_eq dot_S5000x30_S30x90_S5000x90_1_0_0_1_n_n rfl rfl rfl rfl rfl rfl x w r c

/-- The bias row laid over the 5000 rows, read at (r, c). -/
theorem bias_apply (bv : Vec Ideal S90 .f32) (r : Fin 5000) (c : Fin 90) :
    broadcastTo S5000x90 (shapeCast S1x90 bv Gen.shapeCasts_S90_S1x90) Gen.broadcasts_S1x90_S5000x90 (ix2 r c) = bv (ix1 c) :=
  (broadcastTo_1b_ab_apply _ Gen.broadcasts_S1x90_S5000x90 r c).trans (shapeCast_a_1a_apply bv Gen.shapeCasts_S90_S1x90 0 c)

/-- A linear map's block as the program forms it: the operands narrowed (the identity on extended reals), their product
    against a zero accumulator, plus the bias row. -/
def linV (x : Vec Ideal S5000x30 .f32) (w : Vec Ideal S30x90 .f32) (bv : Vec Ideal S90 .f32) : FVec Ideal S5000x90 .f32 :=
  addf (matmul (F := Ideal) dot_S5000x30_S30x90_S5000x90_1_0_0_1_n_n none (truncf .bf16 x Gen.bitsLt_bf16_f32) (truncf .bf16 w Gen.bitsLt_bf16_f32)
      (constant (F := Ideal) S5000x90 .f32 0x00000000#32))
    (broadcastTo S5000x90 (shapeCast S1x90 bv Gen.shapeCasts_S90_S1x90) Gen.broadcasts_S1x90_S5000x90)

/-- That block at (r, c) is the linear map's entry. -/
theorem linV_apply (x : Vec Ideal S5000x30 .f32) (w : Vec Ideal S30x90 .f32) (bv : Vec Ideal S90 .f32) (r : Fin 5000) (c : Fin 90) :
    linV x w bv (ix2 r c) = linB x w bv r c := by
  unfold linV linB
  refine (addf_apply _ _ _).trans ?_
  rw [mm_apply, bias_apply]
  rfl

/-- The three bands cut out of a block of 90 columns. -/
theorem band0_apply (g : FVec Ideal S5000x90 .f32) (r : Fin 5000) (j : Fin 30) :
    extractStridedSlice S5000x30 ![0, 0] g Gen.slices_S5000x90_o0_0_S5000x30 (ix2 r j) = g (ix2 r (Gnn.band0 j)) :=
  slice2_axis1_apply 0 g Gen.slices_S5000x90_o0_0_S5000x30 r j (Gnn.band0 j) (Nat.zero_add _).symm
theorem band1_apply (g : FVec Ideal S5000x90 .f32) (r : Fin 5000) (j : Fin 30) :
    extractStridedSlice S5000x30 ![0, 30] g Gen.slices_S5000x90_o0_30_S5000x30 (ix2 r j) = g (ix2 r (Gnn.band1 j)) :=
  slice2_axis1_apply 30 g Gen.slices_S5000x90_o0_30_S5000x30 r j (Gnn.band1 j) rfl
theorem band2_apply (g : FVec Ideal S5000x90 .f32) (r : Fin 5000) (j : Fin 30) :
    extractStridedSlice S5000x30 ![0, 60] g Gen.slices_S5000x90_o0_60_S5000x30 (ix2 r j) = g (ix2 r (Gnn.band2 j)) :=
  slice2_axis1_apply 60 g Gen.slices_S5000x90_o0_60_S5000x30 r j (Gnn.band2 j) rfl

/-- The gates on blocks: from the two linear maps' blocks of 90 columns and the old features' block. -/
def cellV (gi gh : FVec Ideal S5000x90 .f32) (hv : Vec Ideal S5000x30 .f32) : FVec Ideal S5000x30 .f32 :=
  maximumf (addf (mulf (subf (broadcast S5000x30 (Scalar.ofBits (F := Ideal) .f32 0x3F800000#32))
        (logistic (addf (extractStridedSlice S5000x30 ![0, 30] gi Gen.slices_S5000x90_o0_30_S5000x30) (extractStridedSlice S5000x30 ![0, 30] gh Gen.slices_S5000x90_o0_30_S5000x30))))
      (tanh (addf (extractStridedSlice S5000x30 ![0, 60] gi Gen.slices_S5000x90_o0_60_S5000x30)
        (mulf (logistic (addf (extractStridedSlice S5000x30 ![0, 0] gi Gen.slices_S5000x90_o0_0_S5000x30) (extractStridedSlice S5000x30 ![0, 0] gh Gen.slices_S5000x90_o0_0_S5000x30)))
          (extractStridedSlice S5000x30 ![0, 60] gh Gen.slices_S5000x90_o0_60_S5000x30)))))
      (mulf (logistic (addf (extractStridedSlice S5000x30 ![0, 30] gi Gen.slices_S5000x90_o0_30_S5000x30) (extractStridedSlice S5000x30 ![0, 30] gh Gen.slices_S5000x90_o0_30_S5000x30))) hv))
    (broadcast S5000x30 (Scalar.ofBits (F := Ideal) .f32 0x00000000#32))

/-- The gates on blocks, read at (r, j): the scalar gates of the bands' entries there. -/
theorem cellV_apply (gi gh : FVec Ideal S5000x90 .f32) (hv : Vec Ideal S5000x30 .f32) (r : Fin 5000) (j : Fin 30) :
    cellV gi gh hv (ix2 r j)
      = Gnn.gate true (gi (ix2 r (Gnn.band0 j))) (gi (ix2 r (Gnn.band1 j))) (gi (ix2 r (Gnn.band2 j)))
          (gh (ix2 r (Gnn.band0 j))) (gh (ix2 r (Gnn.band1 j))) (gh (ix2 r (Gnn.band2 j))) (hv (ix2 r j)) := by
  show Gnn.gate true (extractStridedSlice S5000x30 ![0, 0] gi Gen.slices_S5000x90_o0_0_S5000x30 (ix2 r j))
      (extractStridedSlice S5000x30 ![0, 30] gi Gen.slices_S5000x90_o0_30_S5000x30 (ix2 r j))
      (extractStridedSlice S5000x30 ![0, 60] gi Gen.slices_S5000x90_o0_60_S5000x30 (ix2 r j))
      (extractStridedSlice S5000x30 ![0, 0] gh Gen.slices_S5000x90_o0_0_S5000x30 (ix2 r j))
      (extractStridedSlice S5000x30 ![0, 30] gh Gen.slices_S5000x90_o0_30_S5000x30 (ix2 r j))
      (extractStridedSlice S5000x30 ![0, 60] gh Gen.slices_S5000x90_o0_60_S5000x30 (ix2 r j)) (hv (ix2 r j)) = _
  rw [band0_apply, band1_apply, band2_apply, band0_apply, band1_apply, band2_apply]

/-- The body's stored block is the gates of the two linear maps' blocks. -/
theorem pay1_eq (a h : Vec Ideal S5000x30 .f32) (wi wh : Vec Ideal S30x90 .f32) (bi bh : Vec Ideal S90 .f32) :
    k1_pay1 (F := Ideal) a h wi wh bi bh
      = cellV (linV (shapeCast S5000x30 a Gen.shapeCasts_S5000x30_S5000x30) (shapeCast S30x90 wi Gen.shapeCasts_S30x90_S30x90) bi)
          (linV h (shapeCast S30x90 wh Gen.shapeCasts_S30x90_S30x90) bh) h := rfl

/-- The body's stored block at (r, j): the cell's gates of the block-local linear maps. -/
theorem pay1_apply (a h : Vec Ideal S5000x30 .f32) (wi wh : Vec Ideal S30x90 .f32) (bi bh : Vec Ideal S90 .f32) (r : Fin 5000) (j : Fin 30) :
    k1_pay1 (F := Ideal) a h wi wh bi bh (ix2 r j)
      = Gnn.gate true (linB a wi bi r (Gnn.band0 j)) (linB a wi bi r (Gnn.band1 j)) (linB a wi bi r (Gnn.band2 j))
          (linB h wh bh r (Gnn.band0 j)) (linB h wh bh r (Gnn.band1 j)) (linB h wh bh r (Gnn.band2 j)) (h (ix2 r j)) := by
  rw [pay1_eq, shapeCast_self, shapeCast_self, shapeCast_self, cellV_apply]
  simp only [linV_apply]

/-- The cell at (n, j) from one row of each feature block: when row r of the two blocks is row n of the two arrays and
    the weight and bias blocks are the whole arrays, the stored block at (r, j) is the cell at (n, j). -/
theorem pay1_gru (A H : Vec Ideal S100000x30 .f32) (WI WH : Vec Ideal S30x90 .f32) (BI BH : Vec Ideal S90 .f32)
    (a h : Vec Ideal S5000x30 .f32) (wi wh : Vec Ideal S30x90 .f32) (bi bh : Vec Ideal S90 .f32)
    (n : Fin 100000) (r : Fin 5000) (j : Fin 30)
    (ha : ∀ d : Fin 30, a (ix2 r d) = A (ix2 n d)) (hh : ∀ d : Fin 30, h (ix2 r d) = H (ix2 n d))
    (hwi : ∀ (d : Fin 30) (c : Fin 90), wi (ix2 d c) = WI (ix2 d c)) (hwh : ∀ (d : Fin 30) (c : Fin 90), wh (ix2 d c) = WH (ix2 d c))
    (hbi : ∀ c : Fin 90, bi (ix1 c) = BI (ix1 c)) (hbh : ∀ c : Fin 90, bh (ix1 c) = BH (ix1 c)) :
    k1_pay1 (F := Ideal) a h wi wh bi bh (ix2 r j) = Gnn.gruAt true A H WI WH BI BH n j := by
  rw [pay1_apply]
  unfold Gnn.gruAt Gnn.lin linB
  simp only [ha, hh, hwi, hwh, hbi, hbh]

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the three row-blocked windows sit at row block t, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- The region's six input arrays as it finds them, and their blocks at a point, at their literal types. -/
abbrev aArr (c : Dev nD) : Vec Ideal S100000x30 .f32 := V c main_v10
abbrev hArr (c : Dev nD) : Vec Ideal S100000x30 .f32 := V c main_arg0
abbrev wiArr (c : Dev nD) : Vec Ideal S30x90 .f32 := V c main_v11
abbrev whArr (c : Dev nD) : Vec Ideal S30x90 .f32 := V c main_v12
abbrev biArr (c : Dev nD) : Vec Ideal S90 .f32 := V c main_arg10
abbrev bhArr (c : Dev nD) : Vec Ideal S90 .f32 := V c main_arg11
abbrev aBlk (c : Dev nD) (t : Fin cfg1.N) : Vec Ideal S5000x30 .f32 := iblk1 V c 0 t
abbrev hBlk (c : Dev nD) (t : Fin cfg1.N) : Vec Ideal S5000x30 .f32 := iblk1 V c 1 t
abbrev wiBlk (c : Dev nD) (t : Fin cfg1.N) : Vec Ideal S30x90 .f32 := iblk1 V c 2 t
abbrev whBlk (c : Dev nD) (t : Fin cfg1.N) : Vec Ideal S30x90 .f32 := iblk1 V c 3 t
abbrev biBlk (c : Dev nD) (t : Fin cfg1.N) : Vec Ideal S90 .f32 := iblk1 V c 4 t
abbrev bhBlk (c : Dev nD) (t : Fin cfg1.N) : Vec Ideal S90 .f32 := iblk1 V c 5 t

/-- Row r of the aggregated messages' block at point t is row t * 5000 + r of the array. -/
theorem aBlk_apply (c : Dev nD) (t : Fin cfg1.N) (r : Fin 5000) (d : Fin 30) (n : Fin 100000) (hn : n.val = t.val * 5000 + r.val) :
    aBlk V c t (ix2 r d) = aArr V c (ix2 n d) := by
  obtain ⟨e0, e1, -⟩ := idx_facts t
  show V c main_v10 (((cfg1.win 0).blk t).view.emb (ix2 r d)) = V c main_v10 (ix2 n d)
  refine congrArg _ (funext fun a => Fin.ext ?_)
  match a with
  | ⟨0, _⟩ => show win1_0.index t (0 : Fin 2) * 5000 + 1 * r.val = n.val; omega
  | ⟨1, _⟩ => show win1_0.index t (1 : Fin 2) * 30 + 1 * d.val = d.val; omega

/-- Row r of the node features' block at point t is row t * 5000 + r of the array. -/
theorem hBlk_apply (c : Dev nD) (t : Fin cfg1.N) (r : Fin 5000) (d : Fin 30) (n : Fin 100000) (hn : n.val = t.val * 5000 + r.val) :
    hBlk V c t (ix2 r d) = hArr V c (ix2 n d) := by
  obtain ⟨-, -, e0, e1, -⟩ := idx_facts t
  show V c main_arg0 (((cfg1.win 1).blk t).view.emb (ix2 r d)) = V c main_arg0 (ix2 n d)
  refine congrArg _ (funext fun a => Fin.ext ?_)
  match a with
  | ⟨0, _⟩ => show win1_1.index t (0 : Fin 2) * 5000 + 1 * r.val = n.val; omega
  | ⟨1, _⟩ => show win1_1.index t (1 : Fin 2) * 30 + 1 * d.val = d.val; omega

/-- The weight and bias windows hold their whole arrays at every point. -/
theorem wiBlk_apply (c : Dev nD) (t : Fin cfg1.N) (d : Fin 30) (k : Fin 90) : wiBlk V c t (ix2 d k) = wiArr V c (ix2 d k) := by
  obtain ⟨-, -, -, -, e0, e1, -⟩ := idx_facts t
  show V c main_v11 (((cfg1.win 2).blk t).view.emb (ix2 d k)) = V c main_v11 (ix2 d k)
  refine congrArg _ (funext fun a => Fin.ext ?_)
  match a with
  | ⟨0, _⟩ => show win1_2.index t (0 : Fin 2) * 30 + 1 * d.val = d.val; omega
  | ⟨1, _⟩ => show win1_2.index t (1 : Fin 2) * 90 + 1 * k.val = k.val; omega
theorem whBlk_apply (c : Dev nD) (t : Fin cfg1.N) (d : Fin 30) (k : Fin 90) : whBlk V c t (ix2 d k) = whArr V c (ix2 d k) := by
  obtain ⟨-, -, -, -, -, -, e0, e1, -⟩ := idx_facts t
  show V c main_v12 (((cfg1.win 3).blk t).view.emb (ix2 d k)) = V c main_v12 (ix2 d k)
  refine congrArg _ (funext fun a => Fin.ext ?_)
  match a with
  | ⟨0, _⟩ => show win1_3.index t (0 : Fin 2) * 30 + 1 * d.val = d.val; omega
  | ⟨1, _⟩ => show win1_3.index t (1 : Fin 2) * 90 + 1 * k.val = k.val; omega
theorem biBlk_apply (c : Dev nD) (t : Fin cfg1.N) (k : Fin 90) : biBlk V c t (ix1 k) = biArr V c (ix1 k) := by
  obtain ⟨-, -, -, -, -, -, -, -, e0, -⟩ := idx_facts t
  show V c main_arg10 (((cfg1.win 4).blk t).view.emb (ix1 k)) = V c main_arg10 (ix1 k)
  refine congrArg _ (funext fun a => Fin.ext ?_)
  match a with
  | ⟨0, _⟩ => show win1_4.index t (0 : Fin 1) * 90 + 1 * k.val = k.val; omega
theorem bhBlk_apply (c : Dev nD) (t : Fin cfg1.N) (k : Fin 90) : bhBlk V c t (ix1 k) = bhArr V c (ix1 k) := by
  obtain ⟨-, -, -, -, -, -, -, -, -, e0, -⟩ := idx_facts t
  show V c main_arg11 (((cfg1.win 5).blk t).view.emb (ix1 k)) = V c main_arg11 (ix1 k)
  refine congrArg _ (funext fun a => Fin.ext ?_)
  match a with
  | ⟨0, _⟩ => show win1_5.index t (0 : Fin 1) * 90 + 1 * k.val = k.val; omega

/-- What point t writes back is block t of the cell of the entry contents. -/
theorem flushed_eq (c : Dev nD) (t : Fin cfg1.N) :
    (dat1 (F := Ideal) V c).flushed 6 t
      = ((cfg1.win 6).blk t).view.read (Elt Ideal)
          (Gnn.gru true (aArr V c) (hArr V c) (wiArr V c) (whArr V c) (biArr V c) (bhArr V c)) := by
  show (cfg1.win 6).cut (grid1.coords t) ((dat1 (F := Ideal) V c).after 6 t) = _
  rw [after1_6]
  unfold out1_6
  rw [View.canon_unit_zero hz2]
  simp only [View.ld_unit_zero (S := S5000x30) hz2, View.ld_unit_zero (S := S30x90) hz2, View.ld_unit_zero (S := S90) hz1]
  obtain ⟨-, -, -, -, -, -, -, -, -, -, e0, e1⟩ := idx_facts t
  have ht : t.val < 20 := t.isLt
  funext y
  obtain ⟨r, j, rfl⟩ : ∃ (r : Fin 5000) (j : Fin 30), y = ix2 r j := ⟨y 0, y 1, eq_ix2 y⟩
  have hr : r.val < 5000 := r.isLt
  have hn : (((cfg1.win 6).blk t).view.emb (ix2 r j)) 0 = (⟨t.val * 5000 + r.val, by omega⟩ : Fin 100000) :=
    Fin.ext (by show win1_6.index t (0 : Fin 2) * 5000 + 1 * r.val = t.val * 5000 + r.val; omega)
  have hj : (((cfg1.win 6).blk t).view.emb (ix2 r j)) 1 = j :=
    Fin.ext (by show win1_6.index t (1 : Fin 2) * 30 + 1 * j.val = j.val; omega)
  show k1_pay1 (F := Ideal) (aBlk V c t) (hBlk V c t) (wiBlk V c t) (whBlk V c t) (biBlk V c t) (bhBlk V c t) (ix2 r j)
    = Gnn.gruAt true (aArr V c) (hArr V c) (wiArr V c) (whArr V c) (biArr V c) (bhArr V c)
        ((((cfg1.win 6).blk t).view.emb (ix2 r j)) 0) ((((cfg1.win 6).blk t).view.emb (ix2 r j)) 1)
  rw [hn, hj]
  exact pay1_gru (aArr V c) (hArr V c) (wiArr V c) (whArr V c) (biArr V c) (bhArr V c)
    (aBlk V c t) (hBlk V c t) (wiBlk V c t) (whBlk V c t) (biBlk V c t) (bhBlk V c t) ⟨t.val * 5000 + r.val, by omega⟩ r j
    (fun d => aBlk_apply V c t r d _ rfl) (fun d => hBlk_apply V c t r d _ rfl)
    (fun d k => wiBlk_apply V c t d k) (fun d k => whBlk_apply V c t d k)
    (fun k => biBlk_apply V c t k) (fun k => bhBlk_apply V c t k)

/-- An index of the output array is in point t's block iff each coordinate is in the block's range on its axis. -/
theorem mem_blk (t : Fin cfg1.N) (i : S100000x30.Idx) :
    i ∈ ((cfg1.win 6).blk t).view.set
      ↔ ∀ a : Fin 2, win1_6.index t a * S5000x30.size a ≤ (i a).val ∧ (i a).val < win1_6.index t a * S5000x30.size a + S5000x30.size a := by
  show i ∈ ((View.whole main_v13).slice (win1_6.rect t)).set ↔ _
  rw [View.set_slice_whole, Rect.mem_set_unit]
  exact Iff.rfl

/-- The twenty blocks of 5000 rows cover the array: row n is in the block of point n / 5000. -/
theorem cover (i : S100000x30.Idx) : ∃ t : Fin cfg1.N, (cfg1.win 6).flush t = true ∧ i ∈ ((cfg1.win 6).blk t).view.set := by
  have hi0 : (i 0).val < 100000 := (i 0).isLt
  have hi1 : (i 1).val < 30 := (i 1).isLt
  have hN : cfg1.N = 20 := N_1
  refine ⟨⟨(i 0).val / 5000, by omega⟩, flush1_6 _, ?_⟩
  obtain ⟨-, -, -, -, -, -, -, -, -, -, e0, e1⟩ := idx_facts ⟨(i 0).val / 5000, by omega⟩
  rw [mem_blk]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 30 ≤ (i 1).val ∧ (i 1).val < win1_6.index _ (1 : Fin 2) * 30 + 30
    rw [e1]; omega

end Gru1

/-- Region 1 leaves in its output array the cell of the entry contents of its six input arrays. -/
theorem gru1_arr (c : Dev nD) :
    (dat1 (F := Ideal) V c).arrAt 6 cfg1.N
      = Gnn.gru true (V c main_v10) (V c main_arg0) (V c main_v11) (V c main_v12) (V c main_arg10) (V c main_arg11) :=
  (dat1 (F := Ideal) V c).arrAt_eq_of_cover 6
    (Gnn.gru true (Gru1.aArr V c) (Gru1.hArr V c) (Gru1.wiArr V c) (Gru1.whArr V c) (Gru1.biArr V c) (Gru1.bhArr V c))
    (fun t _ => Gru1.flushed_eq V c t) Gru1.cover

end Cert.KernelIdeal.GnnK

end
-- ==== Proof.KGru3.lean ====
/-
  The second layer's cell region: the array its write-backs leave is the cell of the entry contents.

  The region runs over 20 points; point t reads rows 5000 t … 5000 t + 4999 of the aggregated messages a and of the
  node features h, and the two gate matrices and the two biases whole, and writes back the same rows of the result.
  Its one stored value, at row p and feature j of the block, is
    (1 - z) * g + z * h[p, j],  z = s(gi[p, 30 + j] + gh[p, 30 + j]),  r = s(gi[p, j] + gh[p, j]),
    g = tanh(gi[p, 60 + j] + r * gh[p, 60 + j]),
  where gi[p, c] = (sum over d < 30 of a[p, d] * wiT[d, c]) + bi[c] and gh likewise from h, whT, bh: each is a matrix
  product into a zero accumulator (its contraction sum re-indexed over d < 30) plus the bias copied down the rows, and
  the three bands are unit-stride cuts of 30 columns at offsets 0, 30, 60.  Narrowing to the short float format is the
  identity on extended reals; the literal one is kept as its binary word.  Row p of the block at point t is row
  5000 t + p of the array, so the block written back at t is the cell of the arrays restricted to those rows; the 20
  blocks cover the 100000 rows (row n lies in the block of point n / 5000), so the array ends holding the cell.
-/
import proofs.«413908_j6485400616961_2_alg».proof.Proof.Gen.KernelIdeal.Frame
import proofs.«413908_j6485400616961_2_alg».proof.Proof.KStages
import proofs.«413908_j6485400616961_2_alg».proof.Proof.LibPlainDot
import Idealize.ShloMosaic.Lib.Pipeline.Value
import Idealize.ShloMosaic.PureOps.Ideal.Laws

set_option maxRecDepth 16384

noncomputable section

namespace Cert.KernelIdeal.GnnK

open Cert.KernelIdeal Cert.KernelIdeal.Facts₀ Cert.KernelIdeal.Facts
open Idealize.ShloMosaic Idealize.ShloMosaic.TcCoe Idealize.SL.Sem
open Cert.KernelIdeal.Gen

variable (V : (c : Dev nD) → (b : Ref sig .tc) → Buf (Elt Ideal) ((c : Thread nD τ).loc b))

namespace Gru3

open Idealize.ShloMosaic.ValueIdx

/-! ## The stored value at an index of the block -/

/-- One of the cell's two linear maps on a block of 5000 rows: row r, column c. -/
def linB (x : Vec Ideal S5000x30 .f32) (w : Vec Ideal S30x90 .f32) (b : Vec Ideal S90 .f32) (r : Fin 5000) (c : Fin 90) : EReal :=
  (∑ d : Fin 30, x (ix2 r d) * w (ix2 d c)) + b (ix1 c)

/-- The product of a block with a gate matrix into a zero accumulator, plus the bias copied down the rows, read at
    row r and column c: the contraction over the 30 features plus the bias entry. -/
theorem lin_apply (x : Vec Ideal S5000x30 .f32) (w : Vec Ideal S30x90 .f32) (b : Vec Ideal S90 .f32)
    (h1 : S5000x30.ShapeCasts S5000x30) (h2 : S30x90.ShapeCasts S30x90) (h3 : FTy.bits .bf16 < FTy.bits .f32)
    (h4 : S90.ShapeCasts S1x90) (h5 : S1x90.Broadcasts S5000x90) (r : Fin 5000) (c : Fin 90) :
    addf (matmul (F := Ideal) dot_S5000x30_S30x90_S5000x90_1_0_0_1_n_n none
        (truncf .bf16 (shapeCast S5000x30 x h1 : FVec Ideal S5000x30 .f32) h3)
        (truncf .bf16 (shapeCast S30x90 w h2 : FVec Ideal S30x90 .f32) h3)
        (constant (F := Ideal) S5000x90 .f32 0x00000000#32))
      (broadcastTo S5000x90 (shapeCast S1x90 b h4 : FVec Ideal S1x90 .f32) h5) (ix2 r c)
      = linB x w b r c := by
  rw [shapeCast_self, shapeCast_self]
  show _ + _ = _
  unfold linB
  congr 1
  · refine (Ideal.matmul_constant_zero_apply dot_S5000x30_S30x90_S5000x90_1_0_0_1_n_n none (truncf .bf16 x h3) (truncf .bf16 w h3) (ix2 r c)).trans ?_
    exact PlainDot.sum_eq dot_S5000x30_S30x90_S5000x90_1_0_0_1_n_n rfl rfl rfl rfl rfl rfl (M := EReal) x w r c
  · refine (broadcastTo_apply _ _ (ix2 r c) (ix2 (0 : Fin 1) c) ?_).trans ?_
    · intro a
      match a with
      | ⟨0, _⟩ => rfl
      | ⟨1, _⟩ => rfl
    · refine shapeCast_apply b h4 (ix2 (0 : Fin 1) c) (ix1 c) ?_
      rw [Shape.rowMajor_val_one, Shape.rowMajor_val_two]
      show c.val = 0 * 90 + c.val
      omega

/-- A band of 30 columns cut out of 90, read at row r and column j of the band. -/
theorem band_apply (g : FVec Ideal S5000x90 .f32) (o : Nat) (hs : S5000x90.Slices ![0, o] S5000x30) (r : Fin 5000) (j : Fin 30)
    (c : Fin 90) (hc : c.val = o + j.val) :
    extractStridedSlice S5000x30 ![0, o] g hs (ix2 r j) = g (ix2 r c) := by
  refine extractStridedSlice_apply _ g hs (ix2 r j) (ix2 r c) fun a => ?_
  match a with
  | ⟨0, _⟩ => show r.val = 0 + r.val; omega
  | ⟨1, _⟩ => exact hc

/-- The gates over the two 90-column arrays and the old features, read at row r and feature j. -/
theorem cell_apply (gi gh : FVec Ideal S5000x90 .f32) (hv : FVec Ideal S5000x30 .f32)
    (s0 : S5000x90.Slices ![0, 0] S5000x30) (s1 : S5000x90.Slices ![0, 30] S5000x30) (s2 : S5000x90.Slices ![0, 60] S5000x30)
    (r : Fin 5000) (j : Fin 30) :
    addf
      (mulf
        (subf (broadcast S5000x30 (Scalar.ofBits (F := Ideal) .f32 0x3F800000#32))
          (logistic (addf (extractStridedSlice S5000x30 ![0, 30] gi s1) (extractStridedSlice S5000x30 ![0, 30] gh s1))))
        (tanh (addf (extractStridedSlice S5000x30 ![0, 60] gi s2)
          (mulf (logistic (addf (extractStridedSlice S5000x30 ![0, 0] gi s0) (extractStridedSlice S5000x30 ![0, 0] gh s0)))
            (extractStridedSlice S5000x30 ![0, 60] gh s2)))))
      (mulf (logistic (addf (extractStridedSlice S5000x30 ![0, 30] gi s1) (extractStridedSlice S5000x30 ![0, 30] gh s1))) hv)
      (ix2 r j)
      = Gnn.gate false (gi (ix2 r (Gnn.band0 j))) (gi (ix2 r (Gnn.band1 j))) (gi (ix2 r (Gnn.band2 j)))
          (gh (ix2 r (Gnn.band0 j))) (gh (ix2 r (Gnn.band1 j))) (gh (ix2 r (Gnn.band2 j))) (hv (ix2 r j)) := by
  have i0 := band_apply gi 0 s0 r j (Gnn.band0 j) (by show j.val = 0 + j.val; omega)
  have i1 := band_apply gi 30 s1 r j (Gnn.band1 j) rfl
  have i2 := band_apply gi 60 s2 r j (Gnn.band2 j) rfl
  have h0 := band_apply gh 0 s0 r j (Gnn.band0 j) (by show j.val = 0 + j.val; omega)
  have h1 := band_apply gh 30 s1 r j (Gnn.band1 j) rfl
  have h2 := band_apply gh 60 s2 r j (Gnn.band2 j) rfl
  show (Gnn.one - Ideal.logistic (extractStridedSlice S5000x30 ![0, 30] gi s1 (ix2 r j) + extractStridedSlice S5000x30 ![0, 30] gh s1 (ix2 r j)))
        * Ideal.tanh (extractStridedSlice S5000x30 ![0, 60] gi s2 (ix2 r j)
            + Ideal.logistic (extractStridedSlice S5000x30 ![0, 0] gi s0 (ix2 r j) + extractStridedSlice S5000x30 ![0, 0] gh s0 (ix2 r j))
              * extractStridedSlice S5000x30 ![0, 60] gh s2 (ix2 r j))
      + Ideal.logistic (extractStridedSlice S5000x30 ![0, 30] gi s1 (ix2 r j) + extractStridedSlice S5000x30 ![0, 30] gh s1 (ix2 r j)) * hv (ix2 r j) = _
  rw [i0, i1, i2, h0, h1, h2]
  rfl

/-- The body's one stored value at row r and feature j of the block: the gates of the two linear maps. -/
theorem pay_apply (a h : Vec Ideal S5000x30 .f32) (wi wh : Vec Ideal S30x90 .f32) (bi bh : Vec Ideal S90 .f32) (r : Fin 5000) (j : Fin 30) :
    k3_pay1 (F := Ideal) a h wi wh bi bh (ix2 r j)
      = Gnn.gate false (linB a wi bi r (Gnn.band0 j)) (linB a wi bi r (Gnn.band1 j)) (linB a wi bi r (Gnn.band2 j))
          (linB h wh bh r (Gnn.band0 j)) (linB h wh bh r (Gnn.band1 j)) (linB h wh bh r (Gnn.band2 j)) (h (ix2 r j)) := by
  unfold k3_pay1
  refine (cell_apply _ _ _ _ _ _ r j).trans ?_
  rw [lin_apply, lin_apply, lin_apply, lin_apply, lin_apply, lin_apply, shapeCast_self]

/-! ## The blocks as rows of the arrays -/

/-- The six input blocks at a grid point and the six arrays, at their literal types. -/
abbrev aBlk (c : Dev nD) (t : Fin cfg3.N) : Vec Ideal S5000x30 .f32 := iblk3 V c 0 t
abbrev hBlk (c : Dev nD) (t : Fin cfg3.N) : Vec Ideal S5000x30 .f32 := iblk3 V c 1 t
abbrev wiBlk (c : Dev nD) (t : Fin cfg3.N) : Vec Ideal S30x90 .f32 := iblk3 V c 2 t
abbrev whBlk (c : Dev nD) (t : Fin cfg3.N) : Vec Ideal S30x90 .f32 := iblk3 V c 3 t
abbrev biBlk (c : Dev nD) (t : Fin cfg3.N) : Vec Ideal S90 .f32 := iblk3 V c 4 t
abbrev bhBlk (c : Dev nD) (t : Fin cfg3.N) : Vec Ideal S90 .f32 := iblk3 V c 5 t
abbrev aArr (c : Dev nD) : Vec Ideal S100000x30 .f32 := V c main_v24
abbrev hArr (c : Dev nD) : Vec Ideal S100000x30 .f32 := V c main_v13
abbrev wiArr (c : Dev nD) : Vec Ideal S30x90 .f32 := V c main_v25
abbrev whArr (c : Dev nD) : Vec Ideal S30x90 .f32 := V c main_v26
abbrev biArr (c : Dev nD) : Vec Ideal S90 .f32 := V c main_arg16
abbrev bhArr (c : Dev nD) : Vec Ideal S90 .f32 := V c main_arg17

/-- The block index maps over the grid: the two row-blocked inputs and the output sit at row block t, the four
    whole inputs at block zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 1) = 0
    ∧ win3_6.index t (0 : Fin 2) = t.val ∧ win3_6.index t (1 : Fin 2) = 0 :=
  (by decide +kernel : ∀ t : Fin grid3.N, _)

/-- Row p of the message block at point t is row 5000 t + p of the message array. -/
theorem aBlk_apply (c : Dev nD) (t : Fin cfg3.N) (p : Fin 5000) (d : Fin 30) (n : Fin 100000) (hn : n.val = t.val * 5000 + p.val) :
    aBlk V c t (ix2 p d) = aArr V c (ix2 n d) := by
  obtain ⟨e0, e1, -⟩ := idx_facts t
  show ((cfg3.win 0).blk t).view.read (Elt Ideal) (V c (Pipeline.arrRef spec3 0)) (ix2 p d) = _
  rw [View.read_apply]
  show V c main_v24 _ = V c main_v24 _
  congr 1
  funext a
  apply Fin.ext
  match a with
  | ⟨0, _⟩ => show win3_0.index t (0 : Fin 2) * 5000 + 1 * p.val = n.val; omega
  | ⟨1, _⟩ => show win3_0.index t (1 : Fin 2) * 30 + 1 * d.val = d.val; omega

/-- Row p of the feature block at point t is row 5000 t + p of the feature array. -/
theorem hBlk_apply (c : Dev nD) (t : Fin cfg3.N) (p : Fin 5000) (d : Fin 30) (n : Fin 100000) (hn : n.val = t.val * 5000 + p.val) :
    hBlk V c t (ix2 p d) = hArr V c (ix2 n d) := by
  obtain ⟨-, -, e0, e1, -⟩ := idx_facts t
  show ((cfg3.win 1).blk t).view.read (Elt Ideal) (V c (Pipeline.arrRef spec3 1)) (ix2 p d) = _
  rw [View.read_apply]
  show V c main_v13 _ = V c main_v13 _
  congr 1
  funext a
  apply Fin.ext
  match a with
  | ⟨0, _⟩ => show win3_1.index t (0 : Fin 2) * 5000 + 1 * p.val = n.val; omega
  | ⟨1, _⟩ => show win3_1.index t (1 : Fin 2) * 30 + 1 * d.val = d.val; omega

/-- The input-side gate matrix is read whole at every point. -/
theorem wiBlk_apply (c : Dev nD) (t : Fin cfg3.N) (d : Fin 30) (col : Fin 90) :
    wiBlk V c t (ix2 d col) = wiArr V c (ix2 d col) := by
  obtain ⟨-, -, -, -, e0, e1, -⟩ := idx_facts t
  show ((cfg3.win 2).blk t).view.read (Elt Ideal) (V c (Pipeline.arrRef spec3 2)) (ix2 d col) = _
  rw [View.read_apply]
  show V c main_v25 _ = V c main_v25 _
  congr 1
  funext a
  apply Fin.ext
  match a with
  | ⟨0, _⟩ => show win3_2.index t (0 : Fin 2) * 30 + 1 * d.val = d.val; omega
  | ⟨1, _⟩ => show win3_2.index t (1 : Fin 2) * 90 + 1 * col.val = col.val; omega

/-- The hidden-side gate matrix is read whole at every point. -/
theorem whBlk_apply (c : Dev nD) (t : Fin cfg3.N) (d : Fin 30) (col : Fin 90) :
    whBlk V c t (ix2 d col) = whArr V c (ix2 d col) := by
  obtain ⟨-, -, -, -, -, -, e0, e1, -⟩ := idx_facts t
  show ((cfg3.win 3).blk t).view.read (Elt Ideal) (V c (Pipeline.arrRef spec3 3)) (ix2 d col) = _
  rw [View.read_apply]
  show V c main_v26 _ = V c main_v26 _
  congr 1
  funext a
  apply Fin.ext
  match a with
  | ⟨0, _⟩ => show win3_3.index t (0 : Fin 2) * 30 + 1 * d.val = d.val; omega
  | ⟨1, _⟩ => show win3_3.index t (1 : Fin 2) * 90 + 1 * col.val = col.val; omega

/-- The input-side bias is read whole at every point. -/
theorem biBlk_apply (c : Dev nD) (t : Fin cfg3.N) (col : Fin 90) :
    biBlk V c t (ix1 col) = biArr V c (ix1 col) := by
  obtain ⟨-, -, -, -, -, -, -, -, e0, -⟩ := idx_facts t
  show ((cfg3.win 4).blk t).view.read (Elt Ideal) (V c (Pipeline.arrRef spec3 4)) (ix1 col) = _
  rw [View.read_apply]
  show V c main_arg16 _ = V c main_arg16 _
  congr 1
  funext a
  apply Fin.ext
  match a with
  | ⟨0, _⟩ => show win3_4.index t (0 : Fin 1) * 90 + 1 * col.val = col.val; omega

/-- The hidden-side bias is read whole at every point. -/
theorem bhBlk_apply (c : Dev nD) (t : Fin cfg3.N) (col : Fin 90) :
    bhBlk V c t (ix1 col) = bhArr V c (ix1 col) := by
  obtain ⟨-, -, -, -, -, -, -, -, -, e0, -⟩ := idx_facts t
  show ((cfg3.win 5).blk t).view.read (Elt Ideal) (V c (Pipeline.arrRef spec3 5)) (ix1 col) = _
  rw [View.read_apply]
  show V c main_arg17 _ = V c main_arg17 _
  congr 1
  funext a
  apply Fin.ext
  match a with
  | ⟨0, _⟩ => show win3_5.index t (0 : Fin 1) * 90 + 1 * col.val = col.val; omega

/-- The input-side linear map of the block at point t, row p, is the array's at row 5000 t + p. -/
theorem linA_blk (c : Dev nD) (t : Fin cfg3.N) (p : Fin 5000) (n : Fin 100000) (hn : n.val = t.val * 5000 + p.val) (col : Fin 90) :
    linB (aBlk V c t) (wiBlk V c t) (biBlk V c t) p col = Gnn.lin (aArr V c) (wiArr V c) (biArr V c) n col := by
  unfold linB Gnn.lin
  rw [biBlk_apply]
  congr 1
  refine Finset.sum_congr rfl fun d _ => ?_
  rw [aBlk_apply V c t p d n hn, wiBlk_apply]

/-- The same for the hidden-side linear map. -/
theorem linH_blk (c : Dev nD) (t : Fin cfg3.N) (p : Fin 5000) (n : Fin 100000) (hn : n.val = t.val * 5000 + p.val) (col : Fin 90) :
    linB (hBlk V c t) (whBlk V c t) (bhBlk V c t) p col = Gnn.lin (hArr V c) (whArr V c) (bhArr V c) n col := by
  unfold linB Gnn.lin
  rw [bhBlk_apply]
  congr 1
  refine Finset.sum_congr rfl fun d _ => ?_
  rw [hBlk_apply V c t p d n hn, whBlk_apply]

/-! ## What a point writes back, and the cover -/

/-- The zero offsets of a rank-2 and of a rank-1 block, as constant functions. -/
theorem hz2 : (![0, 0] : Fin 2 → Nat) = fun _ => 0 := funext fun a => by fin_cases a <;> rfl
theorem hz1 : (![0] : Fin 1 → Nat) = fun _ => 0 := funext fun a => by fin_cases a; rfl

/-- The cell of the six arrays as the region finds them. -/
abbrev cellArr (c : Dev nD) : Vec Ideal S100000x30 .f32 :=
  Gnn.gru false (aArr V c) (hArr V c) (wiArr V c) (whArr V c) (biArr V c) (bhArr V c)

/-- What point t writes back is rows 5000 t … 5000 t + 4999 of the cell of the six arrays. -/
theorem flushed_eq (c : Dev nD) (t : Fin cfg3.N) :
    (dat3 (F := Ideal) V c).flushed 6 t = ((cfg3.win 6).blk t).view.read (Elt Ideal) (cellArr V c) := by
  show (cfg3.win 6).cut (grid3.coords t) ((dat3 V c).after 6 t) = _
  rw [after3_6]
  unfold out3_6
  rw [View.canon_unit_zero hz2]
  simp only [View.ld_unit_zero (S := S5000x30) hz2, View.ld_unit_zero (S := S30x90) hz2, View.ld_unit_zero (S := S90) hz1]
  funext y
  obtain ⟨p, q, rfl⟩ : ∃ (p : Fin 5000) (q : Fin 30), y = ix2 p q := ⟨y 0, y 1, eq_ix2 y⟩
  obtain ⟨-, -, -, -, -, -, -, -, -, -, e0, e1⟩ := idx_facts t
  have hN : cfg3.N = 20 := N_3
  have hn : t.val * 5000 + p.val < 100000 := by have := t.isLt; omega
  refine (pay_apply (aBlk V c t) (hBlk V c t) (wiBlk V c t) (whBlk V c t) (biBlk V c t) (bhBlk V c t) p q).trans ?_
  rw [linA_blk V c t p ⟨_, hn⟩ rfl, linA_blk V c t p ⟨_, hn⟩ rfl, linA_blk V c t p ⟨_, hn⟩ rfl,
    linH_blk V c t p ⟨_, hn⟩ rfl, linH_blk V c t p ⟨_, hn⟩ rfl, linH_blk V c t p ⟨_, hn⟩ rfl,
    hBlk_apply V c t p q ⟨_, hn⟩ rfl, View.read_apply]
  have hemb : ((cfg3.win 6).blk t).view.emb (ix2 p q) = ix2 (⟨t.val * 5000 + p.val, hn⟩ : Fin 100000) q := by
    funext a
    apply Fin.ext
    match a with
    | ⟨0, _⟩ => show win3_6.index t (0 : Fin 2) * 5000 + 1 * p.val = t.val * 5000 + p.val; omega
    | ⟨1, _⟩ => show win3_6.index t (1 : Fin 2) * 30 + 1 * q.val = q.val; omega
  rw [hemb]
  rfl

/-- An index of the array is in point t's block iff each coordinate is in the block's range on its axis. -/
theorem mem_blk (t : Fin cfg3.N) (i : S100000x30.Idx) :
    i ∈ ((cfg3.win 6).blk t).view.set ↔ ∀ a : Fin 2, win3_6.index t a * S5000x30.size a ≤ (i a).val ∧ (i a).val < win3_6.index t a * S5000x30.size a + S5000x30.size a := by
  show i ∈ ((View.whole main_v27).slice (win3_6.rect t)).set ↔ _
  rw [View.set_slice_whole, Rect.mem_set_unit]
  exact Iff.rfl

/-- Every row n is written back by the point n / 5000. -/
theorem cover (i : S100000x30.Idx) :
    ∃ t : Fin cfg3.N, (cfg3.win 6).flush t = true ∧ i ∈ ((cfg3.win 6).blk t).view.set := by
  have hi0 : (i 0).val < 100000 := (i 0).isLt
  have hi1 : (i 1).val < 30 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 30 ≤ (i 1).val ∧ (i 1).val < win3_6.index t (1 : Fin 2) * 30 + 30; omega

end Gru3

/-- Region 3 leaves in its output array the cell of the entry contents of its six input arrays. -/
theorem gru3_arr (c : Dev nD) :
    (dat3 (F := Ideal) V c).arrAt 6 cfg3.N
      = Gnn.gru false (V c main_v24) (V c main_v13) (V c main_v25) (V c main_v26) (V c main_arg16) (V c main_arg17) :=
  (dat3 (F := Ideal) V c).arrAt_eq_of_cover 6 (Gru3.cellArr V c) (fun t _ => Gru3.flushed_eq V c t) Gru3.cover

end Cert.KernelIdeal.GnnK

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.KMsg.lean ====
/-
  The kernel program's message gather: for indices in range, row etype * 100000 + src of the tables laid out as 300000 rows is row src of table etype.
-/
import proofs.«413908_j6485400616961_2_alg».proof.Proof.KStages
import proofs.«413908_j6485400616961_2_alg».proof.Proof.LibRowIndex
import Idealize.ShloMosaic.Lib.Pipeline.Value

set_option maxRecDepth 16384

noncomputable section

namespace Cert.KernelIdeal.GnnK

open Cert.KernelIdeal Cert.KernelIdeal.Facts₀ Cert.KernelIdeal.Facts
open Idealize.ShloMosaic Idealize.ShloMosaic.TcCoe Idealize.SL.Sem
open Idealize.ShloMosaic.ValueIdx Idealize.ShloMosaic.StableHlo.Predicate

/-- The two ways of writing the index (row p, column q) of a rectangle name the same index. -/
private theorem ij_eq_ix2 {n m : Nat} (p : Fin n) (q : Fin m) : ij p q = ix2 p q := by
  funext a
  match a with
  | ⟨0, _⟩ => rfl
  | ⟨1, _⟩ => rfl

/-- A word whose signed reading is non-negative reads the same signed and unsigned. -/
private theorem toNat_of_toInt_nonneg (a : BitVec 32) (h0 : 0 ≤ a.toInt) : a.toInt = (a.toNat : Int) := by
  have hlt := a.isLt
  rw [BitVec.toInt_eq_toNat_cond] at h0 ⊢
  by_cases h : 2 * a.toNat < 2 ^ 32
  · rw [if_pos h]
  · rw [if_neg h] at h0
    omega

/-- The flat row number: for a in [0, 3) and b in [0, 100000) the 32-bit word a * 100000 + b does not wrap
    (it is at most 299999), so its signed reading is a * 100000 + b. -/
private theorem flat_row (a b : BitVec 32) (ha0 : 0 ≤ a.toInt) (ha : a.toInt < 3) (hb0 : 0 ≤ b.toInt) (hb : b.toInt < 100000) :
    (IntOp.addi (IntOp.muli a 100000#32) b).toInt.toNat = a.toInt.toNat * 100000 + b.toInt.toNat := by
  have ea := toNat_of_toInt_nonneg a ha0
  have eb := toNat_of_toInt_nonneg b hb0
  have hna : a.toNat < 3 := by omega
  have hnb : b.toNat < 100000 := by omega
  have hs : (IntOp.addi (IntOp.muli a 100000#32) b).toNat = a.toNat * 100000 + b.toNat := by
    show (a * 100000#32 + b).toNat = _
    rw [BitVec.toNat_add, BitVec.toNat_mul]
    show (a.toNat * 100000 % 2 ^ 32 + b.toNat) % 2 ^ 32 = _
    omega
  have es := toInt_eq_toNat_of_lt (a := IntOp.addi (IntOp.muli a 100000#32) b) (by omega)
  rw [es, ea, eb, hs]
  simp only [Int.toNat_natCast]

/-- The tables laid out as 300000 rows: row k * 100000 + n, column f, is entry (k, n, f). -/
private theorem flat_read {α : Type} (t : (⟨3, ![3, 100000, 30]⟩ : Shape).Idx → α)
    (h : (⟨3, ![3, 100000, 30]⟩ : Shape).ShapeCasts ⟨2, ![300000, 30]⟩)
    (k : Fin 3) (n : Fin 100000) (f : Fin 30) (r : Fin 300000) (hr : r.val = k.val * 100000 + n.val) :
    shapeCast ⟨2, ![300000, 30]⟩ t h (ij r f) = t (ix3 k n f) := by
  refine shapeCast_apply t h (ij r f) (ix3 k n f) ?_
  rw [Shape.rowMajor_val_three, Shape.rowMajor_val_two]
  show (k.val * 100000 + n.val) * 30 + f.val = r.val * 30 + f.val
  rw [hr]

variable [Cert.KernelIdeal.Facts]

/-- For edge types in [0, 3) and sources in [0, 100000) the flat gather reads the messages. -/
theorem msgK_eq (t : Vec Ideal S3x100000x30 .bf16) (et src : Vec Ideal S3200000 .i32)
    (het : Gnn.InRange 3 et) (hsrc : Gnn.InRange 100000 src) :
    msgK t et src = Gnn.msg t et src := by
  funext i
  obtain ⟨e, j, rfl⟩ : ∃ e j, i = ix2 e j := ⟨i 0, i 1, eq_ix2 i⟩
  obtain ⟨ha0, ha⟩ := het e
  obtain ⟨hb0, hb⟩ := hsrc e
  have ea := toNat_of_toInt_nonneg _ ha0
  have eb := toNat_of_toInt_nonneg _ hb0
  -- the conversion to the wider format is the identity over the extended reals
  show Host.gather gather_S300000x30_S3200000x1_S3200000x30_1_0_n_n_0_1_130
      (shapeCast S300000x30 t shapeCasts_S3x100000x30_S300000x30)
      (broadcastInDim S3200000x1 ![0] bcast_S3200000_S3200000x1_0
        (addi (muli et (broadcastInDim S3200000 ![] bcast_S_S3200000 (constantI S_ 32 100000#32))) src))
      (ix2 e j) = Gnn.msgAt t et src e j
  rw [← ij_eq_ix2]
  -- the gather reads the row its start index names, read signed and clamped to [0, 299999]
  refine (RowIndex.gather_rows gather_S300000x30_S3200000x1_S3200000x30_1_0_n_n_0_1_130 rfl rfl rfl rfl rfl _ _ e j (by decide)).trans ?_
  -- the start index of edge e is the word etype[e] * 100000 + src[e]
  have hidx : broadcastInDim S3200000x1 ![0] bcast_S3200000_S3200000x1_0
        (addi (muli et (broadcastInDim S3200000 ![] bcast_S_S3200000 (constantI S_ 32 100000#32))) src) (ixP e)
      = IntOp.addi (IntOp.muli (et (ix1 e)) 100000#32) (src (ix1 e)) := by
    refine (broadcastInDim_apply _ _ _ (ixP e) (ix1 e) ?_).trans rfl
    intro a
    match a with
    | ⟨0, _⟩ => rfl
  have hrow := flat_row (et (ix1 e)) (src (ix1 e)) ha0 ha hb0 hb
  unfold Gnn.msgAt
  refine (flat_read t shapeCasts_S3x100000x30_S300000x30
    ⟨min (et (ix1 e)).toInt.toNat 2, by omega⟩ ⟨min (src (ix1 e)).toInt.toNat 99999, by omega⟩ j _ ?_)
  show min _ (300000 - 1) = min _ 2 * 100000 + min _ 99999
  rw [hidx, hrow]
  omega

end Cert.KernelIdeal.GnnK

end
-- ==== Proof.KFold.lean ====
/-
  The kernel program's two results, read back through its segments to the argument arrays.
-/
import proofs.«413908_j6485400616961_2_alg».proof.Proof.Gen.KernelIdeal.Frame
import proofs.«413908_j6485400616961_2_alg».proof.Proof.KStages
import proofs.«413908_j6485400616961_2_alg».proof.Proof.KDense
import proofs.«413908_j6485400616961_2_alg».proof.Proof.KGru1
import proofs.«413908_j6485400616961_2_alg».proof.Proof.KGru3
import proofs.«413908_j6485400616961_2_alg».proof.Proof.KMsg

set_option maxRecDepth 16384

noncomputable section

namespace Cert.KernelIdeal.GnnK

open Cert.KernelIdeal Cert.KernelIdeal.Facts₀ Cert.KernelIdeal.Facts
open Idealize.ShloMosaic Idealize.ShloMosaic.TcCoe Idealize.SL.Sem
open Cert.KernelIdeal.Gen

variable (m : Mem) (ρ : Dev nD → PrngReg)

/-- A stretch of host operations leaves a buffer that none of them writes as it was. -/
macro "host_keep" : tactic => `(tactic|
  refine (StableHlo.after_of_forall_not_mem _ _ (List.forall_iff_forall_mem.mp (by
    simp only [hostOps0, hostOps1, hostOps1_1, hostOps1_2, hostOps2, hostOps3, hostOps3_1, hostOps3_2, hostOps4, hostOps4_1,
      hostOps4_2, hostOps4_3, hostOps4_4, hostOps4_5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

/-! ## The first layer's tables: region 0 on the launch contents -/

theorem W1_arg0 (c : Dev nD) :
    W1 (F := Ideal) m ρ c (Proc.devRef .tc main_arg0) = (m ((c.tc : Thread nD τ).loc main_arg0)) := by
  host_keep
  rfl
theorem W1_arg7 (c : Dev nD) :
    W1 (F := Ideal) m ρ c (Proc.devRef .tc main_arg7) = (m ((c.tc : Thread nD τ).loc main_arg7)) := by
  host_keep
  rfl

/-- The first stretch exchanges the last two axes of the first layer's weights. -/
theorem W1_v0 (c : Dev nD) :
    W1 (F := Ideal) m ρ c (Proc.devRef .tc main_v0) = wT (m ((c.tc : Thread nD τ).loc main_arg6)) := by
  show StableHlo.after hostOps0 _ (Proc.devRef .tc main_v0) = _
  after_results; rfl

/-- Region 0 leaves the first layer's tables over the weights as given. -/
theorem W2_v1 (c : Dev nD) :
    W2 (F := Ideal) m ρ c (Proc.devRef .tc main_v1) = Gnn.dense (m ((c.tc : Thread nD τ).loc main_arg0)) (m ((c.tc : Thread nD τ).loc main_arg6)) (m ((c.tc : Thread nD τ).loc main_arg7)) := by
  refine (W2_arr m ρ c 3).trans ?_
  refine (dense0_arr (V1 m ρ) c).trans ?_
  have e0 : V1 (F := Ideal) m ρ c main_arg0 = (m ((c.tc : Thread nD τ).loc main_arg0)) := W1_arg0 m ρ c
  have e1 : V1 (F := Ideal) m ρ c main_v0 = wT (m ((c.tc : Thread nD τ).loc main_arg6)) := W1_v0 m ρ c
  have e2 : V1 (F := Ideal) m ρ c main_arg7 = (m ((c.tc : Thread nD τ).loc main_arg7)) := W1_arg7 m ρ c
  rw [e0, e1, e2]
  exact denseT_wT _ _ _

/-! ## The first layer's messages, aggregation and gate weights: three stretches on region 0's exit -/

theorem W2_arg1 (c : Dev nD) :
    W2 (F := Ideal) m ρ c (Proc.devRef .tc main_arg1) = (m ((c.tc : Thread nD τ).loc main_arg1)) := by
  refine (W2_of_ne m ρ c _ (by decide)).trans ?_
  host_keep
  rfl
theorem W2_arg2 (c : Dev nD) :
    W2 (F := Ideal) m ρ c (Proc.devRef .tc main_arg2) = (m ((c.tc : Thread nD τ).loc main_arg2)) := by
  refine (W2_of_ne m ρ c _ (by decide)).trans ?_
  host_keep
  rfl
theorem W2_arg3 (c : Dev nD) :
    W2 (F := Ideal) m ρ c (Proc.devRef .tc main_arg3) = (m ((c.tc : Thread nD τ).loc main_arg3)) := by
  refine (W2_of_ne m ρ c _ (by decide)).trans ?_
  host_keep
  rfl
theorem W2_arg8 (c : Dev nD) :
    W2 (F := Ideal) m ρ c (Proc.devRef .tc main_arg8) = (m ((c.tc : Thread nD τ).loc main_arg8)) := by
  refine (W2_of_ne m ρ c _ (by decide)).trans ?_
  host_keep
  rfl
theorem W2_arg9 (c : Dev nD) :
    W2 (F := Ideal) m ρ c (Proc.devRef .tc main_arg9) = (m ((c.tc : Thread nD τ).loc main_arg9)) := by
  refine (W2_of_ne m ρ c _ (by decide)).trans ?_
  host_keep
  rfl

/-- The three stretches gather the flat tables' rows and scatter-add them over the destination nodes. -/
theorem W5_v10_raw (c : Dev nD) :
    W5 (F := Ideal) m ρ c (Proc.devRef .tc main_v10)
      = agg (W2 (F := Ideal) m ρ c (Proc.devRef .tc main_arg2)) (msgK (W2 (F := Ideal) m ρ c (Proc.devRef .tc main_v1)) (W2 (F := Ideal) m ρ c (Proc.devRef .tc main_arg3)) (W2 (F := Ideal) m ρ c (Proc.devRef .tc main_arg1))) := by
  show StableHlo.after hostOps1_2 (StableHlo.after hostOps1_1 (StableHlo.after hostOps1 _)) (Proc.devRef .tc main_v10) = _
  after_results
  rfl

/-- For indices in range these are the aggregated messages of the first layer's tables. -/
theorem W5_v10 (c : Dev nD)
    (het : Gnn.InRange 3 (m ((c.tc : Thread nD τ).loc main_arg3)))
    (hsrc : Gnn.InRange 100000 (m ((c.tc : Thread nD τ).loc main_arg1))) :
    W5 (F := Ideal) m ρ c (Proc.devRef .tc main_v10)
      = agg (m ((c.tc : Thread nD τ).loc main_arg2)) (Gnn.msg (Gnn.dense (m ((c.tc : Thread nD τ).loc main_arg0)) (m ((c.tc : Thread nD τ).loc main_arg6)) (m ((c.tc : Thread nD τ).loc main_arg7))) (m ((c.tc : Thread nD τ).loc main_arg3)) (m ((c.tc : Thread nD τ).loc main_arg1))) := by
  refine (W5_v10_raw m ρ c).trans ?_
  rw [W2_arg2 m ρ c, W2_v1 m ρ c, W2_arg3 m ρ c, W2_arg1 m ρ c]
  exact congrArg (agg _) (msgK_eq _ _ _ het hsrc)

/-- The input gate weights with rows and columns exchanged. -/
theorem W5_v11 (c : Dev nD) :
    W5 (F := Ideal) m ρ c (Proc.devRef .tc main_v11) = gT (m ((c.tc : Thread nD τ).loc main_arg8)) := by
  show StableHlo.after hostOps1_2 (StableHlo.after hostOps1_1 (StableHlo.after hostOps1 _)) (Proc.devRef .tc main_v11) = _
  after_results
  exact congrArg gT (W2_arg8 m ρ c)

/-- The hidden gate weights with rows and columns exchanged. -/
theorem W5_v12 (c : Dev nD) :
    W5 (F := Ideal) m ρ c (Proc.devRef .tc main_v12) = gT (m ((c.tc : Thread nD τ).loc main_arg9)) := by
  show StableHlo.after hostOps1_2 (StableHlo.after hostOps1_1 (StableHlo.after hostOps1 _)) (Proc.devRef .tc main_v12) = _
  after_results
  exact congrArg gT (W2_arg9 m ρ c)

theorem W5_arg0 (c : Dev nD) :
    W5 (F := Ideal) m ρ c (Proc.devRef .tc main_arg0) = (m ((c.tc : Thread nD τ).loc main_arg0)) := by
  host_keep
  host_keep
  host_keep
  refine ((W2_arr m ρ c 0).trans (((dat0 (V1 m ρ) c).arrAt_in 0 rfl _).trans (A_eq0 (V1 m ρ) c 0))).trans ?_
  host_keep
  rfl
theorem W5_arg10 (c : Dev nD) :
    W5 (F := Ideal) m ρ c (Proc.devRef .tc main_arg10) = (m ((c.tc : Thread nD τ).loc main_arg10)) := by
  host_keep
  host_keep
  host_keep
  refine (W2_of_ne m ρ c _ (by decide)).trans ?_
  host_keep
  rfl
theorem W5_arg11 (c : Dev nD) :
    W5 (F := Ideal) m ρ c (Proc.devRef .tc main_arg11) = (m ((c.tc : Thread nD τ).loc main_arg11)) := by
  host_keep
  host_keep
  host_keep
  refine (W2_of_ne m ρ c _ (by decide)).trans ?_
  host_keep
  rfl

/-! ## The first layer's cell: region 1 -/

/-- Region 1 leaves the node features after the first layer. -/
theorem W6_v13 (c : Dev nD)
    (het : Gnn.InRange 3 (m ((c.tc : Thread nD τ).loc main_arg3)))
    (hsrc : Gnn.InRange 100000 (m ((c.tc : Thread nD τ).loc main_arg1))) :
    W6 (F := Ideal) m ρ c (Proc.devRef .tc main_v13) = h1 m c := by
  refine (W6_arr m ρ c 6).trans ?_
  refine (gru1_arr (V5 m ρ) c).trans ?_
  have e0 : V5 (F := Ideal) m ρ c main_v10
      = agg (m ((c.tc : Thread nD τ).loc main_arg2)) (Gnn.msg (Gnn.dense (m ((c.tc : Thread nD τ).loc main_arg0)) (m ((c.tc : Thread nD τ).loc main_arg6)) (m ((c.tc : Thread nD τ).loc main_arg7))) (m ((c.tc : Thread nD τ).loc main_arg3)) (m ((c.tc : Thread nD τ).loc main_arg1))) := W5_v10 m ρ c het hsrc
  have e1 : V5 (F := Ideal) m ρ c main_arg0 = (m ((c.tc : Thread nD τ).loc main_arg0)) := W5_arg0 m ρ c
  have e2 : V5 (F := Ideal) m ρ c main_v11 = gT (m ((c.tc : Thread nD τ).loc main_arg8)) := W5_v11 m ρ c
  have e3 : V5 (F := Ideal) m ρ c main_v12 = gT (m ((c.tc : Thread nD τ).loc main_arg9)) := W5_v12 m ρ c
  have e4 : V5 (F := Ideal) m ρ c main_arg10 = (m ((c.tc : Thread nD τ).loc main_arg10)) := W5_arg10 m ρ c
  have e5 : V5 (F := Ideal) m ρ c main_arg11 = (m ((c.tc : Thread nD τ).loc main_arg11)) := W5_arg11 m ρ c
  rw [e0, e1, e2, e3, e4, e5]
  rfl

/-! ## The second layer's tables: one stretch and region 2 -/

theorem W6_arg12 (c : Dev nD) :
    W6 (F := Ideal) m ρ c (Proc.devRef .tc main_arg12) = (m ((c.tc : Thread nD τ).loc main_arg12)) := by
  refine (W6_of_ne m ρ c _ (by decide)).trans ?_
  host_keep
  host_keep
  host_keep
  refine (W2_of_ne m ρ c _ (by decide)).trans ?_
  host_keep
  rfl
theorem W7_arg13 (c : Dev nD) :
    W7 (F := Ideal) m ρ c (Proc.devRef .tc main_arg13) = (m ((c.tc : Thread nD τ).loc main_arg13)) := by
  host_keep
  refine (W6_of_ne m ρ c _ (by decide)).trans ?_
  host_keep
  host_keep
  host_keep
  refine (W2_of_ne m ρ c _ (by decide)).trans ?_
  host_keep
  rfl
theorem W7_v13 (c : Dev nD)
    (het : Gnn.InRange 3 (m ((c.tc : Thread nD τ).loc main_arg3)))
    (hsrc : Gnn.InRange 100000 (m ((c.tc : Thread nD τ).loc main_arg1))) :
    W7 (F := Ideal) m ρ c (Proc.devRef .tc main_v13) = h1 m c := by
  host_keep
  exact W6_v13 m ρ c het hsrc

/-- The stretch exchanges the last two axes of the second layer's weights. -/
theorem W7_v14 (c : Dev nD) :
    W7 (F := Ideal) m ρ c (Proc.devRef .tc main_v14) = wT (m ((c.tc : Thread nD τ).loc main_arg12)) := by
  show StableHlo.after hostOps2 _ (Proc.devRef .tc main_v14) = _
  after_results
  exact congrArg wT (W6_arg12 m ρ c)

/-- Region 2 leaves the second layer's tables over the weights as given. -/
theorem W8_v15 (c : Dev nD)
    (het : Gnn.InRange 3 (m ((c.tc : Thread nD τ).loc main_arg3)))
    (hsrc : Gnn.InRange 100000 (m ((c.tc : Thread nD τ).loc main_arg1))) :
    W8 (F := Ideal) m ρ c (Proc.devRef .tc main_v15) = Gnn.dense (h1 m c) (m ((c.tc : Thread nD τ).loc main_arg12)) (m ((c.tc : Thread nD τ).loc main_arg13)) := by
  refine (W8_arr m ρ c 3).trans ?_
  refine (dense2_arr (V7 m ρ) c).trans ?_
  have e0 : V7 (F := Ideal) m ρ c main_v13 = h1 m c := W7_v13 m ρ c het hsrc
  have e1 : V7 (F := Ideal) m ρ c main_v14 = wT (m ((c.tc : Thread nD τ).loc main_arg12)) := W7_v14 m ρ c
  have e2 : V7 (F := Ideal) m ρ c main_arg13 = (m ((c.tc : Thread nD τ).loc main_arg13)) := W7_arg13 m ρ c
  rw [e0, e1, e2]
  exact denseT_wT _ _ _

/-! ## The second layer's messages, aggregation and gate weights: three stretches on region 2's exit -/

theorem W8_arg1 (c : Dev nD) :
    W8 (F := Ideal) m ρ c (Proc.devRef .tc main_arg1) = (m ((c.tc : Thread nD τ).loc main_arg1)) := by
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W8_arg2 (c : Dev nD) :
    W8 (F := Ideal) m ρ c (Proc.devRef .tc main_arg2) = (m ((c.tc : Thread nD τ).loc main_arg2)) := by
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W8_arg3 (c : Dev nD) :
    W8 (F := Ideal) m ρ c (Proc.devRef .tc main_arg3) = (m ((c.tc : Thread nD τ).loc main_arg3)) := by
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W8_arg14 (c : Dev nD) :
    W8 (F := Ideal) m ρ c (Proc.devRef .tc main_arg14) = (m ((c.tc : Thread nD τ).loc main_arg14)) := by
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W8_arg15 (c : Dev nD) :
    W8 (F := Ideal) m ρ c (Proc.devRef .tc main_arg15) = (m ((c.tc : Thread nD τ).loc main_arg15)) := by
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W8_v13 (c : Dev nD)
    (het : Gnn.InRange 3 (m ((c.tc : Thread nD τ).loc main_arg3)))
    (hsrc : Gnn.InRange 100000 (m ((c.tc : Thread nD τ).loc main_arg1))) :
    W8 (F := Ideal) m ρ c (Proc.devRef .tc main_v13) = h1 m c := by
  refine ((W8_arr m ρ c 0).trans (((dat2 (V7 m ρ) c).arrAt_in 0 rfl _).trans (A_eq2 (V7 m ρ) c 0))).trans ?_
  host_keep
  exact W6_v13 m ρ c het hsrc

theorem W11_v24_raw (c : Dev nD) :
    W11 (F := Ideal) m ρ c (Proc.devRef .tc main_v24)
      = agg (W8 (F := Ideal) m ρ c (Proc.devRef .tc main_arg2)) (msgK (W8 (F := Ideal) m ρ c (Proc.devRef .tc main_v15)) (W8 (F := Ideal) m ρ c (Proc.devRef .tc main_arg3)) (W8 (F := Ideal) m ρ c (Proc.devRef .tc main_arg1))) := by
  show StableHlo.after hostOps3_2 (StableHlo.after hostOps3_1 (StableHlo.after hostOps3 _)) (Proc.devRef .tc main_v24) = _
  after_results
  rfl

/-- For indices in range these are the aggregated messages of the second layer's tables. -/
theorem W11_v24 (c : Dev nD)
    (het : Gnn.InRange 3 (m ((c.tc : Thread nD τ).loc main_arg3)))
    (hsrc : Gnn.InRange 100000 (m ((c.tc : Thread nD τ).loc main_arg1))) :
    W11 (F := Ideal) m ρ c (Proc.devRef .tc main_v24)
      = agg (m ((c.tc : Thread nD τ).loc main_arg2)) (Gnn.msg (Gnn.dense (h1 m c) (m ((c.tc : Thread nD τ).loc main_arg12)) (m ((c.tc : Thread nD τ).loc main_arg13))) (m ((c.tc : Thread nD τ).loc main_arg3)) (m ((c.tc : Thread nD τ).loc main_arg1))) := by
  refine (W11_v24_raw m ρ c).trans ?_
  rw [W8_arg2 m ρ c, W8_v15 m ρ c het hsrc, W8_arg3 m ρ c, W8_arg1 m ρ c]
  exact congrArg (agg _) (msgK_eq _ _ _ het hsrc)

theorem W11_v25 (c : Dev nD) :
    W11 (F := Ideal) m ρ c (Proc.devRef .tc main_v25) = gT (m ((c.tc : Thread nD τ).loc main_arg14)) := by
  show StableHlo.after hostOps3_2 (StableHlo.after hostOps3_1 (StableHlo.after hostOps3 _)) (Proc.devRef .tc main_v25) = _
  after_results
  exact congrArg gT (W8_arg14 m ρ c)

theorem W11_v26 (c : Dev nD) :
    W11 (F := Ideal) m ρ c (Proc.devRef .tc main_v26) = gT (m ((c.tc : Thread nD τ).loc main_arg15)) := by
  show StableHlo.after hostOps3_2 (StableHlo.after hostOps3_1 (StableHlo.after hostOps3 _)) (Proc.devRef .tc main_v26) = _
  after_results
  exact congrArg gT (W8_arg15 m ρ c)

theorem W11_v13 (c : Dev nD)
    (het : Gnn.InRange 3 (m ((c.tc : Thread nD τ).loc main_arg3)))
    (hsrc : Gnn.InRange 100000 (m ((c.tc : Thread nD τ).loc main_arg1))) :
    W11 (F := Ideal) m ρ c (Proc.devRef .tc main_v13) = h1 m c := by
  host_keep
  host_keep
  host_keep
  exact W8_v13 m ρ c het hsrc

theorem W11_arg16 (c : Dev nD) :
    W11 (F := Ideal) m ρ c (Proc.devRef .tc main_arg16) = (m ((c.tc : Thread nD τ).loc main_arg16)) := by
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W11_arg17 (c : Dev nD) :
    W11 (F := Ideal) m ρ c (Proc.devRef .tc main_arg17) = (m ((c.tc : Thread nD τ).loc main_arg17)) := by
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl

/-! ## The second layer's cell: region 3 -/

/-- Region 3 leaves the node features after the second layer. -/
theorem W12_v27 (c : Dev nD)
    (het : Gnn.InRange 3 (m ((c.tc : Thread nD τ).loc main_arg3)))
    (hsrc : Gnn.InRange 100000 (m ((c.tc : Thread nD τ).loc main_arg1))) :
    W12 (F := Ideal) m ρ c (Proc.devRef .tc main_v27) = h2 m c := by
  refine (W12_arr m ρ c 6).trans ?_
  refine (gru3_arr (V11 m ρ) c).trans ?_
  have e0 : V11 (F := Ideal) m ρ c main_v24
      = agg (m ((c.tc : Thread nD τ).loc main_arg2)) (Gnn.msg (Gnn.dense (h1 m c) (m ((c.tc : Thread nD τ).loc main_arg12)) (m ((c.tc : Thread nD τ).loc main_arg13))) (m ((c.tc : Thread nD τ).loc main_arg3)) (m ((c.tc : Thread nD τ).loc main_arg1))) := W11_v24 m ρ c het hsrc
  have e1 : V11 (F := Ideal) m ρ c main_v13 = h1 m c := W11_v13 m ρ c het hsrc
  have e2 : V11 (F := Ideal) m ρ c main_v25 = gT (m ((c.tc : Thread nD τ).loc main_arg14)) := W11_v25 m ρ c
  have e3 : V11 (F := Ideal) m ρ c main_v26 = gT (m ((c.tc : Thread nD τ).loc main_arg15)) := W11_v26 m ρ c
  have e4 : V11 (F := Ideal) m ρ c main_arg16 = (m ((c.tc : Thread nD τ).loc main_arg16)) := W11_arg16 m ρ c
  have e5 : V11 (F := Ideal) m ρ c main_arg17 = (m ((c.tc : Thread nD τ).loc main_arg17)) := W11_arg17 m ρ c
  rw [e0, e1, e2, e3, e4, e5]
  rfl

/-! ## The edge scores: six stretches on region 3's exit -/

theorem W12_arg1 (c : Dev nD) :
    W12 (F := Ideal) m ρ c (Proc.devRef .tc main_arg1) = (m ((c.tc : Thread nD τ).loc main_arg1)) := by
  refine (W12_of_ne m ρ c _ (by decide)).trans ?_
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W12_arg2 (c : Dev nD) :
    W12 (F := Ideal) m ρ c (Proc.devRef .tc main_arg2) = (m ((c.tc : Thread nD τ).loc main_arg2)) := by
  refine (W12_of_ne m ρ c _ (by decide)).trans ?_
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl

/-- The first result: both endpoints' rows gathered, multiplied, summed over the features, laid out as a column. -/
theorem W18_v32_raw (c : Dev nD) :
    W18 (F := Ideal) m ρ c (Proc.devRef .tc main_v32)
      = edge (W12 (F := Ideal) m ρ c (Proc.devRef .tc main_v27)) (W12 (F := Ideal) m ρ c (Proc.devRef .tc main_arg1)) (W12 (F := Ideal) m ρ c (Proc.devRef .tc main_arg2)) := by
  show StableHlo.after hostOps4_5 (StableHlo.after hostOps4_4 (StableHlo.after hostOps4_3 (StableHlo.after hostOps4_2 (StableHlo.after hostOps4_1 (StableHlo.after hostOps4 _))))) (Proc.devRef .tc main_v32) = _
  after_results
  rfl

theorem W15_arg4 (c : Dev nD) :
    W15 (F := Ideal) m ρ c (Proc.devRef .tc main_arg4) = (m ((c.tc : Thread nD τ).loc main_arg4)) := by
  host_keep
  host_keep
  host_keep
  refine (W12_of_ne m ρ c _ (by decide)).trans ?_
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W15_arg5 (c : Dev nD) :
    W15 (F := Ideal) m ρ c (Proc.devRef .tc main_arg5) = (m ((c.tc : Thread nD τ).loc main_arg5)) := by
  host_keep
  host_keep
  host_keep
  refine (W12_of_ne m ρ c _ (by decide)).trans ?_
  host_keep
  host_keep
  host_keep
  refine (W8_of_ne m ρ c _ (by decide)).trans ?_
  host_keep
  refine (W6_of_ne m ρ c _ (by decide)).trans ?_
  host_keep
  host_keep
  host_keep
  refine (W2_of_ne m ρ c _ (by decide)).trans ?_
  host_keep
  rfl
theorem W15_v27 (c : Dev nD)
    (het : Gnn.InRange 3 (m ((c.tc : Thread nD τ).loc main_arg3)))
    (hsrc : Gnn.InRange 100000 (m ((c.tc : Thread nD τ).loc main_arg1))) :
    W15 (F := Ideal) m ρ c (Proc.devRef .tc main_v27) = h2 m c := by
  host_keep
  host_keep
  host_keep
  exact W12_v27 m ρ c het hsrc

/-- The second result, likewise over the negative edges: the last three stretches on what the first three left. -/
theorem W18_v37_raw (c : Dev nD) :
    W18 (F := Ideal) m ρ c (Proc.devRef .tc main_v37)
      = edge (W15 (F := Ideal) m ρ c (Proc.devRef .tc main_v27)) (W15 (F := Ideal) m ρ c (Proc.devRef .tc main_arg4)) (W15 (F := Ideal) m ρ c (Proc.devRef .tc main_arg5)) := by
  show StableHlo.after hostOps4_5 (StableHlo.after hostOps4_4 (StableHlo.after hostOps4_3 (W15 (F := Ideal) m ρ c))) (Proc.devRef .tc main_v37) = _
  generalize W15 (F := Ideal) m ρ c = V
  after_results
  rfl

/-- The first result buffer at the last boundary is the scores of the edges (src, dst). -/
theorem W18_v32 (c : Dev nD)
    (het : Gnn.InRange 3 (m ((c.tc : Thread nD τ).loc main_arg3)))
    (hsrc : Gnn.InRange 100000 (m ((c.tc : Thread nD τ).loc main_arg1))) :
    W18 (F := Ideal) m ρ c (Proc.devRef .tc main_v32) = out0 m c := by
  refine (W18_v32_raw m ρ c).trans ?_
  rw [W12_v27 m ρ c het hsrc, W12_arg1 m ρ c, W12_arg2 m ρ c]
  rfl

/-- The second result buffer at the last boundary is the scores of the edges (neg_src, neg_dst). -/
theorem W18_v37 (c : Dev nD)
    (het : Gnn.InRange 3 (m ((c.tc : Thread nD τ).loc main_arg3)))
    (hsrc : Gnn.InRange 100000 (m ((c.tc : Thread nD τ).loc main_arg1))) :
    W18 (F := Ideal) m ρ c (Proc.devRef .tc main_v37) = out1 m c := by
  refine (W18_v37_raw m ρ c).trans ?_
  rw [W15_v27 m ρ c het hsrc, W15_arg4 m ρ c, W15_arg5 m ρ c]
  rfl

end Cert.KernelIdeal.GnnK

end
-- ==== Proof.RStages.lean ====
/-
  The reference program's stages as functions of abstract operands, over the extended reals: each is the
  reference's own chain of host operations with the arrays it depends on left as variables, so that one statement about
  a chain serves both layers.
-/
import proofs.«413908_j6485400616961_2_alg».proof.ReferenceIdeal
import proofs.«413908_j6485400616961_2_alg».proof.Proof.Spec

noncomputable section

namespace Cert.ReferenceIdeal.GnnR

open Cert.ReferenceIdeal Cert.ReferenceIdeal.Facts₀ Cert.ReferenceIdeal.Facts
open Idealize.ShloMosaic Idealize.ShloMosaic.TcCoe Idealize.SL.Sem

variable [Cert.ReferenceIdeal.Facts]

/-- A launch memory at the extended reals. -/
abbrev Mem : Type := (ℓ : Loc nD τ sig) → Buf (Elt Ideal) ℓ

/-- The gate weights with rows and columns exchanged: [90, 30] to [30, 90]. -/
def gT (w : Vec Ideal S90x30 .f32) : Vec Ideal S30x90 .f32 := transpose S30x90 [1, 0] w transposes_S90x30_S30x90_1_0

/-- Aggregation over destination nodes: the messages scatter-added into a zero array at the rows dst names. -/
def agg (dst : Vec Ideal S3200000 .i32) (u : Vec Ideal S3200000x30 .f32) : Vec Ideal S100000x30 .f32 :=
  Host.scatterAdd (F := Ideal) scatter_S100000x30_S3200000x1_S3200000x30_1_0_0_1
    (broadcastInDim S100000x30 ![] bcast_S_S100000x30 (constant (F := Ideal) S_ .f32 0x00000000#32))
    (broadcastInDim S3200000x1 ![0] bcast_S3200000_S3200000x1_0 dst) u

/-- Edge scores: for edge e the sum over features of h[s[e], ·] * h[d[e], ·], as a column. -/
def edge (h : Vec Ideal S100000x30 .f32) (s d : Vec Ideal S3200000 .i32) : Vec Ideal S3200000x1 .f32 :=
  broadcastInDim S3200000x1 ![0] bcast_S3200000_S3200000x1_0
    (Host.reduceAdd (F := Ideal)
      (mulf (F := Ideal) (φ := .f32)
        (Host.gather gather_S100000x30_S3200000x1_S3200000x30_1_0_n_n_0_1_130 h (broadcastInDim S3200000x1 ![0] bcast_S3200000_S3200000x1_0 s))
        (Host.gather gather_S100000x30_S3200000x1_S3200000x30_1_0_n_n_0_1_130 h (broadcastInDim S3200000x1 ![0] bcast_S3200000_S3200000x1_0 d)))
      (constant (F := Ideal) S_ .f32 0x00000000#32) reducesTo_S3200000x30_S3200000_d1 h_S_)

/-- Python's negative indexing: an index below zero counts from the end of an axis of extent n. -/
def wrap (n : BitVec 32) (idx : Vec Ideal S3200000 .i32) : Vec Ideal S3200000 .i32 :=
  select (cmpi .slt idx (broadcastInDim S3200000 ![] bcast_S_S3200000 (constantI S_ 32 0#32)))
    (addi idx (broadcastInDim S3200000 ![] bcast_S_S3200000 (constantI S_ 32 n))) idx

/-- The reference's messages: a gather of the tables by the pair (edge type, source), each wrapped. -/
def msgR (t : Vec Ideal S3x100000x30 .f32) (et src : Vec Ideal S3200000 .i32) : Vec Ideal S3200000x30 .f32 :=
  Host.gather gather_S3x100000x30_S3200000x2_S3200000x30_1_01_n_n_01_1_1130 t
    (concatenate S3200000x2 1
      [⟨S3200000x1, broadcastInDim S3200000x1 ![0] bcast_S3200000_S3200000x1_0 (wrap 3#32 et)⟩,
       ⟨S3200000x1, broadcastInDim S3200000x1 ![0] bcast_S3200000_S3200000x1_0 (wrap 100000#32 src)⟩]
      concatenates_S3200000x1_S3200000x1_S3200000x2_d1)

/-- The reference's per-type tables: the contraction of the weights against the features, its last two axes
    exchanged, plus the bias spread over the nodes. -/
def denseR (h : Vec Ideal S100000x30 .f32) (w : Vec Ideal S3x30x30 .f32) (b : Vec Ideal S3x30 .f32) : Vec Ideal S3x100000x30 .f32 :=
  addf (F := Ideal) (φ := .f32)
    (transpose S3x100000x30 [0, 2, 1] (Host.dotGeneral (F := Ideal) (φ₁ := .f32) (φ₂ := .f32) dot_S3x30x30_S100000x30_S3x30x100000_2_1_01_0_n_n none w h) transposes_S3x30x100000_S3x100000x30_0_2_1)
    (broadcastInDim S3x100000x30 ![0, 1, 2] bcast_S3x1x30_S3x100000x30_0_1_2 (broadcastInDim S3x1x30 ![0, 2] bcast_S3x30_S3x1x30_0_2 b))

/-- The array of ones the reference's cell uses. -/
def ones : Vec Ideal S100000x30 .f32 := broadcastInDim S100000x30 ![] bcast_S_S100000x30 (constant (F := Ideal) S_ .f32 0x3F800000#32)

/-- One of the cell's two linear maps into 90 columns. -/
def linR (x : Vec Ideal S100000x30 .f32) (wT : Vec Ideal S30x90 .f32) (bv : Vec Ideal S90 .f32) : Vec Ideal S100000x90 .f32 :=
  addf (F := Ideal) (φ := .f32) (Host.dotGeneral (F := Ideal) (φ₁ := .f32) (φ₂ := .f32) dot_S100000x30_S30x90_S100000x90_1_0_0_1_n_n none x wT)
    (broadcastInDim S100000x90 ![0, 1] bcast_S1x90_S100000x90_0_1 (broadcastInDim S1x90 ![1] bcast_S90_S1x90_1 bv))

/-- The logistic function as the reference spells it: 1 / (1 + exp (-x)). -/
def sigR (x : Vec Ideal S100000x30 .f32) : Vec Ideal S100000x30 .f32 :=
  Host.divf (F := Ideal) (φ := .f32) ones (addf (F := Ideal) (φ := .f32) ones (Host.exp (F := Ideal) (φ := .f32) (Host.negf (F := Ideal) (φ := .f32) x)))

/-- The reference's cell (no maximum with zero), as its chain of host operations. -/
def gruR (a h : Vec Ideal S100000x30 .f32) (wiT whT : Vec Ideal S30x90 .f32) (bi bh : Vec Ideal S90 .f32) : Vec Ideal S100000x30 .f32 :=
  let gi := linR a wiT bi
  let gh := linR h whT bh
  let r := sigR (addf (F := Ideal) (φ := .f32) (extractStridedSlice S100000x30 ![0, 0] gi slices_S100000x90_S100000x30_0_0) (extractStridedSlice S100000x30 ![0, 0] gh slices_S100000x90_S100000x30_0_0))
  let z := sigR (addf (F := Ideal) (φ := .f32) (extractStridedSlice S100000x30 ![0, 30] gi slices_S100000x90_S100000x30_0_30) (extractStridedSlice S100000x30 ![0, 30] gh slices_S100000x90_S100000x30_0_30))
  let g := Host.tanh (F := Ideal) (φ := .f32) (addf (F := Ideal) (φ := .f32) (extractStridedSlice S100000x30 ![0, 60] gi slices_S100000x90_S100000x30_0_60) (mulf (F := Ideal) (φ := .f32) r (extractStridedSlice S100000x30 ![0, 60] gh slices_S100000x90_S100000x30_0_60)))
  addf (F := Ideal) (φ := .f32) (mulf (F := Ideal) (φ := .f32) (subf (F := Ideal) (φ := .f32) ones z) g) (mulf (F := Ideal) (φ := .f32) z h)

/-- The maximum with zero between the layers. -/
def reluR (x : Vec Ideal S100000x30 .f32) : Vec Ideal S100000x30 .f32 :=
  maximumf (F := Ideal) (φ := .f32) x (broadcastInDim S100000x30 ![] bcast_S_S100000x30 (constant (F := Ideal) S_ .f32 0x00000000#32))

/-- Node features after the first layer. -/
def h1 (m : Mem) (c : Dev nD) : Vec Ideal S100000x30 .f32 :=
  Gnn.layer true (agg (m ((c.tc : Thread nD τ).loc main_arg2))) (m ((c.tc : Thread nD τ).loc main_arg0))
    (m ((c.tc : Thread nD τ).loc main_arg3)) (m ((c.tc : Thread nD τ).loc main_arg1))
    (m ((c.tc : Thread nD τ).loc main_arg6)) (m ((c.tc : Thread nD τ).loc main_arg7))
    (gT (m ((c.tc : Thread nD τ).loc main_arg8))) (gT (m ((c.tc : Thread nD τ).loc main_arg9)))
    (m ((c.tc : Thread nD τ).loc main_arg10)) (m ((c.tc : Thread nD τ).loc main_arg11))

/-- Node features after the second layer. -/
def h2 (m : Mem) (c : Dev nD) : Vec Ideal S100000x30 .f32 :=
  Gnn.layer false (agg (m ((c.tc : Thread nD τ).loc main_arg2))) (h1 m c)
    (m ((c.tc : Thread nD τ).loc main_arg3)) (m ((c.tc : Thread nD τ).loc main_arg1))
    (m ((c.tc : Thread nD τ).loc main_arg12)) (m ((c.tc : Thread nD τ).loc main_arg13))
    (gT (m ((c.tc : Thread nD τ).loc main_arg14))) (gT (m ((c.tc : Thread nD τ).loc main_arg15)))
    (m ((c.tc : Thread nD τ).loc main_arg16)) (m ((c.tc : Thread nD τ).loc main_arg17))

/-- The scores of the edges (src, dst). -/
def out0 (m : Mem) (c : Dev nD) : Vec Ideal S3200000x1 .f32 :=
  edge (h2 m c) (m ((c.tc : Thread nD τ).loc main_arg1)) (m ((c.tc : Thread nD τ).loc main_arg2))

/-- The scores of the edges (neg_src, neg_dst). -/
def out1 (m : Mem) (c : Dev nD) : Vec Ideal S3200000x1 .f32 :=
  edge (h2 m c) (m ((c.tc : Thread nD τ).loc main_arg4)) (m ((c.tc : Thread nD τ).loc main_arg5))

end Cert.ReferenceIdeal.GnnR

end
-- ==== Proof.RDense.lean ====
/-
  The reference's per-type tables read entry by entry: the contraction, with its factors exchanged, plus the bias.
-/
import proofs.«413908_j6485400616961_2_alg».proof.Proof.RStages
import Idealize.ShloMosaic.PureOps.Ideal.Laws
import Idealize.ShloMosaic.Lib.Pipeline.Value

set_option maxRecDepth 16384

noncomputable section

namespace Cert.ReferenceIdeal.GnnR

open Cert.ReferenceIdeal Cert.ReferenceIdeal.Facts₀ Cert.ReferenceIdeal.Facts
open Idealize.ShloMosaic Idealize.ShloMosaic.TcCoe Idealize.SL.Sem

variable [Cert.ReferenceIdeal.Facts]

/-! The contraction's operand indices, one axis at a time: at output index i = (k, f, n) and contraction index q the
    weights are read at (k, f, q) and the features at (n, q). -/

/-- Weights, axis 0: the output's axis 0. -/
private theorem dense_lhs_0 (i : S3x30x100000.Idx) (q : dot_S3x30x30_S100000x30_S3x30x100000_2_1_01_0_n_n.contr.Idx) :
    (dot_S3x30x30_S100000x30_S3x30x100000_2_1_01_0_n_n.lhsIdx i q 0).val = (i 0).val := by
  unfold DotDims.lhsIdx
  rw [dif_neg (show ¬(0 : Fin S3x30x30.rank) ∈ dot_S3x30x30_S100000x30_S3x30x100000_2_1_01_0_n_n.lhsBatch from List.not_mem_nil),
    dif_pos (show (0 : Fin S3x30x30.rank) ∈ dot_S3x30x30_S100000x30_S3x30x100000_2_1_01_0_n_n.lhsNonContracting from (by decide : (0 : Fin 3) ∈ ([0, 1] : List (Fin 3))))]
  rfl

/-- Weights, axis 1: the output's axis 1. -/
private theorem dense_lhs_1 (i : S3x30x100000.Idx) (q : dot_S3x30x30_S100000x30_S3x30x100000_2_1_01_0_n_n.contr.Idx) :
    (dot_S3x30x30_S100000x30_S3x30x100000_2_1_01_0_n_n.lhsIdx i q 1).val = (i 1).val := by
  unfold DotDims.lhsIdx
  rw [dif_neg (show ¬(1 : Fin S3x30x30.rank) ∈ dot_S3x30x30_S100000x30_S3x30x100000_2_1_01_0_n_n.lhsBatch from List.not_mem_nil),
    dif_pos (show (1 : Fin S3x30x30.rank) ∈ dot_S3x30x30_S100000x30_S3x30x100000_2_1_01_0_n_n.lhsNonContracting from (by decide : (1 : Fin 3) ∈ ([0, 1] : List (Fin 3))))]
  rfl

/-- Weights, axis 2: the contracted axis. -/
private theorem dense_lhs_2 (i : S3x30x100000.Idx) (q : dot_S3x30x30_S100000x30_S3x30x100000_2_1_01_0_n_n.contr.Idx) :
    (dot_S3x30x30_S100000x30_S3x30x100000_2_1_01_0_n_n.lhsIdx i q 2).val = (q ⟨0, Nat.one_pos⟩).val :=
  dot_S3x30x30_S100000x30_S3x30x100000_2_1_01_0_n_n.lhsIdx_val_of_single rfl i q

/-- Features, axis 0: the output's axis 2. -/
private theorem dense_rhs_0 (i : S3x30x100000.Idx) (q : dot_S3x30x30_S100000x30_S3x30x100000_2_1_01_0_n_n.contr.Idx) :
    (dot_S3x30x30_S100000x30_S3x30x100000_2_1_01_0_n_n.rhsIdx i q 0).val = (i 2).val := by
  unfold DotDims.rhsIdx
  rw [dif_neg (show ¬(0 : Fin S100000x30.rank) ∈ dot_S3x30x30_S100000x30_S3x30x100000_2_1_01_0_n_n.rhsBatch from List.not_mem_nil),
    dif_pos (show (0 : Fin S100000x30.rank) ∈ dot_S3x30x30_S100000x30_S3x30x100000_2_1_01_0_n_n.rhsNonContracting from (by decide : (0 : Fin 2) ∈ ([0] : List (Fin 2))))]
  rfl

/-- Features, axis 1: the contracted axis. -/
private theorem dense_rhs_1 (i : S3x30x100000.Idx) (q : dot_S3x30x30_S100000x30_S3x30x100000_2_1_01_0_n_n.contr.Idx) :
    (dot_S3x30x30_S100000x30_S3x30x100000_2_1_01_0_n_n.rhsIdx i q 1).val = (q ⟨0, Nat.one_pos⟩).val :=
  dot_S3x30x30_S100000x30_S3x30x100000_2_1_01_0_n_n.rhsIdx_val_of_single rfl i q

/-- The contraction at (k, f, n): the sum over d < 30 of W[k, f, d] * h[n, d]. -/
private theorem dense_dot_apply (h : Vec Ideal S100000x30 .f32) (w : Vec Ideal S3x30x30 .f32)
    (k : Fin 3) (f : Fin 30) (n : Fin 100000) :
    Host.dotGeneral (F := Ideal) (φ₁ := .f32) (φ₂ := .f32) dot_S3x30x30_S100000x30_S3x30x100000_2_1_01_0_n_n none w h
        (ValueIdx.ix3 k f n)
      = ∑ d : Fin 30, w (ValueIdx.ix3 k f d) * h (ValueIdx.ix2 n d) := by
  simp only [Host.dotGeneral]
  rw [Ideal.dotGeneral_apply,
    ← Equiv.sum_comp (ValueIdx.contrEquiv1 dot_S3x30x30_S100000x30_S3x30x100000_2_1_01_0_n_n 30 rfl rfl).symm]
  refine Finset.sum_congr rfl fun d _ => ?_
  have hd := ValueIdx.contrEquiv1_symm_val dot_S3x30x30_S100000x30_S3x30x100000_2_1_01_0_n_n 30 rfl rfl d
  have el : dot_S3x30x30_S100000x30_S3x30x100000_2_1_01_0_n_n.lhsIdx (ValueIdx.ix3 k f n)
      ((ValueIdx.contrEquiv1 dot_S3x30x30_S100000x30_S3x30x100000_2_1_01_0_n_n 30 rfl rfl).symm d)
        = ValueIdx.ix3 k f d := funext fun a => Fin.ext (by
    match a with
    | ⟨0, _⟩ => exact dense_lhs_0 _ _
    | ⟨1, _⟩ => exact dense_lhs_1 _ _
    | ⟨2, _⟩ => exact (dense_lhs_2 _ _).trans hd)
  have er : dot_S3x30x30_S100000x30_S3x30x100000_2_1_01_0_n_n.rhsIdx (ValueIdx.ix3 k f n)
      ((ValueIdx.contrEquiv1 dot_S3x30x30_S100000x30_S3x30x100000_2_1_01_0_n_n 30 rfl rfl).symm d)
        = ValueIdx.ix2 n d := funext fun a => Fin.ext (by
    match a with
    | ⟨0, _⟩ => exact dense_rhs_0 _ _
    | ⟨1, _⟩ => exact (dense_rhs_1 _ _).trans hd)
  rw [el, er]

/-- The bias spread over the nodes, at (k, n, f): b[k, f]. -/
private theorem dense_bias_apply (b : Vec Ideal S3x30 .f32) (k : Fin 3) (n : Fin 100000) (f : Fin 30) :
    broadcastInDim S3x100000x30 ![0, 1, 2] bcast_S3x1x30_S3x100000x30_0_1_2
        (broadcastInDim S3x1x30 ![0, 2] bcast_S3x30_S3x1x30_0_2 b) (ValueIdx.ix3 k n f)
      = b (ValueIdx.ix2 k f) := by
  -- the outer spreading reads the middle array at (k, 0, f): its axis 1 has extent one
  refine (broadcastInDim_apply _ bcast_S3x1x30_S3x100000x30_0_1_2 _ (ValueIdx.ix3 k n f)
    (ValueIdx.ix3 k (⟨0, Nat.one_pos⟩ : Fin 1) f) (fun a => match a with
      | ⟨0, _⟩ => by show k.val = if (3 : Nat) = 1 then 0 else k.val; rw [if_neg (by decide)]
      | ⟨1, _⟩ => by show 0 = if (1 : Nat) = 1 then 0 else n.val; rw [if_pos rfl]
      | ⟨2, _⟩ => by show f.val = if (30 : Nat) = 1 then 0 else f.val; rw [if_neg (by decide)])).trans ?_
  -- the inner spreading reads the bias at (k, f)
  exact broadcastInDim_apply _ bcast_S3x30_S3x1x30_0_2 b (ValueIdx.ix3 k (⟨0, Nat.one_pos⟩ : Fin 1) f)
    (ValueIdx.ix2 k f) (fun a => match a with
      | ⟨0, _⟩ => by show k.val = if (3 : Nat) = 1 then 0 else k.val; rw [if_neg (by decide)]
      | ⟨1, _⟩ => by show f.val = if (30 : Nat) = 1 then 0 else f.val; rw [if_neg (by decide)])

/-- The reference's tables are the specification's. -/
theorem denseR_eq (h : Vec Ideal S100000x30 .f32) (w : Vec Ideal S3x30x30 .f32) (b : Vec Ideal S3x30 .f32) :
    denseR h w b = Gnn.dense h w b := by
  funext i
  obtain ⟨k, n, f, rfl⟩ : ∃ (k : Fin 3) (n : Fin 100000) (f : Fin 30), i = ValueIdx.ix3 k n f :=
    ⟨i 0, i 1, i 2, ValueIdx.eq_ix3 i⟩
  -- the sum of two arrays is read entry by entry
  show (transpose S3x100000x30 [0, 2, 1]
        (Host.dotGeneral (F := Ideal) (φ₁ := .f32) (φ₂ := .f32) dot_S3x30x30_S100000x30_S3x30x100000_2_1_01_0_n_n none w h)
        transposes_S3x30x100000_S3x100000x30_0_2_1 (ValueIdx.ix3 k n f)
      + broadcastInDim S3x100000x30 ![0, 1, 2] bcast_S3x1x30_S3x100000x30_0_1_2
        (broadcastInDim S3x1x30 ![0, 2] bcast_S3x30_S3x1x30_0_2 b) (ValueIdx.ix3 k n f) : EReal)
      = (∑ d : Fin 30, h (ValueIdx.ix2 n d) * w (ValueIdx.ix3 k f d)) + b (ValueIdx.ix2 k f)
  rw [dense_bias_apply]
  -- the exchange of the last two axes reads the contraction at (k, f, n)
  have ht : transpose S3x100000x30 [0, 2, 1]
        (Host.dotGeneral (F := Ideal) (φ₁ := .f32) (φ₂ := .f32) dot_S3x30x30_S100000x30_S3x30x100000_2_1_01_0_n_n none w h)
        transposes_S3x30x100000_S3x100000x30_0_2_1 (ValueIdx.ix3 k n f)
      = Host.dotGeneral (F := Ideal) (φ₁ := .f32) (φ₂ := .f32) dot_S3x30x30_S100000x30_S3x30x100000_2_1_01_0_n_n none w h
        (ValueIdx.ix3 k f n) := by
    generalize Host.dotGeneral (F := Ideal) (φ₁ := .f32) (φ₂ := .f32) dot_S3x30x30_S100000x30_S3x30x100000_2_1_01_0_n_n none w h = y
    exact transpose_apply [0, 2, 1] y transposes_S3x30x100000_S3x100000x30_0_2_1 (ValueIdx.ix3 k n f) (ValueIdx.ix3 k f n)
      (fun a => match a with
        | ⟨0, _⟩ => rfl
        | ⟨1, _⟩ => rfl
        | ⟨2, _⟩ => rfl)
  rw [ht, dense_dot_apply]
  -- the factors of each product are exchanged
  congr 1
  exact Finset.sum_congr rfl fun d _ => mul_comm _ _

end Cert.ReferenceIdeal.GnnR

end
-- ==== Proof.RGru.lean ====
/-
  The reference's cell read entry by entry: two linear maps cut into three bands, the logistic function spelt 1 / (1 + exp (-x)).
-/
import proofs.«413908_j6485400616961_2_alg».proof.Proof.RStages
import proofs.«413908_j6485400616961_2_alg».proof.Proof.LibPlainDot
import Idealize.ShloMosaic.PureOps.Ideal.Laws
import Idealize.ShloMosaic.Lib.Pipeline.Value
import Idealize.ShloMosaic.Lib.IdealHost

set_option maxRecDepth 16384

noncomputable section

namespace Cert.ReferenceIdeal.GnnR

open Cert.ReferenceIdeal Cert.ReferenceIdeal.Facts₀ Cert.ReferenceIdeal.Facts
open Idealize.ShloMosaic Idealize.ShloMosaic.TcCoe Idealize.SL.Sem
open Idealize.ShloMosaic.ValueIdx

variable [Cert.ReferenceIdeal.Facts]

/-- The array of ones reads the word of 1.0 at every index. -/
private theorem ones_apply (i : S100000x30.Idx) : ones i = Gnn.one := by
  unfold ones
  exact broadcastInDim_scalar_apply bcast_S_S100000x30 _ i

/-- The bias spread over the rows reads the bias at the column. -/
private theorem bias_apply (bv : Vec Ideal S90 .f32) (n : Fin 100000) (c : Fin 90) :
    broadcastInDim S100000x90 ![0, 1] bcast_S1x90_S100000x90_0_1 (broadcastInDim S1x90 ![1] bcast_S90_S1x90_1 bv) (ix2 n c) = bv (ix1 c) := by
  refine (broadcastInDim_apply ![0, 1] bcast_S1x90_S100000x90_0_1 _ (ix2 n c) (ix2 (0 : Fin 1) c) fun a => ?_).trans ?_
  · match a with
    | ⟨0, _⟩ => rfl
    | ⟨1, _⟩ => rfl
  · refine broadcastInDim_apply ![1] bcast_S90_S1x90_1 bv (ix2 (0 : Fin 1) c) (ix1 c) fun a => ?_
    match a with
    | ⟨0, _⟩ => rfl

/-- A linear map of the cell at row n, column c: the contraction over the 30 features plus the bias. -/
private theorem linR_apply (x : Vec Ideal S100000x30 .f32) (wT : Vec Ideal S30x90 .f32) (bv : Vec Ideal S90 .f32) (n : Fin 100000) (c : Fin 90) :
    linR x wT bv (ix2 n c) = Gnn.lin x wT bv n c := by
  unfold linR Gnn.lin
  show _ + _ = _
  refine congrArg₂ (· + ·) ?_ (bias_apply bv n c)
  refine (Ideal.dotGeneral_apply dot_S100000x30_S30x90_S100000x90_1_0_0_1_n_n none .single x wT (ix2 n c)).trans ?_
  exact PlainDot.sum_eq dot_S100000x30_S30x90_S100000x90_1_0_0_1_n_n rfl rfl rfl rfl rfl rfl x wT n c

/-- The band at column offset 0 of a 90-column array. -/
private theorem band0_apply (g : Vec Ideal S100000x90 .f32) (n : Fin 100000) (j : Fin 30) :
    extractStridedSlice S100000x30 ![0, 0] g slices_S100000x90_S100000x30_0_0 (ix2 n j) = g (ix2 n (Gnn.band0 j)) := by
  refine extractStridedSlice_apply ![0, 0] g slices_S100000x90_S100000x30_0_0 (ix2 n j) (ix2 n (Gnn.band0 j)) fun a => ?_
  match a with
  | ⟨0, _⟩ => exact (Nat.zero_add _).symm
  | ⟨1, _⟩ => exact (Nat.zero_add _).symm

/-- The band at column offset 30. -/
private theorem band1_apply (g : Vec Ideal S100000x90 .f32) (n : Fin 100000) (j : Fin 30) :
    extractStridedSlice S100000x30 ![0, 30] g slices_S100000x90_S100000x30_0_30 (ix2 n j) = g (ix2 n (Gnn.band1 j)) := by
  refine extractStridedSlice_apply ![0, 30] g slices_S100000x90_S100000x30_0_30 (ix2 n j) (ix2 n (Gnn.band1 j)) fun a => ?_
  match a with
  | ⟨0, _⟩ => exact (Nat.zero_add _).symm
  | ⟨1, _⟩ => rfl

/-- The band at column offset 60. -/
private theorem band2_apply (g : Vec Ideal S100000x90 .f32) (n : Fin 100000) (j : Fin 30) :
    extractStridedSlice S100000x30 ![0, 60] g slices_S100000x90_S100000x30_0_60 (ix2 n j) = g (ix2 n (Gnn.band2 j)) := by
  refine extractStridedSlice_apply ![0, 60] g slices_S100000x90_S100000x30_0_60 (ix2 n j) (ix2 n (Gnn.band2 j)) fun a => ?_
  match a with
  | ⟨0, _⟩ => exact (Nat.zero_add _).symm
  | ⟨1, _⟩ => rfl

/-- The spelt logistic function 1 / (1 + exp (-x)) at an index is the logistic function of the entry: the word of 1.0 is the
    extended real one. -/
private theorem sigR_apply (x : Vec Ideal S100000x30 .f32) (i : S100000x30.Idx) : sigR x i = Ideal.logistic (x i) := by
  unfold sigR
  show Ideal.div (ones i) (ones i + Ideal.exp (-(x i))) = _
  rw [ones_apply i]
  show Ideal.div (Ideal.ofBits .f32 0x3F800000#32) (Ideal.ofBits .f32 0x3F800000#32 + Ideal.exp (-(x i))) = _
  rw [Ideal.ofBits_one_f32]
  rfl

/-- The reference's cell at node n, feature j. -/
private theorem gruR_apply (a h : Vec Ideal S100000x30 .f32) (wiT whT : Vec Ideal S30x90 .f32) (bi bh : Vec Ideal S90 .f32)
    (n : Fin 100000) (j : Fin 30) :
    gruR a h wiT whT bi bh (ix2 n j) = Gnn.gruAt false a h wiT whT bi bh n j := by
  unfold gruR Gnn.gruAt Gnn.gate
  show (ones (ix2 n j) - sigR _ (ix2 n j)) * Ideal.tanh (_ + sigR _ (ix2 n j) * _) + sigR _ (ix2 n j) * h (ix2 n j) = _
  rw [ones_apply, sigR_apply, sigR_apply]
  show (Gnn.one - Ideal.logistic (extractStridedSlice S100000x30 ![0, 30] (linR a wiT bi) slices_S100000x90_S100000x30_0_30 (ix2 n j)
        + extractStridedSlice S100000x30 ![0, 30] (linR h whT bh) slices_S100000x90_S100000x30_0_30 (ix2 n j)))
      * Ideal.tanh (extractStridedSlice S100000x30 ![0, 60] (linR a wiT bi) slices_S100000x90_S100000x30_0_60 (ix2 n j)
        + Ideal.logistic (extractStridedSlice S100000x30 ![0, 0] (linR a wiT bi) slices_S100000x90_S100000x30_0_0 (ix2 n j)
          + extractStridedSlice S100000x30 ![0, 0] (linR h whT bh) slices_S100000x90_S100000x30_0_0 (ix2 n j))
          * extractStridedSlice S100000x30 ![0, 60] (linR h whT bh) slices_S100000x90_S100000x30_0_60 (ix2 n j))
      + Ideal.logistic (extractStridedSlice S100000x30 ![0, 30] (linR a wiT bi) slices_S100000x90_S100000x30_0_30 (ix2 n j)
        + extractStridedSlice S100000x30 ![0, 30] (linR h whT bh) slices_S100000x90_S100000x30_0_30 (ix2 n j)) * h (ix2 n j) = _
  rw [band0_apply, band0_apply, band1_apply, band1_apply, band2_apply, band2_apply]
  rw [linR_apply, linR_apply, linR_apply, linR_apply, linR_apply, linR_apply]
  rfl

/-- The reference's cell is the specification's, without the maximum with zero. -/
theorem gruR_eq (a h : Vec Ideal S100000x30 .f32) (wiT whT : Vec Ideal S30x90 .f32) (bi bh : Vec Ideal S90 .f32) :
    gruR a h wiT whT bi bh = Gnn.gru false a h wiT whT bi bh := by
  funext i
  exact (congrArg (gruR a h wiT whT bi bh) (eq_ix2 i)).trans (gruR_apply a h wiT whT bi bh (i 0) (i 1))

/-- The maximum with zero after the cell is the specification's first-layer cell. -/
theorem reluR_gru (a h : Vec Ideal S100000x30 .f32) (wiT whT : Vec Ideal S30x90 .f32) (bi bh : Vec Ideal S90 .f32) :
    reluR (Gnn.gru false a h wiT whT bi bh) = Gnn.gru true a h wiT whT bi bh := by
  funext i
  unfold reluR
  show max (Gnn.gru false a h wiT whT bi bh i) (broadcastInDim S100000x30 ![] bcast_S_S100000x30 (constant (F := Ideal) S_ .f32 0x00000000#32) i) = _
  rw [broadcastInDim_scalar_apply bcast_S_S100000x30 _ i]
  rfl

end Cert.ReferenceIdeal.GnnR

end
-- ==== Proof.RMsg.lean ====
/-
  The reference's message gather and index wrap: for indices that are not negative the wrap changes nothing, and the two-component gather reads row src of table etype, each index clamped into its axis.
-/
import proofs.«413908_j6485400616961_2_alg».proof.Proof.RStages
import Idealize.ShloMosaic.Lib.StableHlo.Predicate
import Idealize.ShloMosaic.Lib.Pipeline.Value

set_option maxRecDepth 16384

/-!
## A table gathered by a pair of start-index components

A stack of `K` tables of `N` rows of `C` columns, indexed by an `[n × 2]` array of (table, row) pairs: the gather
whose two leading operand axes are collapsed and named by the two start-index components, the column axis kept
whole, reads at `(e, j)` the entry `(idx[e,0], idx[e,1], j)`, each component read signed and clamped into its axis.
-/

namespace Idealize.ShloMosaic.PairIndex

open Idealize.ShloMosaic Idealize.ShloMosaic.ValueIdx

/-- The start of result `y`'s slice on the table axis is the first component of its start index, read signed and
    clamped into the stack. -/
theorem gather_pair_start0 {K N C n w : Nat} (d : GatherDims ⟨3, ![K, N, C]⟩ ⟨2, ![n, 2]⟩ ⟨2, ![n, C]⟩)
    (hoff : d.offsetDims = [1]) (hcoll : d.collapsedSliceDims = [0, 1])
    (hsim : d.startIndexMap = [0, 1]) (hivd : d.indexVectorDim = 1)
    (idx : IVec ⟨2, ![n, 2]⟩ w) (y : (⟨2, ![n, C]⟩ : Shape).Idx) :
    d.start y idx 0 = min (idx (ix2 (y 0) (0 : Fin 2))).toInt.toNat (K - 1) := by
  have hsl : d.sliceSizes 0 = 1 := d.slice_collapsed 0 (by rw [hcoll]; simp)
  obtain ⟨od, cd, ob, sb, sm, iv, ss, wf⟩ := d
  dsimp only at hoff hcoll hsim hivd hsl
  subst hoff hcoll hsim hivd
  unfold GatherDims.start
  rw [dif_pos (by simp)]
  show min _ (K - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0, 1] = 0
    simp

/-- The start of result `y`'s slice on the row axis is the second component of its start index, read signed and
    clamped into the table. -/
theorem gather_pair_start1 {K N C n w : Nat} (d : GatherDims ⟨3, ![K, N, C]⟩ ⟨2, ![n, 2]⟩ ⟨2, ![n, C]⟩)
    (hoff : d.offsetDims = [1]) (hcoll : d.collapsedSliceDims = [0, 1])
    (hsim : d.startIndexMap = [0, 1]) (hivd : d.indexVectorDim = 1)
    (idx : IVec ⟨2, ![n, 2]⟩ w) (y : (⟨2, ![n, C]⟩ : Shape).Idx) :
    d.start y idx 1 = min (idx (ix2 (y 0) (1 : Fin 2))).toInt.toNat (N - 1) := by
  have hsl : d.sliceSizes 1 = 1 := d.slice_collapsed 1 (by rw [hcoll]; simp)
  obtain ⟨od, cd, ob, sb, sm, iv, ss, wf⟩ := d
  dsimp only at hoff hcoll hsim hivd hsl
  subst hoff hcoll hsim hivd
  unfold GatherDims.start
  rw [dif_pos (by simp)]
  show min _ (N - ss 1) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (1 : Fin 3) [0, 1] = 1
    simp

/-- The column axis is the one kept axis: result `y`'s offset on it is its own column. -/
theorem gather_pair_off2 {K N C n : Nat} (d : GatherDims ⟨3, ![K, N, C]⟩ ⟨2, ![n, 2]⟩ ⟨2, ![n, C]⟩)
    (hoff : d.offsetDims = [1]) (hcoll : d.collapsedSliceDims = [0, 1]) (hob : d.operandBatchingDims = [])
    (y : (⟨2, ![n, C]⟩ : Shape).Idx) : d.offCoord y 2 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- The pair gather read at `(e, j)`: table `idx[e,0]`, row `idx[e,1]`, each read signed and clamped into its axis,
    at column `j`. -/
theorem gather_pair {α : Type} {K N C n w : Nat} (d : GatherDims ⟨3, ![K, N, C]⟩ ⟨2, ![n, 2]⟩ ⟨2, ![n, C]⟩)
    (hoff : d.offsetDims = [1]) (hcoll : d.collapsedSliceDims = [0, 1]) (hob : d.operandBatchingDims = [])
    (hsim : d.startIndexMap = [0, 1]) (hivd : d.indexVectorDim = 1)
    (x : (⟨3, ![K, N, C]⟩ : Shape).Idx → α) (idx : IVec ⟨2, ![n, 2]⟩ w) (e : Fin n) (j : Fin C) (hK : 0 < K) (hN : 0 < N) :
    Host.gather d x idx (ix2 e j)
      = x (ix3 (⟨min (idx (ix2 e (0 : Fin 2))).toInt.toNat (K - 1), by omega⟩ : Fin K)
            (⟨min (idx (ix2 e (1 : Fin 2))).toInt.toNat (N - 1), by omega⟩ : Fin N) j) := by
  unfold Host.gather
  congr 1
  funext a
  have hnb : ∀ a : Fin 3, a ∉ d.operandBatchingDims := fun a => by rw [hob]; exact List.not_mem_nil
  match a with
  | ⟨0, _⟩ =>
    apply Fin.ext
    have hb := d.batchCoord_eq_zero (ix2 e j) 0 (hnb 0)
    have ho := d.offCoord_eq_zero (ix2 e j) 0 (by rw [GatherDims.mem_sKept, hcoll]; simp)
    have hst : d.start (ix2 e j) idx 0 = min (idx (ix2 e (0 : Fin 2))).toInt.toNat (K - 1) :=
      gather_pair_start0 d hoff hcoll hsim hivd idx (ix2 e j)
    show d.start (ix2 e j) idx 0 + d.batchCoord (ix2 e j) 0 + d.offCoord (ix2 e j) 0 = min (idx (ix2 e (0 : Fin 2))).toInt.toNat (K - 1)
    omega
  | ⟨1, _⟩ =>
    apply Fin.ext
    have hb := d.batchCoord_eq_zero (ix2 e j) 1 (hnb 1)
    have ho := d.offCoord_eq_zero (ix2 e j) 1 (by rw [GatherDims.mem_sKept, hcoll]; simp)
    have hst : d.start (ix2 e j) idx 1 = min (idx (ix2 e (1 : Fin 2))).toInt.toNat (N - 1) :=
      gather_pair_start1 d hoff hcoll hsim hivd idx (ix2 e j)
    show d.start (ix2 e j) idx 1 + d.batchCoord (ix2 e j) 1 + d.offCoord (ix2 e j) 1 = min (idx (ix2 e (1 : Fin 2))).toInt.toNat (N - 1)
    omega
  | ⟨2, _⟩ =>
    apply Fin.ext
    have hb := d.batchCoord_eq_zero (ix2 e j) 2 (hnb 2)
    have ho : d.offCoord (ix2 e j) 2 = j.val := gather_pair_off2 d hoff hcoll hob (ix2 e j)
    have hst : d.start (ix2 e j) idx 2 = 0 := by
      unfold GatherDims.start
      rw [dif_neg (by rw [hsim]; simp)]
    show d.start (ix2 e j) idx 2 + d.batchCoord (ix2 e j) 2 + d.offCoord (ix2 e j) 2 = j.val
    omega

end Idealize.ShloMosaic.PairIndex

noncomputable section

namespace Cert.ReferenceIdeal.GnnR

open Cert.ReferenceIdeal Cert.ReferenceIdeal.Facts₀ Cert.ReferenceIdeal.Facts
open Idealize.ShloMosaic Idealize.ShloMosaic.TcCoe Idealize.SL.Sem

variable [Cert.ReferenceIdeal.Facts]

/-- An index array with no negative entry is its own wrap. -/
theorem wrap_id (n : BitVec 32) (idx : Vec Ideal S3200000 .i32) (h : ∀ e : Fin 3200000, 0 ≤ (idx (ValueIdx.ix1 e)).toInt) :
    wrap n idx = idx := by
  funext i
  obtain ⟨e, rfl⟩ : ∃ e : Fin 3200000, i = ValueIdx.ix1 e := ⟨i 0, ValueIdx.eq_ix1 i⟩
  unfold wrap
  rw [ValueIdx.select_apply]
  -- the compare against the zero column is "entry < 0 signed": false where the entry is not negative
  have hc : cmpi .slt idx (broadcastInDim S3200000 ![] bcast_S_S3200000 (constantI S_ 32 0#32)) (ValueIdx.ix1 e) = 0#1 := by
    show IntOp.cmpi .slt (idx (ValueIdx.ix1 e)) 0#32 = 0#1
    have h0 : (0#32 : BitVec 32).toInt = 0 := by decide
    have hlt : ¬ (idx (ValueIdx.ix1 e)).toInt < 0 := not_lt.mpr (h e)
    simp only [IntOp.cmpi, BitVec.slt, h0, hlt, decide_false]
    rfl
  rw [hc, ValueIdx.select_zero]

/-- A vector kept as a column reads, at row `e`, the vector at `e`. -/
private theorem col_apply (v : Vec Ideal S3200000 .i32) (e : Fin 3200000) (q : Fin 1) :
    broadcastInDim S3200000x1 ![0] bcast_S3200000_S3200000x1_0 v (ValueIdx.ix2 e q) = v (ValueIdx.ix1 e) := by
  refine broadcastInDim_apply (s := S3200000) (t := S3200000x1) ![0] bcast_S3200000_S3200000x1_0 v (ValueIdx.ix2 e q) (ValueIdx.ix1 e) ?_
  intro a
  match a with
  | ⟨0, _⟩ =>
    show e.val = if (3200000 : Nat) = 1 then 0 else e.val
    rw [if_neg (by decide)]

/-- The two columns laid side by side read, at `(e, 0)`, the first vector at `e`. -/
private theorem pair_apply0 (u v : Vec Ideal S3200000 .i32) (e : Fin 3200000) :
    concatenate S3200000x2 1
      [⟨S3200000x1, broadcastInDim S3200000x1 ![0] bcast_S3200000_S3200000x1_0 u⟩,
       ⟨S3200000x1, broadcastInDim S3200000x1 ![0] bcast_S3200000_S3200000x1_0 v⟩]
      concatenates_S3200000x1_S3200000x1_S3200000x2_d1 (ValueIdx.ix2 e (0 : Fin 2)) = u (ValueIdx.ix1 e) := by
  refine (concatenate_apply_piece (t := S3200000x2) 1
      [⟨S3200000x1, broadcastInDim S3200000x1 ![0] bcast_S3200000_S3200000x1_0 u⟩,
       ⟨S3200000x1, broadcastInDim S3200000x1 ![0] bcast_S3200000_S3200000x1_0 v⟩]
      concatenates_S3200000x1_S3200000x1_S3200000x2_d1 (ValueIdx.ix2 e (0 : Fin 2))
    0 Nat.zero_lt_two S3200000x1 (broadcastInDim S3200000x1 ![0] bcast_S3200000_S3200000x1_0 u) rfl rfl 0 rfl
    (ValueIdx.ix2 e (0 : Fin 1)) ?_ ?_).trans (col_apply u e 0)
  · intro b hb
    match b with
    | ⟨0, _⟩ => rfl
    | ⟨1, _⟩ => exact absurd rfl hb
  · rfl

/-- … and, at `(e, 1)`, the second vector at `e`. -/
private theorem pair_apply1 (u v : Vec Ideal S3200000 .i32) (e : Fin 3200000) :
    concatenate S3200000x2 1
      [⟨S3200000x1, broadcastInDim S3200000x1 ![0] bcast_S3200000_S3200000x1_0 u⟩,
       ⟨S3200000x1, broadcastInDim S3200000x1 ![0] bcast_S3200000_S3200000x1_0 v⟩]
      concatenates_S3200000x1_S3200000x1_S3200000x2_d1 (ValueIdx.ix2 e (1 : Fin 2)) = v (ValueIdx.ix1 e) := by
  refine (concatenate_apply_piece (t := S3200000x2) 1
      [⟨S3200000x1, broadcastInDim S3200000x1 ![0] bcast_S3200000_S3200000x1_0 u⟩,
       ⟨S3200000x1, broadcastInDim S3200000x1 ![0] bcast_S3200000_S3200000x1_0 v⟩]
      concatenates_S3200000x1_S3200000x1_S3200000x2_d1 (ValueIdx.ix2 e (1 : Fin 2))
    1 Nat.one_lt_two S3200000x1 (broadcastInDim S3200000x1 ![0] bcast_S3200000_S3200000x1_0 v) rfl rfl 1 rfl
    (ValueIdx.ix2 e (0 : Fin 1)) ?_ ?_).trans (col_apply v e 0)
  · intro b hb
    match b with
    | ⟨0, _⟩ => rfl
    | ⟨1, _⟩ => exact absurd rfl hb
  · rfl

/-- For indices that are not negative the reference's gather reads the messages. -/
theorem msgR_eq (t : Vec Ideal S3x100000x30 .f32) (et src : Vec Ideal S3200000 .i32)
    (het : ∀ e : Fin 3200000, 0 ≤ (et (ValueIdx.ix1 e)).toInt) (hsrc : ∀ e : Fin 3200000, 0 ≤ (src (ValueIdx.ix1 e)).toInt) :
    msgR t et src = Gnn.msg t et src := by
  funext i
  obtain ⟨e, f, rfl⟩ : ∃ (e : Fin 3200000) (f : Fin 30), i = ValueIdx.ix2 e f := ⟨i 0, i 1, ValueIdx.eq_ix2 i⟩
  unfold msgR
  -- no index is negative: the wraps drop
  rw [wrap_id 3#32 et het, wrap_id 100000#32 src hsrc]
  -- the gather at (e, f) is the table at (clamp idx[e,0], clamp idx[e,1], f)
  refine (PairIndex.gather_pair gather_S3x100000x30_S3200000x2_S3200000x30_1_01_n_n_01_1_1130 rfl rfl rfl rfl rfl
    t _ e f (by decide) (by decide)).trans ?_
  show _ = Gnn.msgAt t et src e f
  unfold Gnn.msgAt
  -- the index array's two columns are the edge types and the sources
  congr 1
  funext a
  match a with
  | ⟨0, _⟩ =>
    apply Fin.ext
    show min (_ : BitVec 32).toInt.toNat (3 - 1) = min (et (ValueIdx.ix1 e)).toInt.toNat 2
    rw [pair_apply0 et src e]
  | ⟨1, _⟩ =>
    apply Fin.ext
    show min (_ : BitVec 32).toInt.toNat (100000 - 1) = min (src (ValueIdx.ix1 e)).toInt.toNat 99999
    rw [pair_apply1 et src e]
  | ⟨2, _⟩ => rfl

end Cert.ReferenceIdeal.GnnR

end
-- ==== Proof.RFold.lean ====
/-
  The reference program's two results as the specification's stages of its argument arrays.
-/
import proofs.«413908_j6485400616961_2_alg».proof.Proof.Gen.ReferenceIdeal.Run
import proofs.«413908_j6485400616961_2_alg».proof.Proof.Gen.ReferenceIdeal.Read
import proofs.«413908_j6485400616961_2_alg».proof.Proof.RStages
import proofs.«413908_j6485400616961_2_alg».proof.Proof.RDense
import proofs.«413908_j6485400616961_2_alg».proof.Proof.RGru
import proofs.«413908_j6485400616961_2_alg».proof.Proof.RMsg

set_option maxRecDepth 16384

noncomputable section

namespace Cert.ReferenceIdeal.GnnR

open Cert.ReferenceIdeal Cert.ReferenceIdeal.Facts₀ Cert.ReferenceIdeal.Facts
open Idealize.ShloMosaic Idealize.ShloMosaic.TcCoe Idealize.SL.Sem

variable [Cert.ReferenceIdeal.Facts]

section Stages

/-! The stage functions of abstract argument arrays.  Each stage of the reference is, by definition, one host
    operation applied to earlier stages; grouped, the stages are the chains named in the stage definitions, with the
    earlier stage left as an operand. -/

variable (x0 : Vec Ideal S100000x30 .f32) (x1 x2 x3 x4 x5 : Vec Ideal S3200000 .i32)
  (x6 : Vec Ideal S3x30x30 .f32) (x7 : Vec Ideal S3x30 .f32) (x8 x9 : Vec Ideal S90x30 .f32) (x10 x11 : Vec Ideal S90 .f32)
  (x12 : Vec Ideal S3x30x30 .f32) (x13 : Vec Ideal S3x30 .f32) (x14 x15 : Vec Ideal S90x30 .f32) (x16 x17 : Vec Ideal S90 .f32)

/-- First layer: the per-type tables are the contraction, transposed, plus the spread bias. -/
private theorem stageR4 : Read.val_main_v4 (F := Ideal) x0 x6 x7 = denseR x0 x6 x7 := rfl

/-- First layer: the messages are the gather of the tables by (edge type, source), both wrapped. -/
private theorem stageR18 : Read.val_main_v18 (F := Ideal) x0 x1 x3 x6 x7 = msgR (Read.val_main_v4 (F := Ideal) x0 x6 x7) x3 x1 := rfl

/-- First layer: the aggregate is the scatter-add of the messages into zeros at the destination rows. -/
private theorem stageR21 : Read.val_main_v21 (F := Ideal) x0 x1 x2 x3 x6 x7 = agg x2 (Read.val_main_v18 (F := Ideal) x0 x1 x3 x6 x7) := rfl

/-- First layer: the two gate weight matrices, transposed. -/
private theorem stageR22 : Read.val_main_v22 (F := Ideal) x8 = gT x8 := rfl
private theorem stageR27 : Read.val_main_v27 (F := Ideal) x9 = gT x9 := rfl

/-- First layer: the cell on the aggregate and the input features. -/
private theorem stageR59 : Read.val_main_v59 (F := Ideal) x0 x1 x2 x3 x6 x7 x8 x9 x10 x11 =
    gruR (Read.val_main_v21 (F := Ideal) x0 x1 x2 x3 x6 x7) x0 (Read.val_main_v22 (F := Ideal) x8) (Read.val_main_v27 (F := Ideal) x9) x10 x11 := rfl

/-- Between the layers: the maximum with zero. -/
private theorem stageR60 : Read.val_main_v60 (F := Ideal) x0 x1 x2 x3 x6 x7 x8 x9 x10 x11 = reluR (Read.val_main_v59 (F := Ideal) x0 x1 x2 x3 x6 x7 x8 x9 x10 x11) := rfl

/-- Second layer: the per-type tables of the first layer's features. -/
private theorem stageR65 : Read.val_main_v65 (F := Ideal) x0 x1 x2 x3 x6 x7 x8 x9 x10 x11 x12 x13 = denseR (Read.val_main_v60 (F := Ideal) x0 x1 x2 x3 x6 x7 x8 x9 x10 x11) x12 x13 := rfl

/-- Second layer: the messages. -/
private theorem stageR79 : Read.val_main_v79 (F := Ideal) x0 x1 x2 x3 x6 x7 x8 x9 x10 x11 x12 x13 = msgR (Read.val_main_v65 (F := Ideal) x0 x1 x2 x3 x6 x7 x8 x9 x10 x11 x12 x13) x3 x1 := rfl

/-- Second layer: the aggregate. -/
private theorem stageR82 : Read.val_main_v82 (F := Ideal) x0 x1 x2 x3 x6 x7 x8 x9 x10 x11 x12 x13 = agg x2 (Read.val_main_v79 (F := Ideal) x0 x1 x2 x3 x6 x7 x8 x9 x10 x11 x12 x13) := rfl

/-- Second layer: the two gate weight matrices, transposed. -/
private theorem stageR83 : Read.val_main_v83 (F := Ideal) x14 = gT x14 := rfl
private theorem stageR88 : Read.val_main_v88 (F := Ideal) x15 = gT x15 := rfl

/-- Second layer: the cell on the aggregate and the first layer's features. -/
private theorem stageR120 : Read.val_main_v120 (F := Ideal) x0 x1 x2 x3 x6 x7 x8 x9 x10 x11 x12 x13 x14 x15 x16 x17 =
    gruR (Read.val_main_v82 (F := Ideal) x0 x1 x2 x3 x6 x7 x8 x9 x10 x11 x12 x13) (Read.val_main_v60 (F := Ideal) x0 x1 x2 x3 x6 x7 x8 x9 x10 x11) (Read.val_main_v83 (F := Ideal) x14) (Read.val_main_v88 (F := Ideal) x15) x16 x17 := rfl

/-- First result: the edge scores of the second layer's features at the wrapped (src, dst). -/
private theorem stageR137 : Read.val_main_v137 (F := Ideal) x0 x1 x2 x3 x6 x7 x8 x9 x10 x11 x12 x13 x14 x15 x16 x17 = edge (Read.val_main_v120 (F := Ideal) x0 x1 x2 x3 x6 x7 x8 x9 x10 x11 x12 x13 x14 x15 x16 x17) (wrap 100000#32 x1) (wrap 100000#32 x2) := rfl

/-- Second result: the edge scores at the wrapped (neg_src, neg_dst). -/
private theorem stageR154 : Read.val_main_v154 (F := Ideal) x0 x1 x2 x3 x4 x5 x6 x7 x8 x9 x10 x11 x12 x13 x14 x15 x16 x17 = edge (Read.val_main_v120 (F := Ideal) x0 x1 x2 x3 x6 x7 x8 x9 x10 x11 x12 x13 x14 x15 x16 x17) (wrap 100000#32 x4) (wrap 100000#32 x5) := rfl

/-- The features after the first layer are the specification's layer with the maximum with zero: tables, messages
    (the indices are not negative), aggregation, cell, in that order. -/
private theorem layerR1 (hx1 : ∀ e : Fin 3200000, 0 ≤ (x1 (ValueIdx.ix1 e)).toInt) (hx3 : ∀ e : Fin 3200000, 0 ≤ (x3 (ValueIdx.ix1 e)).toInt) :
    Read.val_main_v60 (F := Ideal) x0 x1 x2 x3 x6 x7 x8 x9 x10 x11 = Gnn.layer true (agg x2) x0 x3 x1 x6 x7 (gT x8) (gT x9) x10 x11 := by
  rw [stageR60, stageR59, stageR21, stageR18, stageR4, stageR22, stageR27, denseR_eq, msgR_eq _ _ _ hx3 hx1, gruR_eq, reluR_gru]
  rfl

/-- The features after the second layer are the specification's layer, without the maximum, of the first layer's. -/
private theorem layerR2 (hx1 : ∀ e : Fin 3200000, 0 ≤ (x1 (ValueIdx.ix1 e)).toInt) (hx3 : ∀ e : Fin 3200000, 0 ≤ (x3 (ValueIdx.ix1 e)).toInt) :
    Read.val_main_v120 (F := Ideal) x0 x1 x2 x3 x6 x7 x8 x9 x10 x11 x12 x13 x14 x15 x16 x17 = Gnn.layer false (agg x2) (Read.val_main_v60 (F := Ideal) x0 x1 x2 x3 x6 x7 x8 x9 x10 x11) x3 x1 x12 x13 (gT x14) (gT x15) x16 x17 := by
  rw [stageR120, stageR82, stageR79, stageR65, stageR83, stageR88, denseR_eq, msgR_eq _ _ _ hx3 hx1, gruR_eq]
  rfl

end Stages

variable (m : Mem)

/-- The first result's term is the scores of the edges (src, dst), for indices that are not negative. -/
theorem res0_eq (c : Dev nD)
    (h1 : ∀ e : Fin 3200000, 0 ≤ ((m ((c.tc : Thread nD τ).loc main_arg1)) (ValueIdx.ix1 e)).toInt)
    (h2 : ∀ e : Fin 3200000, 0 ≤ ((m ((c.tc : Thread nD τ).loc main_arg2)) (ValueIdx.ix1 e)).toInt)
    (h3 : ∀ e : Fin 3200000, 0 ≤ ((m ((c.tc : Thread nD τ).loc main_arg3)) (ValueIdx.ix1 e)).toInt) :
    Cert.ReferenceIdeal.Value.res_main_v137 (F := Ideal) m c = out0 m c := by
  refine (Read.val_main_v137_eq (F := Ideal) m c).trans ?_
  rw [stageR137, wrap_id _ _ h1, wrap_id _ _ h2, layerR2 (hx1 := h1) (hx3 := h3), layerR1 (hx1 := h1) (hx3 := h3)]
  rfl

/-- The second result's term is the scores of the edges (neg_src, neg_dst), for indices that are not negative. -/
theorem res1_eq (c : Dev nD)
    (h1 : ∀ e : Fin 3200000, 0 ≤ ((m ((c.tc : Thread nD τ).loc main_arg1)) (ValueIdx.ix1 e)).toInt)
    (h3 : ∀ e : Fin 3200000, 0 ≤ ((m ((c.tc : Thread nD τ).loc main_arg3)) (ValueIdx.ix1 e)).toInt)
    (h4 : ∀ e : Fin 3200000, 0 ≤ ((m ((c.tc : Thread nD τ).loc main_arg4)) (ValueIdx.ix1 e)).toInt)
    (h5 : ∀ e : Fin 3200000, 0 ≤ ((m ((c.tc : Thread nD τ).loc main_arg5)) (ValueIdx.ix1 e)).toInt) :
    Cert.ReferenceIdeal.Value.res_main_v154 (F := Ideal) m c = out1 m c := by
  refine (Read.val_main_v154_eq (F := Ideal) m c).trans ?_
  rw [stageR154, wrap_id _ _ h4, wrap_id _ _ h5, layerR2 (hx1 := h1) (hx3 := h3), layerR1 (hx1 := h1) (hx3 := h3)]
  rfl

end Cert.ReferenceIdeal.GnnR

end
-- ==== Proof.PreRanges.lean ====
/-
  The index ranges the precondition states, decoded: every source, destination and negative-sample index lies in
  [0, 100000) and every edge type in [0, 3), each read signed.
-/
import proofs.«413908_j6485400616961_2_alg».proof.Pre_finite_inputs
import proofs.«413908_j6485400616961_2_alg».proof.Proof.Spec
import Idealize.ShloMosaic.Lib.StableHlo.Predicate
import Idealize.ShloMosaic.Lib.ReduceAll

set_option maxRecDepth 16384

noncomputable section

namespace Cert.Pre_finite_inputs.GnnPre

open Cert.Pre_finite_inputs Cert.Pre_finite_inputs.Facts
open Idealize.ShloMosaic

variable [Cert.Pre_finite_inputs.Facts]

/-- The rank-0 shape has one index. -/
private theorem subsingleton_scalar_idx : Subsingleton S_.Idx := ⟨fun _ _ => funext fun d => d.elim0⟩
attribute [local instance] subsingleton_scalar_idx

/-- A conjunction of two scalar bits that is 1 everywhere: so is each. -/
private theorem andi_split {p q : IVec S_ 1} (h : andi p q = fun _ => 1#1) : (p = fun _ => 1#1) ∧ (q = fun _ => 1#1) := by
  refine ⟨funext fun j => ?_, funext fun j => ?_⟩
  · exact (IntOp.andi_eq_one.1 (congrFun h j)).1
  · exact (IntOp.andi_eq_one.1 (congrFun h j)).2

/-- One index test read back. The and-reduction over the edge axis of (lo ≤ x signed) and (x < hi signed), each bound a
    scalar constant laid along the axis, is 1: then every entry of x, read signed, lies in [lo, hi). -/
private theorem range_of_test (x : IVec S3200000 32) (lo hi : BitVec 32) (a b : Int) (ha : lo.toInt = a) (hb : hi.toInt = b)
    (h : Host.reduce IntOp.andi
        (andi (cmpi .sge x (broadcastInDim S3200000 ![] bcast_S_S3200000 (constantI S_ 32 lo)))
          (cmpi .slt x (broadcastInDim S3200000 ![] bcast_S_S3200000 (constantI S_ 32 hi))))
        (constantI S_ 1 1#1) reducesTo_S3200000_S_d0 h_S_ = fun _ => 1#1) :
    ∀ e : Fin 3200000, a ≤ (x (ValueIdx.ix1 e)).toInt ∧ (x (ValueIdx.ix1 e)).toInt < b := by
  intro e
  have hp := Host.reduce_andi_all _ _ reducesTo_S3200000_S_d0 h_S_ ValueIdx.ix0 (congrFun h ValueIdx.ix0) (ValueIdx.ix1 e)
  simp only [andi, cmpi, broadcastInDim, constantI] at hp
  rw [IntOp.andi_eq_one, IntOp.cmpi_sge, IntOp.cmpi_slt, ha, hb] at hp
  exact hp

/-- The last part of the chain: its incoming bit and the two negative-sample tests. -/
private theorem ranges_part5 (a4 a5 : IVec S3200000 32) (v : IVec S_ 1)
    (h : fn_part5 (F := Ideal) a4 a5 v = fun _ => 1#1) :
    (v = fun _ => 1#1) ∧ Gnn.InRange 100000 a4 ∧ Gnn.InRange 100000 a5 := by
  unfold fn_part5 at h
  dsimp only at h
  obtain ⟨h1, h5⟩ := andi_split h
  obtain ⟨hv, h4⟩ := andi_split h1
  exact ⟨hv, range_of_test a4 _ _ 0 100000 (by decide) (by decide) h4,
    range_of_test a5 _ _ 0 100000 (by decide) (by decide) h5⟩

/-- The fourth part: it closes the source test from its two compares, and holds the destination and edge-type tests. -/
private theorem ranges_part4 (a2 a3 a4 a5 : IVec S3200000 32) (v : IVec S_ 1) (ge lt : IVec S3200000 1)
    (h : fn_part4 (F := Ideal) a2 a3 a4 a5 v ge lt = fun _ => 1#1) :
    (Host.reduce IntOp.andi (andi ge lt) (constantI S_ 1 1#1) reducesTo_S3200000_S_d0 h_S_ = fun _ => 1#1)
      ∧ Gnn.InRange 100000 a2 ∧ Gnn.InRange 3 a3 ∧ Gnn.InRange 100000 a4 ∧ Gnn.InRange 100000 a5 := by
  unfold fn_part4 at h
  dsimp only at h
  obtain ⟨h84, r4, r5⟩ := ranges_part5 _ _ _ h
  obtain ⟨h77, h3⟩ := andi_split h84
  obtain ⟨h70, h2⟩ := andi_split h77
  obtain ⟨-, h1⟩ := andi_split h70
  exact ⟨h1, range_of_test a2 _ _ 0 100000 (by decide) (by decide) h2,
    range_of_test a3 _ _ 0 3 (by decide) (by decide) h3, r4, r5⟩

/-- The third part opens the source test; everything before it is a test of float inputs. -/
private theorem ranges_part3 (a1 a2 a3 a4 a5 : IVec S3200000 32) (y16 y17 : FVec Ideal S90 .f32) (v : IVec S_ 1)
    (p q : FVec Ideal S90x30 .f32)
    (h : fn_part3 (F := Ideal) a1 a2 a3 a4 a5 y16 y17 v p q = fun _ => 1#1) :
    Gnn.InRange 100000 a1 ∧ Gnn.InRange 100000 a2 ∧ Gnn.InRange 3 a3 ∧ Gnn.InRange 100000 a4 ∧ Gnn.InRange 100000 a5 := by
  unfold fn_part3 at h
  dsimp only at h
  obtain ⟨h1, r⟩ := ranges_part4 _ _ _ _ _ _ _ h
  exact ⟨range_of_test a1 _ _ 0 100000 (by decide) (by decide) h1, r⟩

/-- If the precondition's predicate is all ones on its eighteen arrays, the five index arrays are in range. -/
theorem ranges_of_fn (x0 : FVec Ideal S100000x30 .f32) (x1 x2 x3 x4 x5 : IVec S3200000 32)
    (x6 : FVec Ideal S3x30x30 .f32) (x7 : FVec Ideal S3x30 .f32) (x8 x9 : FVec Ideal S90x30 .f32) (x10 x11 : FVec Ideal S90 .f32)
    (x12 : FVec Ideal S3x30x30 .f32) (x13 : FVec Ideal S3x30 .f32) (x14 x15 : FVec Ideal S90x30 .f32) (x16 x17 : FVec Ideal S90 .f32)
    (h : fn (F := Ideal) x0 x1 x2 x3 x4 x5 x6 x7 x8 x9 x10 x11 x12 x13 x14 x15 x16 x17 = fun _ => 1#1) :
    Gnn.InRange 100000 x1 ∧ Gnn.InRange 100000 x2 ∧ Gnn.InRange 3 x3 ∧ Gnn.InRange 100000 x4 ∧ Gnn.InRange 100000 x5 := by
  unfold fn at h
  dsimp only at h
  unfold fn_part1 at h
  dsimp only at h
  unfold fn_part2 at h
  dsimp only at h
  exact ranges_part3 _ _ _ _ _ _ _ _ _ _ h

end Cert.Pre_finite_inputs.GnnPre

end
-- ==== Proof.Bridge.lean ====
/-
  The two programs' stages meet: the aggregation, the edge scores and the exchange of the gate weights are the same
  library functions in both programs, and the layers are the one specification, so on memories that agree on the
  eighteen arguments the reference's two results are the kernel program's.
-/
import proofs.«413908_j6485400616961_2_alg».proof.Proof.KStages
import proofs.«413908_j6485400616961_2_alg».proof.Proof.RStages

noncomputable section

namespace Cert.GnnBridge

open Idealize.ShloMosaic Idealize.ShloMosaic.TcCoe Idealize.SL.Sem
open Cert.KernelIdeal (GnnK.agg GnnK.edge GnnK.gT GnnK.h1 GnnK.h2 GnnK.out0 GnnK.out1)

variable [Cert.KernelIdeal.Facts] [Cert.ReferenceIdeal.Facts]

/-- The aggregation is one function in both programs. -/
theorem agg_eq : @Cert.ReferenceIdeal.GnnR.agg _ = @Cert.KernelIdeal.GnnK.agg _ := rfl
/-- The edge scores are one function in both programs. -/
theorem edge_eq : @Cert.ReferenceIdeal.GnnR.edge _ = @Cert.KernelIdeal.GnnK.edge _ := rfl
/-- The exchange of the gate weights' axes is one function in both programs. -/
theorem gT_eq : @Cert.ReferenceIdeal.GnnR.gT _ = @Cert.KernelIdeal.GnnK.gT _ := rfl

variable (m : Cert.KernelIdeal.GnnK.Mem) (m' : Cert.ReferenceIdeal.GnnR.Mem) (c : Dev Cert.KernelIdeal.nD)

/-- On agreeing memories the second layer's features agree. -/
theorem h2_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.GnnR.h2 m' c = Cert.KernelIdeal.GnnK.h2 m c := by
  obtain ⟨e0, e1, e2, e3, e4, e5, e6, e7, e8, e9, e10, e11, e12, e13, e14, e15, e16, e17⟩ := hag
  unfold Cert.ReferenceIdeal.GnnR.h2 Cert.ReferenceIdeal.GnnR.h1 Cert.KernelIdeal.GnnK.h2 Cert.KernelIdeal.GnnK.h1
  rw [e0, e1, e2, e3, e6, e7, e8, e9, e10, e11, e12, e13, e14, e15, e16, e17, agg_eq, gT_eq]

/-- On agreeing memories the scores of the edges (src, dst) agree. -/
theorem out0_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.GnnR.out0 m' c = Cert.KernelIdeal.GnnK.out0 m c := by
  have h := h2_eq m m' c hag
  obtain ⟨e0, e1, e2, e3, e4, e5, e6, e7, e8, e9, e10, e11, e12, e13, e14, e15, e16, e17⟩ := hag
  unfold Cert.ReferenceIdeal.GnnR.out0 Cert.KernelIdeal.GnnK.out0
  rw [h, e1, e2, edge_eq]

/-- On agreeing memories the scores of the edges (neg_src, neg_dst) agree. -/
theorem out1_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.GnnR.out1 m' c = Cert.KernelIdeal.GnnK.out1 m c := by
  have h := h2_eq m m' c hag
  obtain ⟨e0, e1, e2, e3, e4, e5, e6, e7, e8, e9, e10, e11, e12, e13, e14, e15, e16, e17⟩ := hag
  unfold Cert.ReferenceIdeal.GnnR.out1 Cert.KernelIdeal.GnnK.out1
  rw [h, e4, e5, edge_eq]

end Cert.GnnBridge

end
-- ==== Proof.lean ====
/-
  Two message-passing layers and an edge scorer, against their jnp reference, over the extended reals.

  Both programs compute, per layer: one table per edge type t[k, n, ·] = h[n, ·] contracted against W[k] plus b[k];
  a message per edge, row src[e] of table etype[e]; the sum of the messages over destination nodes; and a gated
  recurrent cell of the aggregate and the node features (followed by the maximum with zero after the first layer).
  Then the score of an edge is the inner product of the final features of its endpoints.  The kernel program tiles the
  two dense stages over blocks of 5000 nodes and gathers from the tables laid out as 300000 rows at etype * 100000 + src;
  the reference gathers with the pair (etype, src) after Python's wrap of negative indices.  Under the precondition —
  every float input finite, every node index in [0, 100000), every edge type in [0, 3) — the wrap and the clamps change
  nothing and the two gathers read the same rows, so the two programs are the same function of their arguments; no
  law of the extended reals beyond commutativity of a product inside a sum is used, and finiteness is never needed.

  The frames of the two kernel programs are the generated ones; the reference's frame is its generated run with the
  results dropped.  For the value claim both runs are stated with the same result terms: the kernel program's stages
  of its own arguments.
-/
import proofs.«413908_j6485400616961_2_alg».proof.Defs
import proofs.«413908_j6485400616961_2_alg».proof.Proof.Gen.Kernel
import proofs.«413908_j6485400616961_2_alg».proof.Proof.Gen.Kernel.Skeleton
import proofs.«413908_j6485400616961_2_alg».proof.Proof.Gen.Kernel.Launch
import proofs.«413908_j6485400616961_2_alg».proof.Proof.Gen.Kernel.Points
import proofs.«413908_j6485400616961_2_alg».proof.Proof.Gen.Kernel.Frame
import proofs.«413908_j6485400616961_2_alg».proof.Proof.Gen.KernelIdeal
import proofs.«413908_j6485400616961_2_alg».proof.Proof.Gen.KernelIdeal.Skeleton
import proofs.«413908_j6485400616961_2_alg».proof.Proof.Gen.KernelIdeal.Launch
import proofs.«413908_j6485400616961_2_alg».proof.Proof.Gen.KernelIdeal.Points
import proofs.«413908_j6485400616961_2_alg».proof.Proof.Gen.KernelIdeal.Frame
import proofs.«413908_j6485400616961_2_alg».proof.Proof.Gen.ReferenceIdeal
import proofs.«413908_j6485400616961_2_alg».proof.Proof.Gen.Pre_finite_inputs
import proofs.«413908_j6485400616961_2_alg».proof.Proof.Gen.ReferenceIdeal.Run
import proofs.«413908_j6485400616961_2_alg».proof.Proof.Gen.ReferenceIdeal.Read
import proofs.«413908_j6485400616961_2_alg».proof.Proof.KRun
import proofs.«413908_j6485400616961_2_alg».proof.Proof.KFold
import proofs.«413908_j6485400616961_2_alg».proof.Proof.RFold
import proofs.«413908_j6485400616961_2_alg».proof.Proof.PreRanges
import proofs.«413908_j6485400616961_2_alg».proof.Proof.Bridge
import Idealize.ShloMosaic.Adequacy
import Idealize.ShloMosaic.Init

noncomputable section

namespace Cert.Proof

open Idealize.ShloMosaic Idealize.SL.Sem

/-- An index array equal to one in range has no negative entry. -/
theorem nonneg_of_eq {n : Nat} {x y : IVec Gnn.SEdge 32} (h : x = y) (hy : Gnn.InRange n y) :
    ∀ e : Fin 3200000, 0 ≤ (x (ValueIdx.ix1 e)).toInt := fun e => h ▸ (hy e).1

/-- The value claim: from memories agreeing on the arguments both programs end with the kernel program's stages
    of the arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  have hr := fun c => Cert.Pre_finite_inputs.GnnPre.ranges_of_fn _ _ _ _ _ _ _ _ _ _ _ _ _ _ _ _ _ _ (hpre c)
  refine ⟨fun c => Cert.KernelIdeal.GnnK.out0 m c, fun c => Cert.KernelIdeal.GnnK.out1 m c, ?_, ?_⟩
  · exact (θ_run _ _ _).mono (fun r h c =>
      ⟨(h c).1.trans (Cert.KernelIdeal.GnnK.W18_v32 m ρ c (hr c).2.2.1 (hr c).1),
       (h c).2.1.trans (Cert.KernelIdeal.GnnK.W18_v37 m ρ c (hr c).2.2.1 (hr c).1),
       (h c).2.2⟩) (Cert.KernelIdeal.Gen.run_vals (F := Ideal) m ρ)
  · exact (θ_run _ _ _).mono (fun r h c =>
      ⟨(h c).1.trans ((Cert.ReferenceIdeal.GnnR.res0_eq m' c
            (nonneg_of_eq (hag c).2.1 (hr c).1) (nonneg_of_eq (hag c).2.2.1 (hr c).2.1) (nonneg_of_eq (hag c).2.2.2.1 (hr c).2.2.1)).trans
          (Cert.GnnBridge.out0_eq m m' c (hag c))),
       (h c).2.1.trans ((Cert.ReferenceIdeal.GnnR.res1_eq m' c
            (nonneg_of_eq (hag c).2.1 (hr c).1) (nonneg_of_eq (hag c).2.2.2.1 (hr c).2.2.1)
            (nonneg_of_eq (hag c).2.2.2.2.1 (hr c).2.2.2.1) (nonneg_of_eq (hag c).2.2.2.2.2.1 (hr c).2.2.2.2)).trans
          (Cert.GnnBridge.out1_eq m m' c (hag c))),
       (h c).2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
